-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3200000 : Shape := ⟨1, ![3200000]⟩
abbrev S100000x1 : Shape := ⟨2, ![100000, 1]⟩
abbrev S50000x1 : Shape := ⟨2, ![50000, 1]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3200000 : S_.BroadcastsInDim S3200000 (![] : Fin 0 → Fin S3200000.rank)
  reducesTo_S3200000_S_d0 : S3200000.ReducesTo [0] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg9 : IVec S16384 32) (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  let main_c_13 : IVec S_ 32 := constantI S_ 32 0#32
  let main_v36 : IVec S16384 32 := broadcastInDim S16384 ![] bcast_S_S16384 main_c_13
  let main_v37 : IVec S16384 1 := cmpi .sge main_arg9 main_v36
  let main_c_14 : IVec S_ 32 := constantI S_ 32 50000#32
  let main_v38 : IVec S16384 32 := broadcastInDim S16384 ![] bcast_S_S16384 main_c_14
  let main_v39 : IVec S16384 1 := cmpi .slt main_arg9 main_v38
  let main_v40 : IVec S16384 1 := andi main_v37 main_v39
  let main_c_15 : IVec S_ 1 := constantI S_ 1 1#1
  let main_v41 : IVec S_ 1 := (fun x v => Host.reduce IntOp.andi x v reducesTo_S16384_S_d0 h_S_) main_v40 main_c_15
  let main_v42 : IVec S_ 1 := andi main_v35 main_v41
  main_v42

def fn_part1 {F : FTy → Type} [FloatOps F] (main_arg4 : FVec F S50000x1 .f32) (main_arg5 : FVec F S16384 .f32) (main_arg8 : IVec S16384 32) (main_arg9 : IVec S16384 32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S50000x1 .f32 := Host.absf main_arg4
  let main_cst_6 : FVec F S_ .f32 := constant S_ .f32 0x7F800000#32
  let main_v20 : FVec F S50000x1 .f32 := broadcastInDim S50000x1 ![] bcast_S_S50000x1 main_cst_6
  let main_v21 : IVec S50000x1 1 := cmpf .olt main_v19 main_v20
  let main_c_7 : IVec S_ 1 := constantI S_ 1 1#1
  let main_v22 : IVec S_ 1 := (fun x v => Host.reduce IntOp.andi x v reducesTo_S50000x1_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg8 main_v29
  let main_c_11 : IVec S_ 32 := constantI S_ 32 100000#32
  let main_v31 : IVec S16384 32 := broadcastInDim S16384 ![] bcast_S_S16384 main_c_11
  let main_v32 : IVec S16384 1 := cmpi .slt main_arg8 main_v31
  let main_v33 : IVec S16384 1 := andi main_v30 main_v32
  fn_part2 (F := F) main_arg9 main_v28 main_v33

def fn {F : FTy → Type} [FloatOps F] (main_arg0 : FVec F S100000x64 .f32) (main_arg1 : FVec F S50000x64 .f32) (main_arg2 : FVec F S3200000 .f32) (main_arg3 : FVec F S100000x1 .f32) (main_arg4 : FVec F S50000x1 .f32) (main_arg5 : FVec F S16384 .f32) (main_arg6 : IVec S3200000 32) (main_arg7 : IVec S3200000 32) (main_arg8 : IVec S16384 32) (main_arg9 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_arg5 main_arg8 main_arg9 main_v13 main_v16
-- ==== Kernel.lean ====
abbrev S100000x64 : Shape := ⟨2, ![100000, 64]⟩
abbrev S50000x64 : Shape := ⟨2, ![50000, 64]⟩
abbrev S3200000 : Shape := ⟨1, ![3200000]⟩
abbrev S100000x1 : Shape := ⟨2, ![100000, 1]⟩
abbrev S50000x1 : Shape := ⟨2, ![50000, 1]⟩
abbrev S16384 : Shape := ⟨1, ![16384]⟩
abbrev S3200000x1 : Shape := ⟨2, ![3200000, 1]⟩
abbrev S_ : Shape := ⟨0, ![]⟩
abbrev S3200000x64 : Shape := ⟨2, ![3200000, 64]⟩
abbrev S5000x64 : Shape := ⟨2, ![5000, 64]⟩
abbrev S5000x1 : Shape := ⟨2, ![5000, 1]⟩
abbrev S100000x1x64 : Shape := ⟨3, ![100000, 1, 64]⟩
abbrev S16384x1x64 : Shape := ⟨3, ![16384, 1, 64]⟩
abbrev S1x1x64 : Shape := ⟨3, ![1, 1, 64]⟩
abbrev S1 : Shape := ⟨1, ![1]⟩
abbrev S16384x64 : Shape := ⟨2, ![16384, 64]⟩
abbrev S50000x1x64 : Shape := ⟨3, ![50000, 1, 64]⟩
abbrev S3 : Shape := ⟨1, ![3]⟩

abbrev nBuf : Space → Nat
  | .hbm => 114
  | .vmem => 40
  | .smem => 2
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3200000, .f32⟩
  | .hbm, ⟨3, _⟩ => ⟨S100000x1, .f32⟩
  | .hbm, ⟨4, _⟩ => ⟨S50000x1, .f32⟩
  | .hbm, ⟨5, _⟩ => ⟨S16384, .f32⟩
  | .hbm, ⟨6, _⟩ => ⟨S3200000, .i32⟩
  | .hbm, ⟨7, _⟩ => ⟨S3200000, .i32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S100000x64, .f32⟩
  | .hbm, ⟨25, _⟩ => ⟨S3200000x1, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x64, .f32⟩
  | .hbm, ⟨35, _⟩ => ⟨S3200000x64, .f32⟩
  | .hbm, ⟨36, _⟩ => ⟨S3200000x64, .f32⟩
  | .hbm, ⟨37, _⟩ => ⟨S_, .f32⟩
  | .hbm, ⟨38, _⟩ => ⟨S50000x64, .f32⟩
  | .hbm, ⟨39, _⟩ => ⟨S3200000x1, .i32⟩
  | .hbm, ⟨40, _⟩ => ⟨S50000x64, .f32⟩
  | .hbm, ⟨41, _⟩ => ⟨S50000x64, .f32⟩
  | .hbm, ⟨42, _⟩ => ⟨S3200000x1, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x64, .f32⟩
  | .hbm, ⟨52, _⟩ => ⟨S3200000x64, .f32⟩
  | .hbm, ⟨53, _⟩ => ⟨S3200000x64, .f32⟩
  | .hbm, ⟨54, _⟩ => ⟨S_, .f32⟩
  | .hbm, ⟨55, _⟩ => ⟨S100000x64, .f32⟩
  | .hbm, ⟨56, _⟩ => ⟨S3200000x1, .i32⟩
  | .hbm, ⟨57, _⟩ => ⟨S100000x64, .f32⟩
  | .hbm, ⟨58, _⟩ => ⟨S100000x64, .f32⟩
  | .hbm, ⟨59, _⟩ => ⟨S3200000x1, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x64, .f32⟩
  | .hbm, ⟨69, _⟩ => ⟨S3200000x64, .f32⟩
  | .hbm, ⟨70, _⟩ => ⟨S3200000x64, .f32⟩
  | .hbm, ⟨71, _⟩ => ⟨S_, .f32⟩
  | .hbm, ⟨72, _⟩ => ⟨S50000x64, .f32⟩
  | .hbm, ⟨73, _⟩ => ⟨S3200000x1, .i32⟩
  | .hbm, ⟨74, _⟩ => ⟨S50000x64, .f32⟩
  | .hbm, ⟨75, _⟩ => ⟨S50000x64, .f32⟩
  | .hbm, ⟨76, _⟩ => ⟨S100000x64, .f32⟩
  | .hbm, ⟨77, _⟩ => ⟨S100000x64, .f32⟩
  | .hbm, ⟨78, _⟩ => ⟨S50000x64, .f32⟩
  | .hbm, ⟨79, _⟩ => ⟨S50000x64, .f32⟩
  | .hbm, ⟨80, _⟩ => ⟨S100000x1x64, .f32⟩
  | .hbm, ⟨81, _⟩ => ⟨S16384x1x64, .f32⟩
  | .hbm, ⟨82, _⟩ => ⟨S16384x64, .f32⟩
  | .hbm, ⟨83, _⟩ => ⟨S50000x1x64, .f32⟩
  | .hbm, ⟨84, _⟩ => ⟨S16384x1x64, .f32⟩
  | .hbm, ⟨85, _⟩ => ⟨S16384x64, .f32⟩
  | .hbm, ⟨86, _⟩ => ⟨S16384x64, .f32⟩
  | .hbm, ⟨87, _⟩ => ⟨S_, .f32⟩
  | .hbm, ⟨88, _⟩ => ⟨S16384, .f32⟩
  | .hbm, ⟨89, _⟩ => ⟨S16384x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S16384x64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S16384, .f32⟩
  | .hbm, ⟨105, _⟩ => ⟨S16384, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1, .f32⟩
  | .hbm, ⟨111, _⟩ => ⟨S1, .f32⟩
  | .hbm, ⟨112, _⟩ => ⟨S1, .f32⟩
  | .hbm, ⟨113, _⟩ => ⟨S3, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S5000x64, .f32⟩
  | .local _ .vmem, ⟨31, _⟩ => ⟨S5000x64, .f32⟩
  | .local _ .vmem, ⟨32, _⟩ => ⟨S1x1x64, .f32⟩
  | .local _ .vmem, ⟨33, _⟩ => ⟨S1x1x64, .f32⟩
  | .local _ .vmem, ⟨34, _⟩ => ⟨S1x1x64, .f32⟩
  | .local _ .vmem, ⟨35, _⟩ => ⟨S1x1x64, .f32⟩
  | .local _ .vmem, ⟨36, _⟩ => ⟨S1x1x64, .f32⟩
  | .local _ .vmem, ⟨37, _⟩ => ⟨S1x1x64, .f32⟩
  | .local _ .vmem, ⟨38, _⟩ => ⟨S1x1x64, .f32⟩
  | .local _ .vmem, ⟨39, _⟩ => ⟨S1x1x64, .f32⟩
  | .local _ .smem, ⟨0, _⟩ => ⟨S16384, .i32⟩
  | .local _ .smem, ⟨1, _⟩ => ⟨S16384, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_17 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_arg8 : Ref sig .tc := ⟨.smem, 0, rfl⟩
abbrev main_arg9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc5_sem0_0 : DmaSem sig := 36
abbrev cc5_sem0_1 : DmaSem sig := 37
abbrev cc5_sem1_0 : DmaSem sig := 38
abbrev cc5_sem1_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16384], ![false]⟩

abbrev pre4 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S16384.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![16384], ![false]⟩

abbrev pre5 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S16384.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  bcast_S_S50000x64 : S_.BroadcastsInDim S50000x64 (![] : Fin 0 → Fin S50000x64.rank)
  shapeCasts_S100000x64_S100000x1x64 : S100000x64.ShapeCasts S100000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S16384x1x64_S16384x64 : S16384x1x64.ShapeCasts S16384x64
  shapeCasts_S50000x64_S50000x1x64 : S50000x64.ShapeCasts S50000x1x64
  reducesTo_S16384x64_S16384_d1 : S16384x64.ReducesTo [1] S16384
  h_S_ : 0 < S_.numel
  reducesTo_S16384x64_S_d0_1 : S16384x64.ReducesTo [0, 1] S_
  reducesTo_S16384_S_d0 : S16384.ReducesTo [0] S_
  bcast_S_S1 : S_.BroadcastsInDim S1 (![] : Fin 0 → Fin S1.rank)
  concatenates_S1_S1_S1_S3_d0 : Shape.Concatenates [S1, S1, S1] S3 0
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  k4_off1_inb : ∀ i : grid4.Coords, ∀ a, (k4_off1 i) a + S1.size a ≤ S16384.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x64.size a ≤ S16384x1x64.size a
  hwx4_1 : ∀ i : grid4.Coords, EltTy.bits .f32 = 32 ∨ (Rect.block (s := S16384x1x64) S1x1x64.size (cc4_transform_1 i) (hinb4_1 i)).WholeWords (EltTy.packing .f32)
  hrank5 : 0 < grid5.rank
  k5_off1_inb : ∀ i : grid5.Coords, ∀ a, (k5_off1 i) a + S1.size a ≤ S16384.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x64.size a ≤ S16384x1x64.size a
  hwx5_1 : ∀ i : grid5.Coords, EltTy.bits .f32 = 32 ∨ (Rect.block (s := S16384x1x64) S1x1x64.size (cc5_transform_1 i) (hinb5_1 i)).WholeWords (EltTy.packing .f32)

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev spec4_0 : Pipeline.WinSpec sig grid4.rank :=
  Pipeline.WinSpec.ofSpec (Memref.whole main_v60) S1x1x64.size reads4_0 false false 2 stage4_0 sem4_0 nbuf4_0 hstage4_0

abbrev spec4_1 : Pipeline.WinSpec sig grid4.rank :=
  Pipeline.WinSpec.ofSpec (Memref.whole main_v61) S1x1x64.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_0 k4_off1_inb numel1_S1 pf | 1 => cc4_transform_1 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | ⟨_ + 2, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x64.size a ≤ S100000x1x64.size a), EltTy.bits .f32 = 32 ∨ (Rect.block (s := S100000x1x64) S1x1x64.size (cc4_transform_0 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | ⟨_ + 2, h⟩ => absurd h (Nat.not_lt.2 (Nat.le_add_left _ _))
abbrev spec5_0 : Pipeline.WinSpec sig grid5.rank :=
  Pipeline.WinSpec.ofSpec (Memref.whole main_v63) S1x1x64.size reads5_0 false false 2 stage5_0 sem5_0 nbuf5_0 hstage5_0

abbrev spec5_1 : Pipeline.WinSpec sig grid5.rank :=
  Pipeline.WinSpec.ofSpec (Memref.whole main_v64) S1x1x64.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_0 k5_off1_inb numel1_S1 pf | 1 => cc5_transform_1 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | ⟨_ + 2, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x64.size a ≤ S50000x1x64.size a), EltTy.bits .f32 = 32 ∨ (Rect.block (s := S50000x1x64) S1x1x64.size (cc5_transform_0 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | ⟨_ + 2, h⟩ => absurd h (Nat.not_lt.2 (Nat.le_add_left _ _))

class Facts : Prop extends Facts₀ where
  harr4 : ∀ w, (spec4 w).arr.IsWhole
  harr5 : ∀ w, (spec5 w).arr.IsWhole

variable [Facts]
-- ==== ReferenceIdeal.lean ====
abbrev S100000x64 : Shape := ⟨2, ![100000, 64]⟩
abbrev S50000x64 : Shape := ⟨2, ![50000, 64]⟩
abbrev S3200000 : Shape := ⟨1, ![3200000]⟩
abbrev S100000x1 : Shape := ⟨2, ![100000, 1]⟩
abbrev S50000x1 : Shape := ⟨2, ![50000, 1]⟩
abbrev S16384 : Shape := ⟨1, ![16384]⟩
abbrev S3200000x1 : Shape := ⟨2, ![3200000, 1]⟩
abbrev S_ : Shape := ⟨0, ![]⟩
abbrev S3200000x64 : Shape := ⟨2, ![3200000, 64]⟩
abbrev S16384x1 : Shape := ⟨2, ![16384, 1]⟩
abbrev S16384x64 : Shape := ⟨2, ![16384, 64]⟩
abbrev S1 : Shape := ⟨1, ![1]⟩
abbrev S3 : Shape := ⟨1, ![3]⟩

abbrev nBuf : Space → Nat
  | .hbm => 148
  | .vmem => 0
  | .smem => 0
  | _ => 0

abbrev hbmTy0_0 (i : Nat) : BufTy := match i % 128 with
  | 0 => ⟨S100000x64, .f32⟩
  | 1 => ⟨S50000x64, .f32⟩
  | 2 => ⟨S3200000, .f32⟩
  | 3 => ⟨S100000x1, .f32⟩
  | 4 => ⟨S50000x1, .f32⟩
  | 5 => ⟨S16384, .f32⟩
  | 6 => ⟨S3200000, .i32⟩
  | 7 => ⟨S3200000, .i32⟩
  | 8 => ⟨S16384, .i32⟩
  | 9 => ⟨S16384, .i32⟩
  | 10 => ⟨S3200000x1, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x64, .f32⟩
  | 20 => ⟨S3200000x64, .f32⟩
  | 21 => ⟨S3200000x64, .f32⟩
  | 22 => ⟨S_, .f32⟩
  | 23 => ⟨S100000x64, .f32⟩
  | 24 => ⟨S3200000x1, .i32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S3200000x1, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x64, .f32⟩
  | 42 => ⟨S3200000x64, .f32⟩
  | 43 => ⟨S3200000x64, .f32⟩
  | 44 => ⟨S_, .f32⟩
  | 45 => ⟨S50000x64, .f32⟩
  | 46 => ⟨S3200000x1, .i32⟩
  | 47 => ⟨S50000x64, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S3200000x1, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x64, .f32⟩
  | 64 => ⟨S3200000x64, .f32⟩
  | 65 => ⟨S3200000x64, .f32⟩
  | 66 => ⟨S_, .f32⟩
  | 67 => ⟨S100000x64, .f32⟩
  | 68 => ⟨S3200000x1, .i32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S3200000x1, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x64, .f32⟩
  | 86 => ⟨S3200000x64, .f32⟩
  | 87 => ⟨S3200000x64, .f32⟩
  | 88 => ⟨S_, .f32⟩
  | 89 => ⟨S50000x64, .f32⟩
  | 90 => ⟨S3200000x1, .i32⟩
  | 91 => ⟨S50000x64, .f32⟩
  | 92 => ⟨S50000x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S100000x64, .f32⟩
  | 99 => ⟨S100000x64, .f32⟩
  | 100 => ⟨S50000x64, .f32⟩
  | 101 => ⟨S50000x64, .f32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S16384x1, .i32⟩
  | 110 => ⟨S16384x64, .f32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S16384x64, .f32⟩
  | 120 => ⟨S16384x64, .f32⟩
  | 121 => ⟨S_, .f32⟩
  | 122 => ⟨S16384, .f32⟩
  | 123 => ⟨S16384x64, .f32⟩
  | 124 => ⟨S_, .f32⟩
  | 125 => ⟨S_, .f32⟩
  | 126 => ⟨S_, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S16384x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S16384, .f32⟩
  | 11 => ⟨S16384, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .f32⟩
  | 19 => ⟨S3, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call2_cst : Ref sig .tc := ⟨.hbm, 73, rfl⟩
abbrev main_call2_v0 : Ref sig .tc := ⟨.hbm, 74, rfl⟩
abbrev main_v50 : Ref sig .tc := ⟨.hbm, 75, rfl⟩
abbrev main_v51 : Ref sig .tc := ⟨.hbm, 76, rfl⟩
abbrev main_c_7 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call3_cst : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_10 : Ref sig .tc := ⟨.hbm, 102, rfl⟩
abbrev main_v72 : Ref sig .tc := ⟨.hbm, 103, rfl⟩
abbrev main_v73 : Ref sig .tc := ⟨.hbm, 104, rfl⟩
abbrev main_c_11 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_12 : Ref sig .tc := ⟨.hbm, 111, rfl⟩
abbrev main_v79 : Ref sig .tc := ⟨.hbm, 112, rfl⟩
abbrev main_v80 : Ref sig .tc := ⟨.hbm, 113, rfl⟩
abbrev main_c_13 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_14 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_v89 : Ref sig .tc := ⟨.hbm, 125, rfl⟩
abbrev main_cst_16 : Ref sig .tc := ⟨.hbm, 126, rfl⟩
abbrev main_v90 : Ref sig .tc := ⟨.hbm, 127, rfl⟩
abbrev main_cst_17 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_cst_19 : Ref sig .tc := ⟨.hbm, 133, rfl⟩
abbrev main_v94 : Ref sig .tc := ⟨.hbm, 134, rfl⟩
abbrev main_cst_20 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  reducesTo_S16384x64_S_d0_1 : S16384x64.ReducesTo [0, 1] S_
  reducesTo_S16384_S_d0 : S16384.ReducesTo [0] S_
  bcast_S_S1 : S_.BroadcastsInDim S1 (![] : Fin 0 → Fin S1.rank)
  concatenates_S1_S1_S1_S3_d0 : Shape.Concatenates [S1, S1, S1] S3 0
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.K.Relu0.lean ====
import proofs.«430333_j20727512170685_2_alg».proof.Proof.Gen.Kernel.Launch
import proofs.«430333_j20727512170685_2_alg».proof.Proof.Gen.Kernel.Skeleton
import proofs.«430333_j20727512170685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused residual `max (s + x * d) 0` over row tiles (pipeline 0 of the kernel as printed)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole tile as a rectangle: what the body's loads and its one store address. -/
abbrev r0_wide : Rect S5000x64 := Rect.unit (s := S5000x64) ![0, 0] S5000x64.size inb_S5000x64_S5000x64_0_0
abbrev r0_col : Rect S5000x1 := Rect.unit (s := S5000x1) ![0, 0] S5000x1.size inb_S5000x1_S5000x1_0_0

/-- What the body leaves in the output tile: its one store, `max (s + x * d) 0` of the three input tiles. -/
def out0_3 (x0 : Vec F S5000x64 .f32) (x1 : Vec F S5000x64 .f32) (x2 : Vec F S5000x1 .f32) : Vec F S5000x64 .f32 :=
  View.canon [⟨r0_wide, k0_pay1 (View.ld x0 r0_wide) (View.ld x1 r0_wide) (View.ld x2 r0_col)⟩]

/-- The store covers the whole tile. -/
theorem cover0_3 (p0 : Vec F S5000x64 .f32) (y : S5000x64.Idx) :
    ∃ pc ∈ ([⟨r0_wide, p0⟩] : List (View.Piece (Elt F) S5000x64 .f32)), y ∈ pc.1.set :=
  View.cover_of_tiled [⟨r0_wide, p0⟩] S5000x64.size (by rfl) y

set_option maxHeartbeats 1000000 in
/-- The body on whole staging buffers, the inputs at `x0 x1 x2` and the output at anything, returns with the inputs
    as they were and the output at `out0_3 x0 x1 x2`. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__relu_residual_kernel i arg1 harg1 arg2 harg2 arg3 harg3 arg4 harg4) K := by
  simp only [cc0__relu_residual_kernel_eq_skeleton]; unfold cc0__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as found; after the body each input's buffer at its tile, the output's at
    `out0_3` of the input tiles; the untouched rest as invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their tiles, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Relu1.lean ====
import proofs.«430333_j20727512170685_2_alg».proof.Proof.Gen.Kernel.Launch
import proofs.«430333_j20727512170685_2_alg».proof.Proof.Gen.Kernel.Skeleton
import proofs.«430333_j20727512170685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the fused residual `max (s + x * d) 0` over row tiles (pipeline 1 of the kernel as printed)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its tile at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole tile as a rectangle: what the body's loads and its one store address. -/
abbrev r1_wide : Rect S5000x64 := Rect.unit (s := S5000x64) ![0, 0] S5000x64.size inb_S5000x64_S5000x64_0_0
abbrev r1_col : Rect S5000x1 := Rect.unit (s := S5000x1) ![0, 0] S5000x1.size inb_S5000x1_S5000x1_0_0

/-- What the body leaves in the output tile: its one store, `max (s + x * d) 0` of the three input tiles. -/
def out1_3 (x0 : Vec F S5000x64 .f32) (x1 : Vec F S5000x64 .f32) (x2 : Vec F S5000x1 .f32) : Vec F S5000x64 .f32 :=
  View.canon [⟨r1_wide, k1_pay1 (View.ld x0 r1_wide) (View.ld x1 r1_wide) (View.ld x2 r1_col)⟩]

/-- The store covers the whole tile. -/
theorem cover1_3 (p0 : Vec F S5000x64 .f32) (y : S5000x64.Idx) :
    ∃ pc ∈ ([⟨r1_wide, p0⟩] : List (View.Piece (Elt F) S5000x64 .f32)), y ∈ pc.1.set :=
  View.cover_of_tiled [⟨r1_wide, p0⟩] S5000x64.size (by rfl) y

set_option maxHeartbeats 1000000 in
/-- The body on whole staging buffers, the inputs at `x0 x1 x2` and the output at anything, returns with the inputs
    as they were and the output at `out1_3 x0 x1 x2`. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_residual_kernel i arg1 harg1 arg2 harg2 arg3 harg3 arg4 harg4) K := by
  simp only [cc1__relu_residual_kernel_eq_skeleton]; unfold cc1__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as found; after the body each input's buffer at its tile, the output's at
    `out1_3` of the input tiles; the untouched rest as invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their tiles, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Relu2.lean ====
import proofs.«430333_j20727512170685_2_alg».proof.Proof.Gen.Kernel.Launch
import proofs.«430333_j20727512170685_2_alg».proof.Proof.Gen.Kernel.Skeleton
import proofs.«430333_j20727512170685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the fused residual `max (s + x * d) 0` over row tiles (pipeline 2 of the kernel as printed)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its tile at every point, fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole tile as a rectangle: what the body's loads and its one store address. -/
abbrev r2_wide : Rect S5000x64 := Rect.unit (s := S5000x64) ![0, 0] S5000x64.size inb_S5000x64_S5000x64_0_0
abbrev r2_col : Rect S5000x1 := Rect.unit (s := S5000x1) ![0, 0] S5000x1.size inb_S5000x1_S5000x1_0_0

/-- What the body leaves in the output tile: its one store, `max (s + x * d) 0` of the three input tiles. -/
def out2_3 (x0 : Vec F S5000x64 .f32) (x1 : Vec F S5000x64 .f32) (x2 : Vec F S5000x1 .f32) : Vec F S5000x64 .f32 :=
  View.canon [⟨r2_wide, k2_pay1 (View.ld x0 r2_wide) (View.ld x1 r2_wide) (View.ld x2 r2_col)⟩]

/-- The store covers the whole tile. -/
theorem cover2_3 (p0 : Vec F S5000x64 .f32) (y : S5000x64.Idx) :
    ∃ pc ∈ ([⟨r2_wide, p0⟩] : List (View.Piece (Elt F) S5000x64 .f32)), y ∈ pc.1.set :=
  View.cover_of_tiled [⟨r2_wide, p0⟩] S5000x64.size (by rfl) y

set_option maxHeartbeats 1000000 in
/-- The body on whole staging buffers, the inputs at `x0 x1 x2` and the output at anything, returns with the inputs
    as they were and the output at `out2_3 x0 x1 x2`. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relu_residual_kernel i arg1 harg1 arg2 harg2 arg3 harg3 arg4 harg4) K := by
  simp only [cc2__relu_residual_kernel_eq_skeleton]; unfold cc2__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as found; after the body each input's buffer at its tile, the output's at
    `out2_3` of the input tiles; the untouched rest as invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their tiles, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.K.Relu3.lean ====
import proofs.«430333_j20727512170685_2_alg».proof.Proof.Gen.Kernel.Launch
import proofs.«430333_j20727512170685_2_alg».proof.Proof.Gen.Kernel.Skeleton
import proofs.«430333_j20727512170685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the fused residual `max (s + x * d) 0` over row tiles (pipeline 3 of the kernel as printed)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its tile at every point, fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole tile as a rectangle: what the body's loads and its one store address. -/
abbrev r3_wide : Rect S5000x64 := Rect.unit (s := S5000x64) ![0, 0] S5000x64.size inb_S5000x64_S5000x64_0_0
abbrev r3_col : Rect S5000x1 := Rect.unit (s := S5000x1) ![0, 0] S5000x1.size inb_S5000x1_S5000x1_0_0

/-- What the body leaves in the output tile: its one store, `max (s + x * d) 0` of the three input tiles. -/
def out3_3 (x0 : Vec F S5000x64 .f32) (x1 : Vec F S5000x64 .f32) (x2 : Vec F S5000x1 .f32) : Vec F S5000x64 .f32 :=
  View.canon [⟨r3_wide, k3_pay1 (View.ld x0 r3_wide) (View.ld x1 r3_wide) (View.ld x2 r3_col)⟩]

/-- The store covers the whole tile. -/
theorem cover3_3 (p0 : Vec F S5000x64 .f32) (y : S5000x64.Idx) :
    ∃ pc ∈ ([⟨r3_wide, p0⟩] : List (View.Piece (Elt F) S5000x64 .f32)), y ∈ pc.1.set :=
  View.cover_of_tiled [⟨r3_wide, p0⟩] S5000x64.size (by rfl) y

set_option maxHeartbeats 1000000 in
/-- The body on whole staging buffers, the inputs at `x0 x1 x2` and the output at anything, returns with the inputs
    as they were and the output at `out3_3 x0 x1 x2`. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__relu_residual_kernel i arg1 harg1 arg2 harg2 arg3 harg3 arg4 harg4) K := by
  simp only [cc3__relu_residual_kernel_eq_skeleton]; unfold cc3__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data: the arrays as found; after the body each input's buffer at its tile, the output's at
    `out3_3` of the input tiles; the untouched rest as invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their tiles, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Gather4.lean ====
import proofs.«430333_j20727512170685_2_alg».proof.Proof.Gen.Kernel.Launch
import proofs.«430333_j20727512170685_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the row lookup through a prefetched index table (pipeline 4 of the kernel as printed)

At sample `i` the pipeline fetches the one-row block of the table whose block index is the `i`-th word of the
prefetched index table, and the body copies that row into the `i`-th row block of the output. Everything is
stated at ANY admissible contents `a` of the index table (every word a row of the table) and at the contents
`V` the region is entered with: no fact here looks inside `a`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
variable (V : (c : Dev nD) → (b : Ref sig .tc) → Buf (Elt F) ((c : Thread nD τ).loc b))

/-- Block `t` of window `w`, read off the window's array as the region finds it. -/
def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- The input window's staging buffer holds its block at every point: fetched there, or kept from the point before
    when two consecutive samples name the same row. -/
theorem before4_0_of {c : Dev nD} (dat : Dat τ (Elt F) Unit ℕ (UR sig nD τ) ℕ (cfg4 a) c) (hA : dat.A 0 = V c (Pipeline.arrRef spec4 0))
    (hafter : ∀ t, dat.after 0 t = iblk4 a V c 0 t) (t : Fin (cfg4 a).N) (d) : dat.before 0 t d = iblk4 a V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The whole one-row block as a rectangle. -/
abbrev r4_row : Rect S1x1x64 := Rect.unit (s := S1x1x64) ![0, 0, 0] S1x1x64.size inb_S1x1x64_S1x1x64_0_0_0

/-- What the body leaves in the output block: the input block, copied. -/
def out4_1 (x0 : Vec F S1x1x64 .f32) : Vec F S1x1x64 .f32 :=
  View.canon [⟨r4_row, k4_pay1 (View.ld x0 r4_row)⟩]

theorem cover4_1 (p0 : Vec F S1x1x64 .f32) (y : S1x1x64.Idx) :
    ∃ pc ∈ ([⟨r4_row, p0⟩] : List (View.Piece (Elt F) S1x1x64 .f32)), y ∈ pc.1.set :=
  View.cover_of_tiled [⟨r4_row, p0⟩] S1x1x64.size (by rfl) y

set_option maxHeartbeats 1000000 in
/-- The body on whole staging buffers, the input at `x0` and the output at anything, returns with the input as it
    was and the output at `out4_1 x0`; the index table's memref is not touched. -/
theorem sound_kernel4 (c : Dev nD) (E : Set ℕ) (i : grid4.Coords)
    (arg1 : Memref sig .tc .smem S16384 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out4_1 x0)) -∗ K ⟨⟩))
      ⊢ wp frame (wpE (defs₀ (F := F)) Variants.none c none) E (cc4__gather_kernel i arg1 harg1 arg2 harg2 arg3 harg3) K := by
  simp only [cc4__gather_kernel_eq_skeleton]; unfold cc4__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-- The region's proof data: the arrays as found; after the body the input's buffer at its block and the output's
    at the copy; the invariant is the untouched rest together with the index table, held throughout; nothing owed. -/
def dat4 (c : Dev nD) : Dat τ (Elt F) Unit ℕ (UR sig nD τ) ℕ (cfg4 a) c where
  A w := V c (Pipeline.arrRef spec4 w)
  after w t := match w with
    | ⟨0, _⟩ => iblk4 a V c 0 t
    | ⟨1, _⟩ => out4_1 (iblk4 a V c 0 t)
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 a V c).A w = V c (Pipeline.arrRef spec4 w) := by
  dsimp only [dat4]

theorem after4_0 (c : Dev nD) (t : Fin (cfg4 a).N) : (dat4 a V c).after 0 t = iblk4 a V c 0 t := by dsimp only [dat4]; rfl
theorem after4_1 (c : Dev nD) (t : Fin (cfg4 a).N) : (dat4 a V c).after 1 t = out4_1 (iblk4 a V c 0 t) := by dsimp only [dat4]; rfl

theorem before4_0 (c : Dev nD) (t : Fin (cfg4 a).N) (d) : (dat4 a V c).before 0 t d = iblk4 a V c 0 t :=
  before4_0_of a V (dat4 a V c) (A_eq4 a V c 0) (after4_0 a V c) t d

/-- The current staging memref of each window at point `t`. -/
abbrev st4_0 (t : Fin (cfg4 a).N) := ((cfg4 a).win 0).stage ((cfg4 a).slots t 0)
abbrev st4_1 (t : Fin (cfg4 a).N) := ((cfg4 a).win 1).stage ((cfg4 a).slots t 1)

/-- The body as the pipeline calls it at point `t`. -/
abbrev bodyAt4 (t : Fin (cfg4 a).N) : Prog (TpuEff nD τ sig (Elt F) Λ₀ .tc) PUnit :=
  cc4__gather_kernel (grid4.coords t) (Memref.whole main_arg8) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))

def bodyPre4 (c : Dev nD) (t : Fin (cfg4 a).N) : sProp 𝕄 :=
  iprop((dat4 a V c).Φ t.castSucc ∗ (dat4 a V c).owesAt () t.castSucc
    ∗ (∃ d, owns (c : Thread nD τ) (st4_0 a t) fullShare ((dat4 a V c).before 0 t d))
    ∗ (∃ d, owns (c : Thread nD τ) (st4_1 a t) fullShare ((dat4 a V c).before 1 t d)))

def bodyPost4 (c : Dev nD) (t : Fin (cfg4 a).N) : sProp 𝕄 :=
  iprop((dat4 a V c).Φ t.succ ∗ (dat4 a V c).owesAt () t.succ
    ∗ owns (c : Thread nD τ) (st4_0 a t) fullShare ((dat4 a V c).after 0 t)
    ∗ owns (c : Thread nD τ) (st4_1 a t) fullShare ((dat4 a V c).after 1 t))

theorem sound_body4 (c : Dev nD) (t : Fin (cfg4 a).N) :
    bodyPre4 a V c t ⊢ wp frame (wpE (defs₀ (F := F)) Variants.none c none) Set.univ (bodyAt4 a t) (fun _ => bodyPost4 a V c t) := by
  unfold bodyPre4 bodyPost4 bodyAt4
  simp only [before4_0]
  rw [show (dat4 a V c).Φ t.succ = (dat4 a V c).Φ t.castSucc from rfl,
    show (dat4 a V c).owesAt () t.succ = (dat4 a V c).owesAt () t.castSucc from rfl,
    after4_0, after4_1]
  iintro ⟨HΦ, Ho, ⟨%d0, H0⟩, ⟨%d1, H1⟩⟩
  iapply (sound_kernel4 c Set.univ _ _ _ _ _ _ _ (iblk4 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation4 (c : Dev nD) : BodyObligation (dat4 (F := F) a V c) (defs₀ (F := F)) Variants.none () Set.univ := fun t => by
  rw [bigSep_W4, bigSep_W4]
  exact sound_body4 a V c t

end Cert.Kernel.Gen

end
-- ==== Proof.K.Gather5.lean ====
import proofs.«430333_j20727512170685_2_alg».proof.Proof.Gen.Kernel.Launch
import proofs.«430333_j20727512170685_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the row lookup through a prefetched index table (pipeline 5 of the kernel as printed)

At sample `i` the pipeline fetches the one-row block of the table whose block index is the `i`-th word of the
prefetched index table, and the body copies that row into the `i`-th row block of the output. Everything is
stated at ANY admissible contents `a` of the index table (every word a row of the table) and at the contents
`V` the region is entered with: no fact here looks inside `a`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg5 (F := F)).Adm)
variable (V : (c : Dev nD) → (b : Ref sig .tc) → Buf (Elt F) ((c : Thread nD τ).loc b))

/-- Block `t` of window `w`, read off the window's array as the region finds it. -/
def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- The input window's staging buffer holds its block at every point: fetched there, or kept from the point before
    when two consecutive samples name the same row. -/
theorem before5_0_of {c : Dev nD} (dat : Dat τ (Elt F) Unit ℕ (UR sig nD τ) ℕ (cfg5 a) c) (hA : dat.A 0 = V c (Pipeline.arrRef spec5 0))
    (hafter : ∀ t, dat.after 0 t = iblk5 a V c 0 t) (t : Fin (cfg5 a).N) (d) : dat.before 0 t d = iblk5 a V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The whole one-row block as a rectangle. -/
abbrev r5_row : Rect S1x1x64 := Rect.unit (s := S1x1x64) ![0, 0, 0] S1x1x64.size inb_S1x1x64_S1x1x64_0_0_0

/-- What the body leaves in the output block: the input block, copied. -/
def out5_1 (x0 : Vec F S1x1x64 .f32) : Vec F S1x1x64 .f32 :=
  View.canon [⟨r5_row, k5_pay1 (View.ld x0 r5_row)⟩]

theorem cover5_1 (p0 : Vec F S1x1x64 .f32) (y : S1x1x64.Idx) :
    ∃ pc ∈ ([⟨r5_row, p0⟩] : List (View.Piece (Elt F) S1x1x64 .f32)), y ∈ pc.1.set :=
  View.cover_of_tiled [⟨r5_row, p0⟩] S1x1x64.size (by rfl) y

set_option maxHeartbeats 1000000 in
/-- The body on whole staging buffers, the input at `x0` and the output at anything, returns with the input as it
    was and the output at `out5_1 x0`; the index table's memref is not touched. -/
theorem sound_kernel5 (c : Dev nD) (E : Set ℕ) (i : grid5.Coords)
    (arg1 : Memref sig .tc .smem S16384 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out5_1 x0)) -∗ K ⟨⟩))
      ⊢ wp frame (wpE (defs₀ (F := F)) Variants.none c none) E (cc5__gather_kernel i arg1 harg1 arg2 harg2 arg3 harg3) K := by
  simp only [cc5__gather_kernel_eq_skeleton]; unfold cc5__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The region's proof data: the arrays as found; after the body the input's buffer at its block and the output's
    at the copy; the invariant is the untouched rest together with the index table, held throughout; nothing owed. -/
def dat5 (c : Dev nD) : Dat τ (Elt F) Unit ℕ (UR sig nD τ) ℕ (cfg5 a) c where
  A w := V c (Pipeline.arrRef spec5 w)
  after w t := match w with
    | ⟨0, _⟩ => iblk5 a V c 0 t
    | ⟨1, _⟩ => out5_1 (iblk5 a V c 0 t)
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 a V c).A w = V c (Pipeline.arrRef spec5 w) := by
  dsimp only [dat5]

theorem after5_0 (c : Dev nD) (t : Fin (cfg5 a).N) : (dat5 a V c).after 0 t = iblk5 a V c 0 t := by dsimp only [dat5]; rfl
theorem after5_1 (c : Dev nD) (t : Fin (cfg5 a).N) : (dat5 a V c).after 1 t = out5_1 (iblk5 a V c 0 t) := by dsimp only [dat5]; rfl

theorem before5_0 (c : Dev nD) (t : Fin (cfg5 a).N) (d) : (dat5 a V c).before 0 t d = iblk5 a V c 0 t :=
  before5_0_of a V (dat5 a V c) (A_eq5 a V c 0) (after5_0 a V c) t d

/-- The current staging memref of each window at point `t`. -/
abbrev st5_0 (t : Fin (cfg5 a).N) := ((cfg5 a).win 0).stage ((cfg5 a).slots t 0)
abbrev st5_1 (t : Fin (cfg5 a).N) := ((cfg5 a).win 1).stage ((cfg5 a).slots t 1)

/-- The body as the pipeline calls it at point `t`. -/
abbrev bodyAt5 (t : Fin (cfg5 a).N) : Prog (TpuEff nD τ sig (Elt F) Λ₀ .tc) PUnit :=
  cc5__gather_kernel (grid5.coords t) (Memref.whole main_arg9) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))

def bodyPre5 (c : Dev nD) (t : Fin (cfg5 a).N) : sProp 𝕄 :=
  iprop((dat5 a V c).Φ t.castSucc ∗ (dat5 a V c).owesAt () t.castSucc
    ∗ (∃ d, owns (c : Thread nD τ) (st5_0 a t) fullShare ((dat5 a V c).before 0 t d))
    ∗ (∃ d, owns (c : Thread nD τ) (st5_1 a t) fullShare ((dat5 a V c).before 1 t d)))

def bodyPost5 (c : Dev nD) (t : Fin (cfg5 a).N) : sProp 𝕄 :=
  iprop((dat5 a V c).Φ t.succ ∗ (dat5 a V c).owesAt () t.succ
    ∗ owns (c : Thread nD τ) (st5_0 a t) fullShare ((dat5 a V c).after 0 t)
    ∗ owns (c : Thread nD τ) (st5_1 a t) fullShare ((dat5 a V c).after 1 t))

theorem sound_body5 (c : Dev nD) (t : Fin (cfg5 a).N) :
    bodyPre5 a V c t ⊢ wp frame (wpE (defs₀ (F := F)) Variants.none c none) Set.univ (bodyAt5 a t) (fun _ => bodyPost5 a V c t) := by
  unfold bodyPre5 bodyPost5 bodyAt5
  simp only [before5_0]
  rw [show (dat5 a V c).Φ t.succ = (dat5 a V c).Φ t.castSucc from rfl,
    show (dat5 a V c).owesAt () t.succ = (dat5 a V c).owesAt () t.castSucc from rfl,
    after5_0, after5_1]
  iintro ⟨HΦ, Ho, ⟨%d0, H0⟩, ⟨%d1, H1⟩⟩
  iapply (sound_kernel5 c Set.univ _ _ _ _ _ _ _ (iblk5 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation5 (c : Dev nD) : BodyObligation (dat5 (F := F) a V c) (defs₀ (F := F)) Variants.none () Set.univ := fun t => by
  rw [bigSep_W5, bigSep_W5]
  exact sound_body5 a V c t

end Cert.Kernel.Gen

end
-- ==== Proof.K.Chain.lean ====
import proofs.«430333_j20727512170685_2_alg».proof.Proof.K.Relu0
import proofs.«430333_j20727512170685_2_alg».proof.Proof.K.Relu1
import proofs.«430333_j20727512170685_2_alg».proof.Proof.K.Relu2
import proofs.«430333_j20727512170685_2_alg».proof.Proof.K.Relu3
import proofs.«430333_j20727512170685_2_alg».proof.Proof.K.Gather4
import proofs.«430333_j20727512170685_2_alg».proof.Proof.K.Gather5
import proofs.«430333_j20727512170685_2_alg».proof.Proof.Gen.Kernel.Regions

/-!
# The buffer contents between the items of the program

The program is seven stretches of host operations with six kernel regions between them. `W0` is the launch
memory; a host stretch takes `Wj` to the operations' fold over it; a region takes `Wj` to the same contents
with the region's arrays at what its pipeline leaves (the inputs as entered, the output's write-backs folded).
The index tables of the two lookup regions enter as ANY admissible contents `a4`, `a5`. No host stretch and
no region writes an argument, so an argument's buffer reads back to the launch memory from every `Wj`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

/-- Core `c`'s buffers at launch. -/
abbrev W0 : Dev nD → Valuation τ sig (Elt F) := fun c b => (s₀ m ρ).mem ((c : Dev nD), b)
/-- After host stretch 0. -/
abbrev W1 : Dev nD → Valuation τ sig (Elt F) := fun c => StableHlo.after hostOps0 (W0 m ρ c)
abbrev VW1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (VW1 m ρ) c).arrAt w cfg0.N
theorem W2_arr (c : Dev nD) (w : Fin cfg0.W) :
    W2 m ρ c (Proc.devRef .tc (Pipeline.arrRef spec0 w)) = (dat0 (VW1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VW2 : (c : Dev nD) → (b : Ref sig .tc) → Buf (Elt F) ((c : Thread nD τ).loc b) := fun c b => W2 m ρ c b
theorem hF0 (c : Dev nD) (w : Fin cfg0.W) : (dat0 (VW1 m ρ) c).arrAt w cfg0.N = VW2 m ρ c (Pipeline.arrRef spec0 w) :=
  (W2_arr m ρ c w).symm
theorem hrest0 (c : Dev nD) : ∀ b, b ∉ Finset.univ.image (Pipeline.arrRef spec0) → VW2 m ρ c b = VW1 m ρ c b :=
  fun b hb => W2_of_ne m ρ c b fun w e => hb (Finset.mem_image.mpr ⟨w, Finset.mem_univ _, e⟩)
/-- Region 0 changes only its output array `main_v13`: an input array is left as entered, any other buffer bypasses the region. -/
theorem W2_keep (c : Dev nD) (b : Ref sig .tc) (hb : b ≠ main_v13) :
    W2 m ρ c (Proc.devRef .tc b) = W1 m ρ c (Proc.devRef .tc b) := by
  by_cases h : ∀ w, Pipeline.arrRef spec0 w ≠ b
  · exact W2_of_ne m ρ c b h
  · push Not at h; obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (W2_arr m ρ c w).trans (((dat0 (VW1 m ρ) c).arrAt_in w hw _).trans (A_eq0 (VW1 m ρ) c w))
/-- After host stretch 1. -/
abbrev W3 : Dev nD → Valuation τ sig (Elt F) := fun c => StableHlo.after hostOps1 (W2 m ρ c)
abbrev VW3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (VW3 m ρ) c).arrAt w cfg1.N
theorem W4_arr (c : Dev nD) (w : Fin cfg1.W) :
    W4 m ρ c (Proc.devRef .tc (Pipeline.arrRef spec1 w)) = (dat1 (VW3 m ρ) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VW4 : (c : Dev nD) → (b : Ref sig .tc) → Buf (Elt F) ((c : Thread nD τ).loc b) := fun c b => W4 m ρ c b
theorem hF1 (c : Dev nD) (w : Fin cfg1.W) : (dat1 (VW3 m ρ) c).arrAt w cfg1.N = VW4 m ρ c (Pipeline.arrRef spec1 w) :=
  (W4_arr m ρ c w).symm
theorem hrest1 (c : Dev nD) : ∀ b, b ∉ Finset.univ.image (Pipeline.arrRef spec1) → VW4 m ρ c b = VW3 m ρ c b :=
  fun b hb => W4_of_ne m ρ c b fun w e => hb (Finset.mem_image.mpr ⟨w, Finset.mem_univ _, e⟩)
/-- Region 1 changes only its output array `main_v27`: an input array is left as entered, any other buffer bypasses the region. -/
theorem W4_keep (c : Dev nD) (b : Ref sig .tc) (hb : b ≠ main_v27) :
    W4 m ρ c (Proc.devRef .tc b) = W3 m ρ c (Proc.devRef .tc b) := by
  by_cases h : ∀ w, Pipeline.arrRef spec1 w ≠ b
  · exact W4_of_ne m ρ c b h
  · push Not at h; obtain ⟨w, rfl⟩ := h
    have hw : (cfg1.win w).isOut = false := by
      match w with
      | ⟨0, _⟩ => rfl
      | ⟨1, _⟩ => rfl
      | ⟨2, _⟩ => rfl
      | ⟨3, _⟩ => exact absurd rfl hb
    exact (W4_arr m ρ c w).trans (((dat1 (VW3 m ρ) c).arrAt_in w hw _).trans (A_eq1 (VW3 m ρ) c w))
/-- After host stretch 2. -/
abbrev W5 : Dev nD → Valuation τ sig (Elt F) := fun c => StableHlo.after hostOps2 (W4 m ρ c)
abbrev VW5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (VW5 m ρ) c).arrAt w cfg2.N
theorem W6_arr (c : Dev nD) (w : Fin cfg2.W) :
    W6 m ρ c (Proc.devRef .tc (Pipeline.arrRef spec2 w)) = (dat2 (VW5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev VW6 : (c : Dev nD) → (b : Ref sig .tc) → Buf (Elt F) ((c : Thread nD τ).loc b) := fun c b => W6 m ρ c b
theorem hF2 (c : Dev nD) (w : Fin cfg2.W) : (dat2 (VW5 m ρ) c).arrAt w cfg2.N = VW6 m ρ c (Pipeline.arrRef spec2 w) :=
  (W6_arr m ρ c w).symm
theorem hrest2 (c : Dev nD) : ∀ b, b ∉ Finset.univ.image (Pipeline.arrRef spec2) → VW6 m ρ c b = VW5 m ρ c b :=
  fun b hb => W6_of_ne m ρ c b fun w e => hb (Finset.mem_image.mpr ⟨w, Finset.mem_univ _, e⟩)
/-- Region 2 changes only its output array `main_v41`: an input array is left as entered, any other buffer bypasses the region. -/
theorem W6_keep (c : Dev nD) (b : Ref sig .tc) (hb : b ≠ main_v41) :
    W6 m ρ c (Proc.devRef .tc b) = W5 m ρ c (Proc.devRef .tc b) := by
  by_cases h : ∀ w, Pipeline.arrRef spec2 w ≠ b
  · exact W6_of_ne m ρ c b h
  · push Not at h; obtain ⟨w, rfl⟩ := h
    have hw : (cfg2.win w).isOut = false := by
      match w with
      | ⟨0, _⟩ => rfl
      | ⟨1, _⟩ => rfl
      | ⟨2, _⟩ => rfl
      | ⟨3, _⟩ => exact absurd rfl hb
    exact (W6_arr m ρ c w).trans (((dat2 (VW5 m ρ) c).arrAt_in w hw _).trans (A_eq2 (VW5 m ρ) c w))
/-- After host stretch 3. -/
abbrev W7 : Dev nD → Valuation τ sig (Elt F) := fun c => StableHlo.after hostOps3 (W6 m ρ c)
abbrev VW7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (VW7 m ρ) c).arrAt w cfg3.N
theorem W8_arr (c : Dev nD) (w : Fin cfg3.W) :
    W8 m ρ c (Proc.devRef .tc (Pipeline.arrRef spec3 w)) = (dat3 (VW7 m ρ) c).arrAt w cfg3.N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev VW8 : (c : Dev nD) → (b : Ref sig .tc) → Buf (Elt F) ((c : Thread nD τ).loc b) := fun c b => W8 m ρ c b
theorem hF3 (c : Dev nD) (w : Fin cfg3.W) : (dat3 (VW7 m ρ) c).arrAt w cfg3.N = VW8 m ρ c (Pipeline.arrRef spec3 w) :=
  (W8_arr m ρ c w).symm
theorem hrest3 (c : Dev nD) : ∀ b, b ∉ Finset.univ.image (Pipeline.arrRef spec3) → VW8 m ρ c b = VW7 m ρ c b :=
  fun b hb => W8_of_ne m ρ c b fun w e => hb (Finset.mem_image.mpr ⟨w, Finset.mem_univ _, e⟩)
/-- Region 3 changes only its output array `main_v55`: an input array is left as entered, any other buffer bypasses the region. -/
theorem W8_keep (c : Dev nD) (b : Ref sig .tc) (hb : b ≠ main_v55) :
    W8 m ρ c (Proc.devRef .tc b) = W7 m ρ c (Proc.devRef .tc b) := by
  by_cases h : ∀ w, Pipeline.arrRef spec3 w ≠ b
  · exact W8_of_ne m ρ c b h
  · push Not at h; obtain ⟨w, rfl⟩ := h
    have hw : (cfg3.win w).isOut = false := by
      match w with
      | ⟨0, _⟩ => rfl
      | ⟨1, _⟩ => rfl
      | ⟨2, _⟩ => rfl
      | ⟨3, _⟩ => exact absurd rfl hb
    exact (W8_arr m ρ c w).trans (((dat3 (VW7 m ρ) c).arrAt_in w hw _).trans (A_eq3 (VW7 m ρ) c w))
/-- After host stretch 4. -/
abbrev W9 : Dev nD → Valuation τ sig (Elt F) := fun c => StableHlo.after hostOps4 (W8 m ρ c)
abbrev VW9 : (c : Dev nD) → (b : Ref sig .tc) → Buf (Elt F) ((c : Thread nD τ).loc b) := fun c b => W9 m ρ c b
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 a4 (VW9 m ρ) c).arrAt w (cfg4 a4).N
theorem W10_arr (c : Dev nD) (w : Fin (cfg4 a4).W) :
    W10 m ρ a4 c (Proc.devRef .tc (Pipeline.arrRef spec4 w)) = (dat4 a4 (VW9 m ρ) c).arrAt w (cfg4 a4).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m ρ a4 c (Proc.devRef .tc b) = W9 m ρ c (Proc.devRef .tc b) := by
  unfold W10; exact Pipeline.withArrays_of_ne spec4 c _ _ b hb
abbrev VW10 : (c : Dev nD) → (b : Ref sig .tc) → Buf (Elt F) ((c : Thread nD τ).loc b) := fun c b => W10 m ρ a4 c b
theorem hF4 (c : Dev nD) (w : Fin (cfg4 a4).W) : (dat4 a4 (VW9 m ρ) c).arrAt w (cfg4 a4).N = VW10 m ρ a4 c (Pipeline.arrRef spec4 w) :=
  (W10_arr m ρ a4 c w).symm
theorem hrest4 (c : Dev nD) : ∀ b, b ∉ Finset.univ.image (Pipeline.arrRef spec4) → VW10 m ρ a4 c b = VW9 m ρ c b :=
  fun b hb => W10_of_ne m ρ a4 c b fun w e => hb (Finset.mem_image.mpr ⟨w, Finset.mem_univ _, e⟩)
/-- Region 4 changes only its output array `main_v61`: an input array is left as entered, any other buffer bypasses the region. -/
theorem W10_keep (c : Dev nD) (b : Ref sig .tc) (hb : b ≠ main_v61) :
    W10 m ρ a4 c (Proc.devRef .tc b) = W9 m ρ c (Proc.devRef .tc b) := by
  by_cases h : ∀ w, Pipeline.arrRef spec4 w ≠ b
  · exact W10_of_ne m ρ a4 c b h
  · push Not at h; obtain ⟨w, rfl⟩ := h
    have hw : ((cfg4 a4).win w).isOut = false := by
      match w with
      | ⟨0, _⟩ => rfl
      | ⟨1, _⟩ => exact absurd rfl hb
    exact (W10_arr m ρ a4 c w).trans (((dat4 a4 (VW9 m ρ) c).arrAt_in w hw _).trans (A_eq4 a4 (VW9 m ρ) c w))
/-- After host stretch 5. -/
abbrev W11 : Dev nD → Valuation τ sig (Elt F) := fun c => StableHlo.after hostOps5 (W10 m ρ a4 c)
abbrev VW11 : (c : Dev nD) → (b : Ref sig .tc) → Buf (Elt F) ((c : Thread nD τ).loc b) := fun c b => W11 m ρ a4 c b
theorem W11_of (c : Dev nD) (r : Ref sig .tc) (h : r ∉ hostOps5_W) : W11 m ρ a4 c (Proc.devRef .tc r) = W10 m ρ a4 c (Proc.devRef .tc r) :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ a4 c) fun w => (dat5 a5 (VW11 m ρ a4) c).arrAt w (cfg5 a5).N
theorem W12_arr (c : Dev nD) (w : Fin (cfg5 a5).W) :
    W12 m ρ a4 a5 c (Proc.devRef .tc (Pipeline.arrRef spec5 w)) = (dat5 a5 (VW11 m ρ a4) c).arrAt w (cfg5 a5).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m ρ a4 a5 c (Proc.devRef .tc b) = W11 m ρ a4 c (Proc.devRef .tc b) := by
  unfold W12; exact Pipeline.withArrays_of_ne spec5 c _ _ b hb
abbrev VW12 : (c : Dev nD) → (b : Ref sig .tc) → Buf (Elt F) ((c : Thread nD τ).loc b) := fun c b => W12 m ρ a4 a5 c b
theorem hF5 (c : Dev nD) (w : Fin (cfg5 a5).W) : (dat5 a5 (VW11 m ρ a4) c).arrAt w (cfg5 a5).N = VW12 m ρ a4 a5 c (Pipeline.arrRef spec5 w) :=
  (W12_arr m ρ a4 a5 c w).symm
theorem hrest5 (c : Dev nD) : ∀ b, b ∉ Finset.univ.image (Pipeline.arrRef spec5) → VW12 m ρ a4 a5 c b = VW11 m ρ a4 c b :=
  fun b hb => W12_of_ne m ρ a4 a5 c b fun w e => hb (Finset.mem_image.mpr ⟨w, Finset.mem_univ _, e⟩)
/-- Region 5 changes only its output array `main_v64`: an input array is left as entered, any other buffer bypasses the region. -/
theorem W12_keep (c : Dev nD) (b : Ref sig .tc) (hb : b ≠ main_v64) :
    W12 m ρ a4 a5 c (Proc.devRef .tc b) = W11 m ρ a4 c (Proc.devRef .tc b) := by
  by_cases h : ∀ w, Pipeline.arrRef spec5 w ≠ b
  · exact W12_of_ne m ρ a4 a5 c b h
  · push Not at h; obtain ⟨w, rfl⟩ := h
    have hw : ((cfg5 a5).win w).isOut = false := by
      match w with
      | ⟨0, _⟩ => rfl
      | ⟨1, _⟩ => exact absurd rfl hb
    exact (W12_arr m ρ a4 a5 c w).trans (((dat5 a5 (VW11 m ρ a4) c).arrAt_in w hw _).trans (A_eq5 a5 (VW11 m ρ a4) c w))
/-- After host stretch 6. -/
abbrev W13 : Dev nD → Valuation τ sig (Elt F) := fun c => StableHlo.after hostOps6 (W12 m ρ a4 a5 c)
abbrev VW13 : (c : Dev nD) → (b : Ref sig .tc) → Buf (Elt F) ((c : Thread nD τ).loc b) := fun c b => W13 m ρ a4 a5 c b
theorem W13_of (c : Dev nD) (r : Ref sig .tc) (h : r ∉ hostOps6_W) : W13 m ρ a4 a5 c (Proc.devRef .tc r) = W12 m ρ a4 a5 c (Proc.devRef .tc r) :=
  StableHlo.after_of_writes_sub hostOps6 _ hostOps6_writes h

/-! ## A buffer nothing writes reads back to the launch memory -/

theorem W9_launch (c : Dev nD) (b : Ref sig .tc) (h1 : b ∉ hostOps0_W) (h2 : b ≠ main_v13) (h3 : b ∉ hostOps1_W) (h4 : b ≠ main_v27) (h5 : b ∉ hostOps2_W) (h6 : b ≠ main_v41) (h7 : b ∉ hostOps3_W) (h8 : b ≠ main_v55) (h9 : b ∉ hostOps4_W) :
    W9 m ρ c (Proc.devRef .tc b) = m ((c : Thread nD τ).loc b) :=
  (W9_of m ρ c b h9).trans <| (W8_keep m ρ c b h8).trans <| (W7_of m ρ c b h7).trans <| (W6_keep m ρ c b h6).trans <| (W5_of m ρ c b h5).trans <| (W4_keep m ρ c b h4).trans <| (W3_of m ρ c b h3).trans <| (W2_keep m ρ c b h2).trans <| (W1_of m ρ c b h1).trans <| rfl
theorem W11_launch (c : Dev nD) (b : Ref sig .tc) (h1 : b ∉ hostOps0_W) (h2 : b ≠ main_v13) (h3 : b ∉ hostOps1_W) (h4 : b ≠ main_v27) (h5 : b ∉ hostOps2_W) (h6 : b ≠ main_v41) (h7 : b ∉ hostOps3_W) (h8 : b ≠ main_v55) (h9 : b ∉ hostOps4_W) (h10 : b ≠ main_v61) (h11 : b ∉ hostOps5_W) :
    W11 m ρ a4 c (Proc.devRef .tc b) = m ((c : Thread nD τ).loc b) :=
  (W11_of m ρ a4 c b h11).trans <| (W10_keep m ρ a4 c b h10).trans <| (W9_of m ρ c b h9).trans <| (W8_keep m ρ c b h8).trans <| (W7_of m ρ c b h7).trans <| (W6_keep m ρ c b h6).trans <| (W5_of m ρ c b h5).trans <| (W4_keep m ρ c b h4).trans <| (W3_of m ρ c b h3).trans <| (W2_keep m ρ c b h2).trans <| (W1_of m ρ c b h1).trans <| rfl
theorem W13_launch (c : Dev nD) (b : Ref sig .tc) (h1 : b ∉ hostOps0_W) (h2 : b ≠ main_v13) (h3 : b ∉ hostOps1_W) (h4 : b ≠ main_v27) (h5 : b ∉ hostOps2_W) (h6 : b ≠ main_v41) (h7 : b ∉ hostOps3_W) (h8 : b ≠ main_v55) (h9 : b ∉ hostOps4_W) (h10 : b ≠ main_v61) (h11 : b ∉ hostOps5_W) (h12 : b ≠ main_v64) (h13 : b ∉ hostOps6_W) :
    W13 m ρ a4 a5 c (Proc.devRef .tc b) = m ((c : Thread nD τ).loc b) :=
  (W13_of m ρ a4 a5 c b h13).trans <| (W12_keep m ρ a4 a5 c b h12).trans <| (W11_of m ρ a4 c b h11).trans <| (W10_keep m ρ a4 c b h10).trans <| (W9_of m ρ c b h9).trans <| (W8_keep m ρ c b h8).trans <| (W7_of m ρ c b h7).trans <| (W6_keep m ρ c b h6).trans <| (W5_of m ρ c b h5).trans <| (W4_keep m ρ c b h4).trans <| (W3_of m ρ c b h3).trans <| (W2_keep m ρ c b h2).trans <| (W1_of m ρ c b h1).trans <| rfl

/-! ## The proof data family and the thread state -/

/-- The index tables' contents per pipeline: none for the four residual regions, `a4` and `a5` for the lookups. -/
abbrev adm : (p : Fin 6) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => a4
  | ⟨5, _⟩ => a5
/-- Every pipeline's proof data, each at its region's entry contents. -/
def pdats : (p : Fin 6) → (c : Dev nD) → Dat τ (Elt F) Unit ℕ (UR sig nD τ) ℕ (Pipeline.pin (pcfgs (F := F)) (adm a4 a5) p) c
  | ⟨0, _⟩ => fun c => dat0 (VW1 m ρ) c
  | ⟨1, _⟩ => fun c => dat1 (VW3 m ρ) c
  | ⟨2, _⟩ => fun c => dat2 (VW5 m ρ) c
  | ⟨3, _⟩ => fun c => dat3 (VW7 m ρ) c
  | ⟨4, _⟩ => fun c => dat4 a4 (VW9 m ρ) c
  | ⟨5, _⟩ => fun c => dat5 a5 (VW11 m ρ a4) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ a4 a5 c) ∗ ∃ r, prngReg c r)

end Cert.Kernel.Gen

end
-- ==== Proof.K.Reg0.lean ====
import proofs.«430333_j20727512170685_2_alg».proof.Proof.K.Chain

/-!
# Region 0 as an item of the program

The region is entered with every unscoped buffer held at `W1` and left with them held at `W2`: its arrays are split
out of the buffers on entry and put back at what the pipeline leaves on exit; the generator register goes into the
pipeline's invariant and comes back; nothing is owed; the kernel has no semaphore of its own and no index table.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg0 : Pipeline.RegionSeg (pcfgs (F := F)) (adm a4 a5) (pdats m ρ a4 a5) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VW1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VW1 m ρ c)
  hentry c := by
    rw [Pipeline.ownSems0_none]
    have hsplit := Pipeline.arrays_of_unscopedBufs (p := 0) (pcfgs (F := F)) (adm a4 a5) (pdats m ρ a4 a5) (launch0 (F := F)).win (launch0 (F := F)).arr_whole c
      ((pdats m ρ a4 a5 0 c).share_full fun _ => rfl) (VW1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ a4 a5 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a4 a5) (Ix := Unit) (Name := ℕ) (U := UR sig nD τ) (Lvl := ℕ)
      (launch0 (F := F)).win (launch0 (F := F)).arr_whole c (pdats m ρ a4 a5) ((pdats m ρ a4 a5 0 c).share_full fun _ => rfl)
      (VW1 m ρ c) (VW2 m ρ c) ((pdats m ρ a4 a5 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg1.lean ====
import proofs.«430333_j20727512170685_2_alg».proof.Proof.K.Chain

/-!
# Region 1 as an item of the program

The region is entered with every unscoped buffer held at `W3` and left with them held at `W4`: its arrays are split
out of the buffers on entry and put back at what the pipeline leaves on exit; the generator register goes into the
pipeline's invariant and comes back; nothing is owed; the kernel has no semaphore of its own and no index table.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg1 : Pipeline.RegionSeg (pcfgs (F := F)) (adm a4 a5) (pdats m ρ a4 a5) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VW3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VW3 m ρ c)
  hentry c := by
    rw [Pipeline.ownSems0_none]
    have hsplit := Pipeline.arrays_of_unscopedBufs (p := 1) (pcfgs (F := F)) (adm a4 a5) (pdats m ρ a4 a5) (launch1 (F := F)).win (launch1 (F := F)).arr_whole c
      ((pdats m ρ a4 a5 1 c).share_full fun _ => rfl) (VW3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ a4 a5 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a4 a5) (Ix := Unit) (Name := ℕ) (U := UR sig nD τ) (Lvl := ℕ)
      (launch1 (F := F)).win (launch1 (F := F)).arr_whole c (pdats m ρ a4 a5) ((pdats m ρ a4 a5 1 c).share_full fun _ => rfl)
      (VW3 m ρ c) (VW4 m ρ c) ((pdats m ρ a4 a5 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg2.lean ====
import proofs.«430333_j20727512170685_2_alg».proof.Proof.K.Chain

/-!
# Region 2 as an item of the program

The region is entered with every unscoped buffer held at `W5` and left with them held at `W6`: its arrays are split
out of the buffers on entry and put back at what the pipeline leaves on exit; the generator register goes into the
pipeline's invariant and comes back; nothing is owed; the kernel has no semaphore of its own and no index table.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg2 : Pipeline.RegionSeg (pcfgs (F := F)) (adm a4 a5) (pdats m ρ a4 a5) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (VW5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (VW5 m ρ c)
  hentry c := by
    rw [Pipeline.ownSems0_none]
    have hsplit := Pipeline.arrays_of_unscopedBufs (p := 2) (pcfgs (F := F)) (adm a4 a5) (pdats m ρ a4 a5) (launch2 (F := F)).win (launch2 (F := F)).arr_whole c
      ((pdats m ρ a4 a5 2 c).share_full fun _ => rfl) (VW5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ a4 a5 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a4 a5) (Ix := Unit) (Name := ℕ) (U := UR sig nD τ) (Lvl := ℕ)
      (launch2 (F := F)).win (launch2 (F := F)).arr_whole c (pdats m ρ a4 a5) ((pdats m ρ a4 a5 2 c).share_full fun _ => rfl)
      (VW5 m ρ c) (VW6 m ρ c) ((pdats m ρ a4 a5 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg3.lean ====
import proofs.«430333_j20727512170685_2_alg».proof.Proof.K.Chain

/-!
# Region 3 as an item of the program

The region is entered with every unscoped buffer held at `W7` and left with them held at `W8`: its arrays are split
out of the buffers on entry and put back at what the pipeline leaves on exit; the generator register goes into the
pipeline's invariant and comes back; nothing is owed; the kernel has no semaphore of its own and no index table.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg3 : Pipeline.RegionSeg (pcfgs (F := F)) (adm a4 a5) (pdats m ρ a4 a5) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (VW7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (VW7 m ρ c)
  hentry c := by
    rw [Pipeline.ownSems0_none]
    have hsplit := Pipeline.arrays_of_unscopedBufs (p := 3) (pcfgs (F := F)) (adm a4 a5) (pdats m ρ a4 a5) (launch3 (F := F)).win (launch3 (F := F)).arr_whole c
      ((pdats m ρ a4 a5 3 c).share_full fun _ => rfl) (VW7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ a4 a5 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm a4 a5) (Ix := Unit) (Name := ℕ) (U := UR sig nD τ) (Lvl := ℕ)
      (launch3 (F := F)).win (launch3 (F := F)).arr_whole c (pdats m ρ a4 a5) ((pdats m ρ a4 a5 3 c).share_full fun _ => rfl)
      (VW7 m ρ c) (VW8 m ρ c) ((pdats m ρ a4 a5 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg4.lean ====
import proofs.«430333_j20727512170685_2_alg».proof.Proof.K.Chain

/-!
# Region 4 as an item of the program

The region is entered with every unscoped buffer held at `W9` and left with them held at `W10`. On entry its two arrays
and its index table are split out of the buffers; the table, at the contents `a4` the buffers hold (`h4`), goes into
the pipeline's invariant, is held there throughout and comes back on exit, where the arrays are put back at what the
pipeline leaves. The generator register goes in and comes back; nothing is owed; the kernel has no semaphore of its own.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg4 (h4 : ∀ c : Dev nD, (fun k => VW9 m ρ c (pre4.ref k)) = a4.1) :
    Pipeline.RegionSeg (pcfgs (F := F)) (adm a4 a5) (pdats m ρ a4 a5) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 a4 (VW9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ a4 c) ∗ R c)
  X c := iprop(∃ r, prngReg c r)
  Y c := iprop((∃ r, prngReg c r) ∗ Pipeline.prefHeld (Ix := Unit) (Name := ℕ) (U := UR sig nD τ) (Lvl := ℕ) pre4 c (fun _ => fullShare) a4.1)
  Z c := Pipeline.unscopedRestP (Ix := Unit) (Name := ℕ) (U := UR sig nD τ) (Lvl := ℕ) pre4 spec4 c (VW9 m ρ c)
  hentry c := by
    rw [Pipeline.ownSems0_none]
    have hsplit := Pipeline.arrays_of_unscopedBufs (p := 4) (pcfgs (F := F)) (adm a4 a5) (pdats m ρ a4 a5) (launch4 (F := F)).win (launch4 (F := F)).arr_whole c
      ((pdats m ρ a4 a5 4 c).share_full fun _ => rfl) (VW9 m ρ c) fun _ => rfl
    rw [Pipeline.unscopedBufs_held, (show (Pipeline.unscopedRest (Ix := Unit) (Name := ℕ) (U := UR sig nD τ) (Lvl := ℕ) (Pipeline.pin (pcfgs (F := F)) (adm a4 a5) 4).spec c (VW9 m ρ c) : sProp 𝕄)
        = iprop(Pipeline.prefHeld (Ix := Unit) (Name := ℕ) (U := UR sig nD τ) (Lvl := ℕ) pre4 c (fun _ => fullShare) a4.1
            ∗ Pipeline.unscopedRestP (Ix := Unit) (Name := ℕ) (U := UR sig nD τ) (Lvl := ℕ) pre4 spec4 c (VW9 m ρ c))
      from (Pipeline.unscopedRest_split preFacts4 c (VW9 m ρ c)).trans (by rw [h4 c]))] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 4 c).Φ 0 = iprop(Pipeline.ΦA spec4 c ∗ Pipeline.prefHeld (Ix := Unit) (Name := ℕ) (U := UR sig nD τ) (Lvl := ℕ) pre4 c (fun _ => fullShare) a4.1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m ρ a4 a5 4 c).Φ (Fin.last _) = iprop(Pipeline.ΦA spec4 c ∗ Pipeline.prefHeld (Ix := Unit) (Name := ℕ) (U := UR sig nD τ) (Lvl := ℕ) pre4 c (fun _ => fullShare) a4.1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 4) (pcfgs (F := F)) (adm a4 a5) (Ix := Unit) (Name := ℕ) (U := UR sig nD τ) (Lvl := ℕ)
      (launch4 (F := F)).win (launch4 (F := F)).arr_whole c (pdats m ρ a4 a5) ((pdats m ρ a4 a5 4 c).share_full fun _ => rfl)
      (VW9 m ρ c) (VW10 m ρ a4 c) ((pdats m ρ a4 a5 4 c).arrAt · (cfg4 a4).N) (hF4 m ρ a4 c) (hrest4 m ρ a4 c)
    rw [Pipeline.unscopedBufs_held, (show (Pipeline.unscopedRest (Ix := Unit) (Name := ℕ) (U := UR sig nD τ) (Lvl := ℕ) (Pipeline.pin (pcfgs (F := F)) (adm a4 a5) 4).spec c (VW9 m ρ c) : sProp 𝕄)
        = iprop(Pipeline.prefHeld (Ix := Unit) (Name := ℕ) (U := UR sig nD τ) (Lvl := ℕ) pre4 c (fun _ => fullShare) a4.1
            ∗ Pipeline.unscopedRestP (Ix := Unit) (Name := ℕ) (U := UR sig nD τ) (Lvl := ℕ) pre4 spec4 c (VW9 m ρ c))
      from (Pipeline.unscopedRest_split preFacts4 c (VW9 m ρ c)).trans (by rw [h4 c]))] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

end Cert.Kernel.Gen

end
-- ==== Proof.K.Reg5.lean ====
import proofs.«430333_j20727512170685_2_alg».proof.Proof.K.Chain

/-!
# Region 5 as an item of the program

The region is entered with every unscoped buffer held at `W11` and left with them held at `W12`. On entry its two arrays
and its index table are split out of the buffers; the table, at the contents `a5` the buffers hold (`h5`), goes into
the pipeline's invariant, is held there throughout and comes back on exit, where the arrays are put back at what the
pipeline leaves. The generator register goes in and comes back; nothing is owed; the kernel has no semaphore of its own.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg5 (h5 : ∀ c : Dev nD, (fun k => VW11 m ρ a4 c (pre5.ref k)) = a5.1) :
    Pipeline.RegionSeg (pcfgs (F := F)) (adm a4 a5) (pdats m ρ a4 a5) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 a5 (VW11 m ρ a4) c).loose
  hwaits := Pipeline.hwaits_of_owed_zero _ _ _ _ L lv 5 fun _ _ => rfl
  pre c := iprop(StableHlo.held (c : Thread nD τ) (Pipeline.ucRefs τ sig) (W11 m ρ a4 c) ∗ R c)
  post c := iprop(StableHlo.held (c : Thread nD τ) (Pipeline.ucRefs τ sig) (W12 m ρ a4 a5 c) ∗ R c)
  X c := iprop(∃ r, prngReg c r)
  Y c := iprop((∃ r, prngReg c r) ∗ Pipeline.prefHeld (Ix := Unit) (Name := ℕ) (U := UR sig nD τ) (Lvl := ℕ) pre5 c (fun _ => fullShare) a5.1)
  Z c := Pipeline.unscopedRestP (Ix := Unit) (Name := ℕ) (U := UR sig nD τ) (Lvl := ℕ) pre5 spec5 c (VW11 m ρ a4 c)
  hentry c := by
    rw [Pipeline.ownSems0_none]
    have hsplit := Pipeline.arrays_of_unscopedBufs (p := 5) (pcfgs (F := F)) (adm a4 a5) (pdats m ρ a4 a5) (launch5 (F := F)).win (launch5 (F := F)).arr_whole c
      ((pdats m ρ a4 a5 5 c).share_full fun _ => rfl) (VW11 m ρ a4 c) fun _ => rfl
    rw [Pipeline.unscopedBufs_held, (show (Pipeline.unscopedRest (Ix := Unit) (Name := ℕ) (U := UR sig nD τ) (Lvl := ℕ) (Pipeline.pin (pcfgs (F := F)) (adm a4 a5) 5).spec c (VW11 m ρ a4 c) : sProp 𝕄)
        = iprop(Pipeline.prefHeld (Ix := Unit) (Name := ℕ) (U := UR sig nD τ) (Lvl := ℕ) pre5 c (fun _ => fullShare) a5.1
            ∗ Pipeline.unscopedRestP (Ix := Unit) (Name := ℕ) (U := UR sig nD τ) (Lvl := ℕ) pre5 spec5 c (VW11 m ρ a4 c))
      from (Pipeline.unscopedRest_split preFacts5 c (VW11 m ρ a4 c)).trans (by rw [h5 c]))] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 5 c).Φ 0 = iprop(Pipeline.ΦA spec5 c ∗ Pipeline.prefHeld (Ix := Unit) (Name := ℕ) (U := UR sig nD τ) (Lvl := ℕ) pre5 c (fun _ => fullShare) a5.1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m ρ a4 a5 5 c).Φ (Fin.last _) = iprop(Pipeline.ΦA spec5 c ∗ Pipeline.prefHeld (Ix := Unit) (Name := ℕ) (U := UR sig nD τ) (Lvl := ℕ) pre5 c (fun _ => fullShare) a5.1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 5) (pcfgs (F := F)) (adm a4 a5) (Ix := Unit) (Name := ℕ) (U := UR sig nD τ) (Lvl := ℕ)
      (launch5 (F := F)).win (launch5 (F := F)).arr_whole c (pdats m ρ a4 a5) ((pdats m ρ a4 a5 5 c).share_full fun _ => rfl)
      (VW11 m ρ a4 c) (VW12 m ρ a4 a5 c) ((pdats m ρ a4 a5 5 c).arrAt · (cfg5 a5).N) (hF5 m ρ a4 a5 c) (hrest5 m ρ a4 a5 c)
    rw [Pipeline.unscopedBufs_held, (show (Pipeline.unscopedRest (Ix := Unit) (Name := ℕ) (U := UR sig nD τ) (Lvl := ℕ) (Pipeline.pin (pcfgs (F := F)) (adm a4 a5) 5).spec c (VW11 m ρ a4 c) : sProp 𝕄)
        = iprop(Pipeline.prefHeld (Ix := Unit) (Name := ℕ) (U := UR sig nD τ) (Lvl := ℕ) pre5 c (fun _ => fullShare) a5.1
            ∗ Pipeline.unscopedRestP (Ix := Unit) (Name := ℕ) (U := UR sig nD τ) (Lvl := ℕ) pre5 spec5 c (VW11 m ρ a4 c))
      from (Pipeline.unscopedRest_split preFacts5 c (VW11 m ρ a4 c)).trans (by rw [h5 c]))] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

end Cert.Kernel.Gen

end
-- ==== Proof.K.Launch.lean ====
import proofs.«430333_j20727512170685_2_alg».proof.Proof.K.Reg0
import proofs.«430333_j20727512170685_2_alg».proof.Proof.K.Reg1
import proofs.«430333_j20727512170685_2_alg».proof.Proof.K.Reg2
import proofs.«430333_j20727512170685_2_alg».proof.Proof.K.Reg3
import proofs.«430333_j20727512170685_2_alg».proof.Proof.K.Reg4
import proofs.«430333_j20727512170685_2_alg».proof.Proof.K.Reg5

/-!
# The launch: the program as its items, run from the launch memory

The program is the run of thirteen items: host stretch, region, …, host stretch. From the launch memory with every
counter at zero, every weakly fair execution ends, and in the final memory every unscoped buffer holds what the last
item's contents `W13` say. The index tables are any admissible contents that the launch memory's table buffers hold
(`h4`, `h5`).
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

variable (h4 : ∀ c : Dev nD, (fun k => VW9 m ρ c (pre4.ref k)) = a4.1) (h5 : ∀ c : Dev nD, (fun k => VW11 m ρ a4 c (pre5.ref k)) = a5.1)

/-- The thirteen items in order. -/
abbrev items : List (Pipeline.Seg (pcfgs (F := F)) (adm a4 a5) (pdats m ρ a4 a5) () defs₀ 𝒱₀ L lv) :=
  [ .host (hseg hostOps0 hostOps0_sub hostOps0_fresh (W0 m ρ)),
    .region (reg0 m ρ a4 a5),
    .host (hseg hostOps1 hostOps1_sub hostOps1_fresh (W2 m ρ)),
    .region (reg1 m ρ a4 a5),
    .host (hseg hostOps2 hostOps2_sub hostOps2_fresh (W4 m ρ)),
    .region (reg2 m ρ a4 a5),
    .host (hseg hostOps3 hostOps3_sub hostOps3_fresh (W6 m ρ)),
    .region (reg3 m ρ a4 a5),
    .host (hseg hostOps4 hostOps4_sub hostOps4_fresh (W8 m ρ)),
    .region (reg4 m ρ a4 a5 h4),
    .host (hseg hostOps5 hostOps5_sub hostOps5_fresh (W10 m ρ a4)),
    .region (reg5 m ρ a4 a5 h5),
    .host (hseg hostOps6 hostOps6_sub hostOps6_fresh (W12 m ρ a4 a5)) ]

include h4 h5 in
/-- The program is the run of its items. -/
theorem main_run (c : Dev nD) : main (F := F) c = Pipeline.Seg.run (items m ρ a4 a5 h4 h5) := (main_chain c).trans (by chain_rfl)

include h4 h5 in
set_option backward.isDefEq.respectTransparency.types false in
/-- Every weakly fair execution from `m` with zero counters ends, nothing faulting, with every unscoped buffer of
    every core at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ a4 a5 c b) :=
  Pipeline.θ_run_regions_kit (pcfgs (F := F)) (adm a4 a5) (pdats m ρ a4 a5) () (cellOf_inj (adm a4 a5)) emb₁ defs₀ 𝒱₀ L lv m ρ main (items m ρ a4 a5 h4 h5)
    (fun c Q => by rw [main_run m ρ a4 a5 h4 h5 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a4 a5)) (cellOf_inj (adm a4 a5))) (Pipeline.launchToks (Pipeline.pin (pcfgs (F := F)) (adm a4 a5)) (cellOf_inj (adm a4 a5))))
    (hu₀ := by
      iintro Hu; imodintro
      isplitl [Hu]
      · iapply (show (ownU (initOf (Pipeline.cells (Pipeline.pin (pcfgs (F := F)) (adm a4 a5)) (cellOf_inj (adm a4 a5))) (Pipeline.launchToks (Pipeline.pin (pcfgs (F := F)) (adm a4 a5)) (cellOf_inj (adm a4 a5)))) : sProp 𝕄)
            ⊢ BI.own (emb₁ (initOf (Pipeline.cells (Pipeline.pin (pcfgs (F := F)) (adm a4 a5)) (cellOf_inj (adm a4 a5))) (Pipeline.launchToks (Pipeline.pin (pcfgs (F := F)) (adm a4 a5)) (cellOf_inj (adm a4 a5))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ a4 a5)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W13 m ρ a4 a5 c) ∗ R c)
          ⊢ iprop(Tₙ m ρ a4 a5 c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ a4 a5 c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ a4 a5 c) s')
      isplitl [Hh] <;> iassumption)
    (hQ := fun s h c => h c)

end Cert.Kernel.Gen

end
-- ==== Proof.PreIdx.lean ====
/-
  The precondition, read back at the two index vectors. The precondition is a conjunction whose last two conjuncts
  are all-reductions, over the 16384 positions, of the signed range tests 0 ≤ w < 100000 (first index vector) and
  0 ≤ w < 50000 (second index vector). A 32-bit word that passes such a test is, read unsigned, below the bound (so it
  names a row of the table it indexes) and is not negative read signed. The six finiteness conjuncts over the float
  arguments are not used here.
-/
import proofs.«430333_j20727512170685_2_alg».proof.Proof.Gen.Pre_finite_inputs
import Idealize.ShloMosaic.Lib.ReduceAll
import Idealize.ShloMosaic.Lib.ValueIdx
import Idealize.ShloMosaic.Lib.Affine

noncomputable section

namespace Cert.PreIdx

open Cert.Pre_finite_inputs
open Idealize.ShloMosaic Idealize.ShloMosaic.ValueIdx

/-- A 32-bit word that, read signed, is at least 0 and below a bound N < 2³¹ has unsigned value below N and is not
    negative: a signed value that is ≥ 0 is the unsigned value, since the other branch of the signed reading is
    (unsigned value) − 2³² < 0. -/
theorem word_range (w : BitVec 32) (N : Nat) (hN : N < 2 ^ 31)
    (h0 : IntOp.cmpi .sge w 0#32 = 1#1) (h1 : IntOp.cmpi .slt w (BitVec.ofNat 32 N) = 1#1) :
    w.toNat < N ∧ ¬ w.slt 0#32 = true := by
  rw [IntOp.cmpi_sge] at h0
  rw [IntOp.cmpi_slt] at h1
  have z : (0#32 : BitVec 32).toInt = 0 := by decide
  rw [z] at h0
  -- the bound, below 2³¹, reads the same signed
  have hb : (BitVec.ofNat 32 N).toInt = (N : Int) := by
    rw [BitVec.toInt_eq_toNat_cond, BitVec.toNat_ofNat]
    have : N % 2 ^ 32 = N := Nat.mod_eq_of_lt (by omega)
    rw [this, if_pos (by omega)]
  rw [hb] at h1
  have hlt := w.isLt
  refine ⟨?_, ?_⟩
  · rw [BitVec.toInt_eq_toNat_cond] at h0 h1
    split at h0 <;> omega
  · rw [BitVec.slt_iff_toInt_lt, z]; omega

/-- A word that is not negative compares "signed less than 0" to the bit 0. -/
theorem cmpi_slt_zero_of_not_slt (w : BitVec 32) (h : ¬ w.slt 0#32 = true) : IntOp.cmpi .slt w 0#32 = 0#1 := by
  have hf : w.slt 0#32 = false := by simpa using h
  show BitVec.ofBool (w.slt 0#32) = 0#1
  rw [hf]; rfl

/-- The all-reduction by "and" of the range test 0 ≤ a[i] < N over a vector of 16384 words being 1 gives the range
    of every word: each element of the reduced vector is 1, and that element is the conjunction of the two signed
    comparisons of a[i] against the broadcast constants 0 and N. -/
theorem range_of_all (a : IVec S16384 32) (N : Nat) (hN : N < 2 ^ 31)
    (e : Host.reduce IntOp.andi
        (andi (cmpi .sge a (broadcastInDim S16384 ![] Facts.bcast_S_S16384 (constantI S_ 32 0#32)))
          (cmpi .slt a (broadcastInDim S16384 ![] Facts.bcast_S_S16384 (constantI S_ 32 (BitVec.ofNat 32 N)))))
        (constantI S_ 1 1#1) Facts.reducesTo_S16384_S_d0 Facts.h_S_ ix0 = 1#1) (i : S16384.Idx) :
    (a i).toNat < N ∧ ¬ (a i).slt 0#32 = true := by
  -- the scalar shape has one index, so the reduction runs over every position
  haveI : Subsingleton S_.Idx := ⟨fun a b => funext fun d => d.elim0⟩
  have hi := Host.reduce_andi_all _ _ _ _ _ e i
  obtain ⟨h0, h1⟩ := IntOp.andi_eq_one.1 hi
  exact word_range (a i) N hN h0 h1

/-- The precondition gives the ranges of both index vectors: every word of the first is in [0, 100000) and every word
    of the second in [0, 50000). The precondition's value at its one index is ((… ∧ r₈) ∧ r₉) with r₈, r₉ the two
    all-reductions; a conjunction of bits is 1 only if both are. -/
theorem idx_of_pre {F : FTy → Type} [FloatOps F] (a0 : FVec F S100000x64 .f32) (a1 : FVec F S50000x64 .f32) (a2 : FVec F S3200000 .f32) (a3 : FVec F S100000x1 .f32) (a4 : FVec F S50000x1 .f32) (a5 : FVec F S16384 .f32) (a6 a7 : IVec S3200000 32) (a8 a9 : IVec S16384 32)
    (h : Cert.Pre_finite_inputs.fn (F := F) a0 a1 a2 a3 a4 a5 a6 a7 a8 a9 = fun _ => 1#1) :
    (∀ i : S16384.Idx, (a8 i).toNat < 100000 ∧ ¬ (a8 i).slt 0#32 = true) ∧ (∀ i : S16384.Idx, (a9 i).toNat < 50000 ∧ ¬ (a9 i).slt 0#32 = true) := by
  have e := congrFun h ix0
  dsimp only [fn, fn_part1, fn_part2] at e
  obtain ⟨e', e9⟩ := IntOp.andi_eq_one.1 e
  obtain ⟨_, e8⟩ := IntOp.andi_eq_one.1 e'
  exact ⟨range_of_all a8 100000 (by norm_num) e8, range_of_all a9 50000 (by norm_num) e9⟩

end Cert.PreIdx

end
-- ==== Proof.K.Tables.lean ====
/-
  The index tables of the two lookup regions. Each lookup region prefetches one table of 16384 words: the first
  the argument that indexes the 100000-row table, the second the argument that indexes the 50000-row table. The
  contents the regions run at are the launch memory's: no host stretch writes an argument and no region has one as
  its output, so the tables read at the regions' entries are the arguments as launched. There is one core, so "on
  every core" is "on core 0". Under the precondition every word of the first table is in [0, 100000) and every
  word of the second in [0, 50000).
-/
import proofs.«430333_j20727512170685_2_alg».proof.Proof.K.Chain
import proofs.«430333_j20727512170685_2_alg».proof.Proof.PreIdx
import proofs.«430333_j20727512170685_2_alg».proof.Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first lookup region's table contents at launch: its one table is the first index argument. -/
def tbl4 (m : (ℓ : Loc nD τ sig) → Buf (Elt F) ℓ) : pre4.Contents (Elt F) := fun k => m (((0 : Dev nD) : Thread nD τ).loc (pre4.ref k))
/-- The second lookup region's table contents at launch: its one table is the second index argument. -/
def tbl5 (m : (ℓ : Loc nD τ sig) → Buf (Elt F) ℓ) : pre5.Contents (Elt F) := fun k => m (((0 : Dev nD) : Thread nD τ).loc (pre5.ref k))

/-- Table 0 of the first lookup region is the first index argument, on the one core. -/
theorem tbl4_zero (m : (ℓ : Loc nD τ sig) → Buf (Elt F) ℓ) (c : Dev nD) : (tbl4 m 0 : IVec S16384 32) = m ((c : Thread nD τ).loc main_arg8) := by
  obtain rfl : c = 0 := Subsingleton.elim _ _
  rfl

/-- Table 0 of the second lookup region is the second index argument, on the one core. -/
theorem tbl5_zero (m : (ℓ : Loc nD τ sig) → Buf (Elt F) ℓ) (c : Dev nD) : (tbl5 m 0 : IVec S16384 32) = m ((c : Thread nD τ).loc main_arg9) := by
  obtain rfl : c = 0 := Subsingleton.elim _ _
  rfl

/-- At the first lookup region's entry its table reads back to the launch memory: the first index argument is
    written by none of host stretches 0–4 and is the output of none of regions 0–3. -/
theorem h4_of (m : (ℓ : Loc nD τ sig) → Buf (Elt F) ℓ) (ρ : Dev nD → PrngReg) (a4 : (pcfg4 (F := F)).Adm) (ha : a4.1 = tbl4 m) :
    ∀ c : Dev nD, (fun k => VW9 m ρ c (pre4.ref k)) = a4.1 := by
  intro c
  rw [ha]
  funext k
  -- one table, one core
  obtain rfl : k = 0 := Subsingleton.elim _ _
  obtain rfl : c = 0 := Subsingleton.elim _ _
  exact W9_launch m ρ 0 main_arg8 (by decide) (by decide) (by decide) (by decide) (by decide) (by decide) (by decide) (by decide) (by decide)

/-- At the second lookup region's entry its table reads back to the launch memory: the second index argument is
    written by none of host stretches 0–5 and is the output of none of regions 0–4. -/
theorem h5_of (m : (ℓ : Loc nD τ sig) → Buf (Elt F) ℓ) (ρ : Dev nD → PrngReg) (a4 : (pcfg4 (F := F)).Adm) (a5 : (pcfg5 (F := F)).Adm) (ha : a5.1 = tbl5 m) :
    ∀ c : Dev nD, (fun k => VW11 m ρ a4 c (pre5.ref k)) = a5.1 := by
  intro c
  rw [ha]
  funext k
  obtain rfl : k = 0 := Subsingleton.elim _ _
  obtain rfl : c = 0 := Subsingleton.elim _ _
  exact W11_launch m ρ a4 0 main_arg9 (by decide) (by decide) (by decide) (by decide) (by decide) (by decide) (by decide) (by decide) (by decide) (by decide) (by decide)

/-- Under the precondition (the printed predicate of the argument arrays all ones, on every core) every word of the
    first table is below 100000 and every word of the second below 50000, read unsigned, and none is negative read
    signed: the predicate's two range conjuncts, read at core 0. -/
theorem idx_of_Pre (m : (ℓ : Loc nD τ sig) → Buf (Elt F) ℓ)
    (hpre : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    (∀ i : S16384.Idx, ((tbl4 m 0 : IVec S16384 32) i).toNat < 100000 ∧ ¬ ((tbl4 m 0 : IVec S16384 32) i).slt 0#32 = true)
    ∧ (∀ i : S16384.Idx, ((tbl5 m 0 : IVec S16384 32) i).toNat < 50000 ∧ ¬ ((tbl5 m 0 : IVec S16384 32) i).slt 0#32 = true) :=
  Cert.PreIdx.idx_of_pre _ _ _ _ _ _ _ _ _ _ (hpre 0)

end Cert.Kernel.Gen

end
-- ==== Proof.K.Ok.lean ====
import proofs.«430333_j20727512170685_2_alg».proof.Proof.Gen.Kernel

/-!
# When an index table is admissible

A lookup region's pipeline fetches, at sample `i`, the one-row block of the table whose block index is the `i`-th
word of the index table read UNSIGNED. The pipeline's side condition asks that block to lie inside the table: that is
exactly that every word, read unsigned, is below the number of rows.
-/

noncomputable section

namespace Cert.Kernel.Gen

open Idealize.ShloMosaic Idealize.SL.Sem
open Cert.Kernel.Facts₀ Cert.Kernel.Facts

variable {F : FTy → Type} [FloatOps F]

/-- Every word of the index table below 100000 makes the table admissible for pipeline 4. -/
theorem ok4_of_lt (pf : pre4.Contents (Elt F)) (hlt : ∀ i : S16384.Idx, ((pf 0 : IVec S16384 32) i).toNat < 100000) : ok4 pf := by
  intro i
  refine ⟨fun a => ?_, Or.inl rfl⟩
  match a with
  | ⟨0, _⟩ =>
    show (BitVec.toNat ((pf 0 : IVec S16384 32) _) + 1) * 1 ≤ 100000
    rw [Nat.mul_one]
    exact hlt _
  | ⟨1, _⟩ => show ((0#32 : BitVec 32).toNat + 1) * 1 ≤ 1; decide
  | ⟨2, _⟩ => show ((0#32 : BitVec 32).toNat + 1) * 64 ≤ 64; decide

/-- Every word of the index table below 50000 makes the table admissible for pipeline 5. -/
theorem ok5_of_lt (pf : pre5.Contents (Elt F)) (hlt : ∀ i : S16384.Idx, ((pf 0 : IVec S16384 32) i).toNat < 50000) : ok5 pf := by
  intro i
  refine ⟨fun a => ?_, Or.inl rfl⟩
  match a with
  | ⟨0, _⟩ =>
    show (BitVec.toNat ((pf 0 : IVec S16384 32) _) + 1) * 1 ≤ 50000
    rw [Nat.mul_one]
    exact hlt _
  | ⟨1, _⟩ => show ((0#32 : BitVec 32).toNat + 1) * 1 ≤ 1; decide
  | ⟨2, _⟩ => show ((0#32 : BitVec 32).toNat + 1) * 64 ≤ 64; decide

end Cert.Kernel.Gen

end
-- ==== Proof.K.Frame.lean ====
import proofs.«430333_j20727512170685_2_alg».proof.Proof.K.Launch
import proofs.«430333_j20727512170685_2_alg».proof.Proof.K.Tables
import proofs.«430333_j20727512170685_2_alg».proof.Proof.K.Ok

/-!
# The run under the precondition

The precondition bounds every word of the two index tables the launch memory holds by the number of rows of the table
it indexes, so those contents are admissible and the launch applies: every execution ends, the result buffer holds
what the last item's contents say, and every argument holds its launch contents (nothing writes an argument).
-/

set_option maxRecDepth 16384

noncomputable section

namespace Cert.Kernel.Gen

open Idealize.ShloMosaic Idealize.ShloMosaic.TcCoe
open Idealize.SL Idealize.SL.Sem

variable {F : FTy → Type} [FloatOps F]

/-- The user index table the launch memory holds, admissible when every word is below 100000. -/
def admOf4 (m : (ℓ : Loc nD τ sig) → Buf (Elt F) ℓ) (h : ∀ i : S16384.Idx, ((tbl4 m 0 : IVec S16384 32) i).toNat < 100000) : (pcfg4 (F := F)).Adm :=
  ⟨tbl4 m, ok4_of_lt (tbl4 m) h⟩
/-- The item index table the launch memory holds, admissible when every word is below 50000. -/
def admOf5 (m : (ℓ : Loc nD τ sig) → Buf (Elt F) ℓ) (h : ∀ i : S16384.Idx, ((tbl5 m 0 : IVec S16384 32) i).toNat < 50000) : (pcfg5 (F := F)).Adm :=
  ⟨tbl5 m, ok5_of_lt (tbl5 m) h⟩

/-- The precondition as the programs' claims state it: the printed predicate is all ones on every core's arguments. -/
abbrev PreAt (m : (ℓ : Loc nD τ sig) → Buf (Elt F) ℓ) : Prop :=
  ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1

/-- The two tables' contents under the precondition. -/
abbrev a4Of (m : (ℓ : Loc nD τ sig) → Buf (Elt F) ℓ) (hpre : PreAt m) : (pcfg4 (F := F)).Adm := admOf4 m fun i => ((idx_of_Pre m hpre).1 i).1
abbrev a5Of (m : (ℓ : Loc nD τ sig) → Buf (Elt F) ℓ) (hpre : PreAt m) : (pcfg5 (F := F)).Adm := admOf5 m fun i => ((idx_of_Pre m hpre).2 i).1

/-- Under the precondition every weakly fair execution ends with the result buffer at the last item's contents and
    every argument as launched. -/
theorem run_post (m : (ℓ : Loc nD τ sig) → Buf (Elt F) ℓ) (ρ : Dev nD → PrngReg) (hpre : PreAt m) :
    θ_run defs (onTc (τ := τ) (main (F := F))) ⟨m, fun _ => 0, ρ⟩ (fun r => ∀ c : Dev nD,
      r.2.mem ((c.tc : Thread nD τ).loc main_v84) = W13 m ρ (a4Of m hpre) (a5Of m hpre) c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v84 (by decide)),
     (h c _ (mem_uc main_arg0 (by decide))).trans (W13_launch m ρ (a4Of m hpre) (a5Of m hpre) c main_arg0 (by decide) (by decide) (by decide) (by decide) (by decide) (by decide) (by decide) (by decide) (by decide) (by decide) (by decide) (by decide) (by decide)),
     (h c _ (mem_uc main_arg1 (by decide))).trans (W13_launch m ρ (a4Of m hpre) (a5Of m hpre) c main_arg1 (by decide) (by decide) (by decide) (by decide) (by decide) (by decide) (by decide) (by decide) (by decide) (by decide) (by decide) (by decide) (by decide)),
     (h c _ (mem_uc main_arg2 (by decide))).trans (W13_launch m ρ (a4Of m hpre) (a5Of m hpre) c main_arg2 (by decide) (by decide) (by decide) (by decide) (by decide) (by decide) (by decide) (by decide) (by decide) (by decide) (by decide) (by decide) (by decide)),
     (h c _ (mem_uc main_arg3 (by decide))).trans (W13_launch m ρ (a4Of m hpre) (a5Of m hpre) c main_arg3 (by decide) (by decide) (by decide) (by decide) (by decide) (by decide) (by decide) (by decide) (by decide) (by decide) (by decide) (by decide) (by decide)),
     (h c _ (mem_uc main_arg4 (by decide))).trans (W13_launch m ρ (a4Of m hpre) (a5Of m hpre) c main_arg4 (by decide) (by decide) (by decide) (by decide) (by decide) (by decide) (by decide) (by decide) (by decide) (by decide) (by decide) (by decide) (by decide)),
     (h c _ (mem_uc main_arg5 (by decide))).trans (W13_launch m ρ (a4Of m hpre) (a5Of m hpre) c main_arg5 (by decide) (by decide) (by decide) (by decide) (by decide) (by decide) (by decide) (by decide) (by decide) (by decide) (by decide) (by decide) (by decide)),
     (h c _ (mem_uc main_arg6 (by decide))).trans (W13_launch m ρ (a4Of m hpre) (a5Of m hpre) c main_arg6 (by decide) (by decide) (by decide) (by decide) (by decide) (by decide) (by decide) (by decide) (by decide) (by decide) (by decide) (by decide) (by decide)),
     (h c _ (mem_uc main_arg7 (by decide))).trans (W13_launch m ρ (a4Of m hpre) (a5Of m hpre) c main_arg7 (by decide) (by decide) (by decide) (by decide) (by decide) (by decide) (by decide) (by decide) (by decide) (by decide) (by decide) (by decide) (by decide)),
     (h c _ (mem_uc main_arg8 (by decide))).trans (W13_launch m ρ (a4Of m hpre) (a5Of m hpre) c main_arg8 (by decide) (by decide) (by decide) (by decide) (by decide) (by decide) (by decide) (by decide) (by decide) (by decide) (by decide) (by decide) (by decide)),
     (h c _ (mem_uc main_arg9 (by decide))).trans (W13_launch m ρ (a4Of m hpre) (a5Of m hpre) c main_arg9 (by decide) (by decide) (by decide) (by decide) (by decide) (by decide) (by decide) (by decide) (by decide) (by decide) (by decide) (by decide) (by decide))⟩)
    (run_all m ρ (a4Of m hpre) (a5Of m hpre) (h4_of m ρ (a4Of m hpre) rfl) (h5_of m ρ (a4Of m hpre) (a5Of m hpre) rfl))

end Cert.Kernel.Gen

end
-- ==== Proof.KI.Relu0.lean ====
import proofs.«430333_j20727512170685_2_alg».proof.Proof.Gen.KernelIdeal.Launch
import proofs.«430333_j20727512170685_2_alg».proof.Proof.Gen.KernelIdeal.Skeleton
import proofs.«430333_j20727512170685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused residual `max (s + x * d) 0` over row tiles (pipeline 0 of the idealized kernel)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole tile as a rectangle: what the body's loads and its one store address. -/
abbrev r0_wide : Rect S5000x64 := Rect.unit (s := S5000x64) ![0, 0] S5000x64.size inb_S5000x64_S5000x64_0_0
abbrev r0_col : Rect S5000x1 := Rect.unit (s := S5000x1) ![0, 0] S5000x1.size inb_S5000x1_S5000x1_0_0

/-- What the body leaves in the output tile: its one store, `max (s + x * d) 0` of the three input tiles. -/
def out0_3 (x0 : Vec F S5000x64 .f32) (x1 : Vec F S5000x64 .f32) (x2 : Vec F S5000x1 .f32) : Vec F S5000x64 .f32 :=
  View.canon [⟨r0_wide, k0_pay1 (View.ld x0 r0_wide) (View.ld x1 r0_wide) (View.ld x2 r0_col)⟩]

/-- The store covers the whole tile. -/
theorem cover0_3 (p0 : Vec F S5000x64 .f32) (y : S5000x64.Idx) :
    ∃ pc ∈ ([⟨r0_wide, p0⟩] : List (View.Piece (Elt F) S5000x64 .f32)), y ∈ pc.1.set :=
  View.cover_of_tiled [⟨r0_wide, p0⟩] S5000x64.size (by rfl) y

set_option maxHeartbeats 1000000 in
/-- The body on whole staging buffers, the inputs at `x0 x1 x2` and the output at anything, returns with the inputs
    as they were and the output at `out0_3 x0 x1 x2`. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__relu_residual_kernel i arg1 harg1 arg2 harg2 arg3 harg3 arg4 harg4) K := by
  simp only [cc0__relu_residual_kernel_eq_skeleton]; unfold cc0__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as found; after the body each input's buffer at its tile, the output's at
    `out0_3` of the input tiles; the untouched rest as invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their tiles, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Relu1.lean ====
import proofs.«430333_j20727512170685_2_alg».proof.Proof.Gen.KernelIdeal.Launch
import proofs.«430333_j20727512170685_2_alg».proof.Proof.Gen.KernelIdeal.Skeleton
import proofs.«430333_j20727512170685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the fused residual `max (s + x * d) 0` over row tiles (pipeline 1 of the idealized kernel)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its tile at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole tile as a rectangle: what the body's loads and its one store address. -/
abbrev r1_wide : Rect S5000x64 := Rect.unit (s := S5000x64) ![0, 0] S5000x64.size inb_S5000x64_S5000x64_0_0
abbrev r1_col : Rect S5000x1 := Rect.unit (s := S5000x1) ![0, 0] S5000x1.size inb_S5000x1_S5000x1_0_0

/-- What the body leaves in the output tile: its one store, `max (s + x * d) 0` of the three input tiles. -/
def out1_3 (x0 : Vec F S5000x64 .f32) (x1 : Vec F S5000x64 .f32) (x2 : Vec F S5000x1 .f32) : Vec F S5000x64 .f32 :=
  View.canon [⟨r1_wide, k1_pay1 (View.ld x0 r1_wide) (View.ld x1 r1_wide) (View.ld x2 r1_col)⟩]

/-- The store covers the whole tile. -/
theorem cover1_3 (p0 : Vec F S5000x64 .f32) (y : S5000x64.Idx) :
    ∃ pc ∈ ([⟨r1_wide, p0⟩] : List (View.Piece (Elt F) S5000x64 .f32)), y ∈ pc.1.set :=
  View.cover_of_tiled [⟨r1_wide, p0⟩] S5000x64.size (by rfl) y

set_option maxHeartbeats 1000000 in
/-- The body on whole staging buffers, the inputs at `x0 x1 x2` and the output at anything, returns with the inputs
    as they were and the output at `out1_3 x0 x1 x2`. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_residual_kernel i arg1 harg1 arg2 harg2 arg3 harg3 arg4 harg4) K := by
  simp only [cc1__relu_residual_kernel_eq_skeleton]; unfold cc1__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as found; after the body each input's buffer at its tile, the output's at
    `out1_3` of the input tiles; the untouched rest as invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their tiles, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Relu2.lean ====
import proofs.«430333_j20727512170685_2_alg».proof.Proof.Gen.KernelIdeal.Launch
import proofs.«430333_j20727512170685_2_alg».proof.Proof.Gen.KernelIdeal.Skeleton
import proofs.«430333_j20727512170685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the fused residual `max (s + x * d) 0` over row tiles (pipeline 2 of the idealized kernel)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its tile at every point, fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole tile as a rectangle: what the body's loads and its one store address. -/
abbrev r2_wide : Rect S5000x64 := Rect.unit (s := S5000x64) ![0, 0] S5000x64.size inb_S5000x64_S5000x64_0_0
abbrev r2_col : Rect S5000x1 := Rect.unit (s := S5000x1) ![0, 0] S5000x1.size inb_S5000x1_S5000x1_0_0

/-- What the body leaves in the output tile: its one store, `max (s + x * d) 0` of the three input tiles. -/
def out2_3 (x0 : Vec F S5000x64 .f32) (x1 : Vec F S5000x64 .f32) (x2 : Vec F S5000x1 .f32) : Vec F S5000x64 .f32 :=
  View.canon [⟨r2_wide, k2_pay1 (View.ld x0 r2_wide) (View.ld x1 r2_wide) (View.ld x2 r2_col)⟩]

/-- The store covers the whole tile. -/
theorem cover2_3 (p0 : Vec F S5000x64 .f32) (y : S5000x64.Idx) :
    ∃ pc ∈ ([⟨r2_wide, p0⟩] : List (View.Piece (Elt F) S5000x64 .f32)), y ∈ pc.1.set :=
  View.cover_of_tiled [⟨r2_wide, p0⟩] S5000x64.size (by rfl) y

set_option maxHeartbeats 1000000 in
/-- The body on whole staging buffers, the inputs at `x0 x1 x2` and the output at anything, returns with the inputs
    as they were and the output at `out2_3 x0 x1 x2`. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relu_residual_kernel i arg1 harg1 arg2 harg2 arg3 harg3 arg4 harg4) K := by
  simp only [cc2__relu_residual_kernel_eq_skeleton]; unfold cc2__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as found; after the body each input's buffer at its tile, the output's at
    `out2_3` of the input tiles; the untouched rest as invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their tiles, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Relu3.lean ====
import proofs.«430333_j20727512170685_2_alg».proof.Proof.Gen.KernelIdeal.Launch
import proofs.«430333_j20727512170685_2_alg».proof.Proof.Gen.KernelIdeal.Skeleton
import proofs.«430333_j20727512170685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the fused residual `max (s + x * d) 0` over row tiles (pipeline 3 of the idealized kernel)

The region's three inputs (the scattered sums `s`, the embedding `x`, the degree column `d`) are cut
into tiles of 5000 rows; at every tile the body stores `max (s + x * d) 0` (the column `d` spread over the
64 lanes) over the whole output tile. Everything is stated at the contents `V` the region is entered with.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its tile at every point, fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole tile as a rectangle: what the body's loads and its one store address. -/
abbrev r3_wide : Rect S5000x64 := Rect.unit (s := S5000x64) ![0, 0] S5000x64.size inb_S5000x64_S5000x64_0_0
abbrev r3_col : Rect S5000x1 := Rect.unit (s := S5000x1) ![0, 0] S5000x1.size inb_S5000x1_S5000x1_0_0

/-- What the body leaves in the output tile: its one store, `max (s + x * d) 0` of the three input tiles. -/
def out3_3 (x0 : Vec F S5000x64 .f32) (x1 : Vec F S5000x64 .f32) (x2 : Vec F S5000x1 .f32) : Vec F S5000x64 .f32 :=
  View.canon [⟨r3_wide, k3_pay1 (View.ld x0 r3_wide) (View.ld x1 r3_wide) (View.ld x2 r3_col)⟩]

/-- The store covers the whole tile. -/
theorem cover3_3 (p0 : Vec F S5000x64 .f32) (y : S5000x64.Idx) :
    ∃ pc ∈ ([⟨r3_wide, p0⟩] : List (View.Piece (Elt F) S5000x64 .f32)), y ∈ pc.1.set :=
  View.cover_of_tiled [⟨r3_wide, p0⟩] S5000x64.size (by rfl) y

set_option maxHeartbeats 1000000 in
/-- The body on whole staging buffers, the inputs at `x0 x1 x2` and the output at anything, returns with the inputs
    as they were and the output at `out3_3 x0 x1 x2`. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__relu_residual_kernel i arg1 harg1 arg2 harg2 arg3 harg3 arg4 harg4) K := by
  simp only [cc3__relu_residual_kernel_eq_skeleton]; unfold cc3__relu_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data: the arrays as found; after the body each input's buffer at its tile, the output's at
    `out3_3` of the input tiles; the untouched rest as invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their tiles, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Gather4.lean ====
import proofs.«430333_j20727512170685_2_alg».proof.Proof.Gen.KernelIdeal.Launch
import proofs.«430333_j20727512170685_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the row lookup through a prefetched index table (pipeline 4 of the idealized kernel)

At sample `i` the pipeline fetches the one-row block of the table whose block index is the `i`-th word of the
prefetched index table, and the body copies that row into the `i`-th row block of the output. Everything is
stated at ANY admissible contents `a` of the index table (every word a row of the table) and at the contents
`V` the region is entered with: no fact here looks inside `a`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
variable (V : (c : Dev nD) → (b : Ref sig .tc) → Buf (Elt F) ((c : Thread nD τ).loc b))

/-- Block `t` of window `w`, read off the window's array as the region finds it. -/
def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- The input window's staging buffer holds its block at every point: fetched there, or kept from the point before
    when two consecutive samples name the same row. -/
theorem before4_0_of {c : Dev nD} (dat : Dat τ (Elt F) Unit ℕ (UR sig nD τ) ℕ (cfg4 a) c) (hA : dat.A 0 = V c (Pipeline.arrRef spec4 0))
    (hafter : ∀ t, dat.after 0 t = iblk4 a V c 0 t) (t : Fin (cfg4 a).N) (d) : dat.before 0 t d = iblk4 a V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The whole one-row block as a rectangle. -/
abbrev r4_row : Rect S1x1x64 := Rect.unit (s := S1x1x64) ![0, 0, 0] S1x1x64.size inb_S1x1x64_S1x1x64_0_0_0

/-- What the body leaves in the output block: the input block, copied. -/
def out4_1 (x0 : Vec F S1x1x64 .f32) : Vec F S1x1x64 .f32 :=
  View.canon [⟨r4_row, k4_pay1 (View.ld x0 r4_row)⟩]

theorem cover4_1 (p0 : Vec F S1x1x64 .f32) (y : S1x1x64.Idx) :
    ∃ pc ∈ ([⟨r4_row, p0⟩] : List (View.Piece (Elt F) S1x1x64 .f32)), y ∈ pc.1.set :=
  View.cover_of_tiled [⟨r4_row, p0⟩] S1x1x64.size (by rfl) y

set_option maxHeartbeats 1000000 in
/-- The body on whole staging buffers, the input at `x0` and the output at anything, returns with the input as it
    was and the output at `out4_1 x0`; the index table's memref is not touched. -/
theorem sound_kernel4 (c : Dev nD) (E : Set ℕ) (i : grid4.Coords)
    (arg1 : Memref sig .tc .smem S16384 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out4_1 x0)) -∗ K ⟨⟩))
      ⊢ wp frame (wpE (defs₀ (F := F)) Variants.none c none) E (cc4__gather_kernel i arg1 harg1 arg2 harg2 arg3 harg3) K := by
  simp only [cc4__gather_kernel_eq_skeleton]; unfold cc4__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-- The region's proof data: the arrays as found; after the body the input's buffer at its block and the output's
    at the copy; the invariant is the untouched rest together with the index table, held throughout; nothing owed. -/
def dat4 (c : Dev nD) : Dat τ (Elt F) Unit ℕ (UR sig nD τ) ℕ (cfg4 a) c where
  A w := V c (Pipeline.arrRef spec4 w)
  after w t := match w with
    | ⟨0, _⟩ => iblk4 a V c 0 t
    | ⟨1, _⟩ => out4_1 (iblk4 a V c 0 t)
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 a V c).A w = V c (Pipeline.arrRef spec4 w) := by
  dsimp only [dat4]

theorem after4_0 (c : Dev nD) (t : Fin (cfg4 a).N) : (dat4 a V c).after 0 t = iblk4 a V c 0 t := by dsimp only [dat4]; rfl
theorem after4_1 (c : Dev nD) (t : Fin (cfg4 a).N) : (dat4 a V c).after 1 t = out4_1 (iblk4 a V c 0 t) := by dsimp only [dat4]; rfl

theorem before4_0 (c : Dev nD) (t : Fin (cfg4 a).N) (d) : (dat4 a V c).before 0 t d = iblk4 a V c 0 t :=
  before4_0_of a V (dat4 a V c) (A_eq4 a V c 0) (after4_0 a V c) t d

/-- The current staging memref of each window at point `t`. -/
abbrev st4_0 (t : Fin (cfg4 a).N) := ((cfg4 a).win 0).stage ((cfg4 a).slots t 0)
abbrev st4_1 (t : Fin (cfg4 a).N) := ((cfg4 a).win 1).stage ((cfg4 a).slots t 1)

/-- The body as the pipeline calls it at point `t`. -/
abbrev bodyAt4 (t : Fin (cfg4 a).N) : Prog (TpuEff nD τ sig (Elt F) Λ₀ .tc) PUnit :=
  cc4__gather_kernel (grid4.coords t) (Memref.whole main_arg8) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))

def bodyPre4 (c : Dev nD) (t : Fin (cfg4 a).N) : sProp 𝕄 :=
  iprop((dat4 a V c).Φ t.castSucc ∗ (dat4 a V c).owesAt () t.castSucc
    ∗ (∃ d, owns (c : Thread nD τ) (st4_0 a t) fullShare ((dat4 a V c).before 0 t d))
    ∗ (∃ d, owns (c : Thread nD τ) (st4_1 a t) fullShare ((dat4 a V c).before 1 t d)))

def bodyPost4 (c : Dev nD) (t : Fin (cfg4 a).N) : sProp 𝕄 :=
  iprop((dat4 a V c).Φ t.succ ∗ (dat4 a V c).owesAt () t.succ
    ∗ owns (c : Thread nD τ) (st4_0 a t) fullShare ((dat4 a V c).after 0 t)
    ∗ owns (c : Thread nD τ) (st4_1 a t) fullShare ((dat4 a V c).after 1 t))

theorem sound_body4 (c : Dev nD) (t : Fin (cfg4 a).N) :
    bodyPre4 a V c t ⊢ wp frame (wpE (defs₀ (F := F)) Variants.none c none) Set.univ (bodyAt4 a t) (fun _ => bodyPost4 a V c t) := by
  unfold bodyPre4 bodyPost4 bodyAt4
  simp only [before4_0]
  rw [show (dat4 a V c).Φ t.succ = (dat4 a V c).Φ t.castSucc from rfl,
    show (dat4 a V c).owesAt () t.succ = (dat4 a V c).owesAt () t.castSucc from rfl,
    after4_0, after4_1]
  iintro ⟨HΦ, Ho, ⟨%d0, H0⟩, ⟨%d1, H1⟩⟩
  iapply (sound_kernel4 c Set.univ _ _ _ _ _ _ _ (iblk4 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation4 (c : Dev nD) : BodyObligation (dat4 (F := F) a V c) (defs₀ (F := F)) Variants.none () Set.univ := fun t => by
  rw [bigSep_W4, bigSep_W4]
  exact sound_body4 a V c t

end Cert.KernelIdeal.Gen

end
-- ==== Proof.KI.Gather5.lean ====
import proofs.«430333_j20727512170685_2_alg».proof.Proof.Gen.KernelIdeal.Launch
import proofs.«430333_j20727512170685_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the row lookup through a prefetched index table (pipeline 5 of the idealized kernel)

At sample `i` the pipeline fetches the one-row block of the table whose block index is the `i`-th word of the
prefetched index table, and the body copies that row into the `i`-th row block of the output. Everything is
stated at ANY admissible contents `a` of the index table (every word a row of the table) and at the contents
`V` the region is entered with: no fact here looks inside `a`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg5 (F := F)).Adm)
variable (V : (c : Dev nD) → (b : Ref sig .tc) → Buf (Elt F) ((c : Thread nD τ).loc b))

/-- Block `t` of window `w`, read off the window's array as the region finds it. -/
def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- The input window's staging buffer holds its block at every point: fetched there, or kept from the point before
    when two consecutive samples name the same row. -/
theorem before5_0_of {c : Dev nD} (dat : Dat τ (Elt F) Unit ℕ (UR sig nD τ) ℕ (cfg5 a) c) (hA : dat.A 0 = V c (Pipeline.arrRef spec5 0))
    (hafter : ∀ t, dat.after 0 t = iblk5 a V c 0 t) (t : Fin (cfg5 a).N) (d) : dat.before 0 t d = iblk5 a V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The whole one-row block as a rectangle. -/
abbrev r5_row : Rect S1x1x64 := Rect.unit (s := S1x1x64) ![0, 0, 0] S1x1x64.size inb_S1x1x64_S1x1x64_0_0_0

/-- What the body leaves in the output block: the input block, copied. -/
def out5_1 (x0 : Vec F S1x1x64 .f32) : Vec F S1x1x64 .f32 :=
  View.canon [⟨r5_row, k5_pay1 (View.ld x0 r5_row)⟩]

theorem cover5_1 (p0 : Vec F S1x1x64 .f32) (y : S1x1x64.Idx) :
    ∃ pc ∈ ([⟨r5_row, p0⟩] : List (View.Piece (Elt F) S1x1x64 .f32)), y ∈ pc.1.set :=
  View.cover_of_tiled [⟨r5_row, p0⟩] S1x1x64.size (by rfl) y

set_option maxHeartbeats 1000000 in
/-- The body on whole staging buffers, the input at `x0` and the output at anything, returns with the input as it
    was and the output at `out5_1 x0`; the index table's memref is not touched. -/
theorem sound_kernel5 (c : Dev nD) (E : Set ℕ) (i : grid5.Coords)
    (arg1 : Memref sig .tc .smem S16384 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out5_1 x0)) -∗ K ⟨⟩))
      ⊢ wp frame (wpE (defs₀ (F := F)) Variants.none c none) E (cc5__gather_kernel i arg1 harg1 arg2 harg2 arg3 harg3) K := by
  simp only [cc5__gather_kernel_eq_skeleton]; unfold cc5__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The region's proof data: the arrays as found; after the body the input's buffer at its block and the output's
    at the copy; the invariant is the untouched rest together with the index table, held throughout; nothing owed. -/
def dat5 (c : Dev nD) : Dat τ (Elt F) Unit ℕ (UR sig nD τ) ℕ (cfg5 a) c where
  A w := V c (Pipeline.arrRef spec5 w)
  after w t := match w with
    | ⟨0, _⟩ => iblk5 a V c 0 t
    | ⟨1, _⟩ => out5_1 (iblk5 a V c 0 t)
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 a V c).A w = V c (Pipeline.arrRef spec5 w) := by
  dsimp only [dat5]

theorem after5_0 (c : Dev nD) (t : Fin (cfg5 a).N) : (dat5 a V c).after 0 t = iblk5 a V c 0 t := by dsimp only [dat5]; rfl
theorem after5_1 (c : Dev nD) (t : Fin (cfg5 a).N) : (dat5 a V c).after 1 t = out5_1 (iblk5 a V c 0 t) := by dsimp only [dat5]; rfl

theorem before5_0 (c : Dev nD) (t : Fin (cfg5 a).N) (d) : (dat5 a V c).before 0 t d = iblk5 a V c 0 t :=
  before5_0_of a V (dat5 a V c) (A_eq5 a V c 0) (after5_0 a V c) t d

/-- The current staging memref of each window at point `t`. -/
abbrev st5_0 (t : Fin (cfg5 a).N) := ((cfg5 a).win 0).stage ((cfg5 a).slots t 0)
abbrev st5_1 (t : Fin (cfg5 a).N) := ((cfg5 a).win 1).stage ((cfg5 a).slots t 1)

/-- The body as the pipeline calls it at point `t`. -/
abbrev bodyAt5 (t : Fin (cfg5 a).N) : Prog (TpuEff nD τ sig (Elt F) Λ₀ .tc) PUnit :=
  cc5__gather_kernel (grid5.coords t) (Memref.whole main_arg9) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))

def bodyPre5 (c : Dev nD) (t : Fin (cfg5 a).N) : sProp 𝕄 :=
  iprop((dat5 a V c).Φ t.castSucc ∗ (dat5 a V c).owesAt () t.castSucc
    ∗ (∃ d, owns (c : Thread nD τ) (st5_0 a t) fullShare ((dat5 a V c).before 0 t d))
    ∗ (∃ d, owns (c : Thread nD τ) (st5_1 a t) fullShare ((dat5 a V c).before 1 t d)))

def bodyPost5 (c : Dev nD) (t : Fin (cfg5 a).N) : sProp 𝕄 :=
  iprop((dat5 a V c).Φ t.succ ∗ (dat5 a V c).owesAt () t.succ
    ∗ owns (c : Thread nD τ) (st5_0 a t) fullShare ((dat5 a V c).after 0 t)
    ∗ owns (c : Thread nD τ) (st5_1 a t) fullShare ((dat5 a V c).after 1 t))

theorem sound_body5 (c : Dev nD) (t : Fin (cfg5 a).N) :
    bodyPre5 a V c t ⊢ wp frame (wpE (defs₀ (F := F)) Variants.none c none) Set.univ (bodyAt5 a t) (fun _ => bodyPost5 a V c t) := by
  unfold bodyPre5 bodyPost5 bodyAt5
  simp only [before5_0]
  rw [show (dat5 a V c).Φ t.succ = (dat5 a V c).Φ t.castSucc from rfl,
    show (dat5 a V c).owesAt () t.succ = (dat5 a V c).owesAt () t.castSucc from rfl,
    after5_0, after5_1]
  iintro ⟨HΦ, Ho, ⟨%d0, H0⟩, ⟨%d1, H1⟩⟩
  iapply (sound_kernel5 c Set.univ _ _ _ _ _ _ _ (iblk5 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation5 (c : Dev nD) : BodyObligation (dat5 (F := F) a V c) (defs₀ (F := F)) Variants.none () Set.univ := fun t => by
  rw [bigSep_W5, bigSep_W5]
  exact sound_body5 a V c t

end Cert.KernelIdeal.Gen

end
-- ==== Proof.KI.Chain.lean ====
import proofs.«430333_j20727512170685_2_alg».proof.Proof.KI.Relu0
import proofs.«430333_j20727512170685_2_alg».proof.Proof.KI.Relu1
import proofs.«430333_j20727512170685_2_alg».proof.Proof.KI.Relu2
import proofs.«430333_j20727512170685_2_alg».proof.Proof.KI.Relu3
import proofs.«430333_j20727512170685_2_alg».proof.Proof.KI.Gather4
import proofs.«430333_j20727512170685_2_alg».proof.Proof.KI.Gather5
import proofs.«430333_j20727512170685_2_alg».proof.Proof.Gen.KernelIdeal.Regions

/-!
# The buffer contents between the items of the program

The program is seven stretches of host operations with six kernel regions between them. `W0` is the launch
memory; a host stretch takes `Wj` to the operations' fold over it; a region takes `Wj` to the same contents
with the region's arrays at what its pipeline leaves (the inputs as entered, the output's write-backs folded).
The index tables of the two lookup regions enter as ANY admissible contents `a4`, `a5`. No host stretch and
no region writes an argument, so an argument's buffer reads back to the launch memory from every `Wj`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

/-- Core `c`'s buffers at launch. -/
abbrev W0 : Dev nD → Valuation τ sig (Elt F) := fun c b => (s₀ m ρ).mem ((c : Dev nD), b)
/-- After host stretch 0. -/
abbrev W1 : Dev nD → Valuation τ sig (Elt F) := fun c => StableHlo.after hostOps0 (W0 m ρ c)
abbrev VW1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (VW1 m ρ) c).arrAt w cfg0.N
theorem W2_arr (c : Dev nD) (w : Fin cfg0.W) :
    W2 m ρ c (Proc.devRef .tc (Pipeline.arrRef spec0 w)) = (dat0 (VW1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VW2 : (c : Dev nD) → (b : Ref sig .tc) → Buf (Elt F) ((c : Thread nD τ).loc b) := fun c b => W2 m ρ c b
theorem hF0 (c : Dev nD) (w : Fin cfg0.W) : (dat0 (VW1 m ρ) c).arrAt w cfg0.N = VW2 m ρ c (Pipeline.arrRef spec0 w) :=
  (W2_arr m ρ c w).symm
theorem hrest0 (c : Dev nD) : ∀ b, b ∉ Finset.univ.image (Pipeline.arrRef spec0) → VW2 m ρ c b = VW1 m ρ c b :=
  fun b hb => W2_of_ne m ρ c b fun w e => hb (Finset.mem_image.mpr ⟨w, Finset.mem_univ _, e⟩)
/-- Region 0 changes only its output array `main_v13`: an input array is left as entered, any other buffer bypasses the region. -/
theorem W2_keep (c : Dev nD) (b : Ref sig .tc) (hb : b ≠ main_v13) :
    W2 m ρ c (Proc.devRef .tc b) = W1 m ρ c (Proc.devRef .tc b) := by
  by_cases h : ∀ w, Pipeline.arrRef spec0 w ≠ b
  · exact W2_of_ne m ρ c b h
  · push Not at h; obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (W2_arr m ρ c w).trans (((dat0 (VW1 m ρ) c).arrAt_in w hw _).trans (A_eq0 (VW1 m ρ) c w))
/-- After host stretch 1. -/
abbrev W3 : Dev nD → Valuation τ sig (Elt F) := fun c => StableHlo.after hostOps1 (W2 m ρ c)
abbrev VW3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (VW3 m ρ) c).arrAt w cfg1.N
theorem W4_arr (c : Dev nD) (w : Fin cfg1.W) :
    W4 m ρ c (Proc.devRef .tc (Pipeline.arrRef spec1 w)) = (dat1 (VW3 m ρ) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VW4 : (c : Dev nD) → (b : Ref sig .tc) → Buf (Elt F) ((c : Thread nD τ).loc b) := fun c b => W4 m ρ c b
theorem hF1 (c : Dev nD) (w : Fin cfg1.W) : (dat1 (VW3 m ρ) c).arrAt w cfg1.N = VW4 m ρ c (Pipeline.arrRef spec1 w) :=
  (W4_arr m ρ c w).symm
theorem hrest1 (c : Dev nD) : ∀ b, b ∉ Finset.univ.image (Pipeline.arrRef spec1) → VW4 m ρ c b = VW3 m ρ c b :=
  fun b hb => W4_of_ne m ρ c b fun w e => hb (Finset.mem_image.mpr ⟨w, Finset.mem_univ _, e⟩)
/-- Region 1 changes only its output array `main_v27`: an input array is left as entered, any other buffer bypasses the region. -/
theorem W4_keep (c : Dev nD) (b : Ref sig .tc) (hb : b ≠ main_v27) :
    W4 m ρ c (Proc.devRef .tc b) = W3 m ρ c (Proc.devRef .tc b) := by
  by_cases h : ∀ w, Pipeline.arrRef spec1 w ≠ b
  · exact W4_of_ne m ρ c b h
  · push Not at h; obtain ⟨w, rfl⟩ := h
    have hw : (cfg1.win w).isOut = false := by
      match w with
      | ⟨0, _⟩ => rfl
      | ⟨1, _⟩ => rfl
      | ⟨2, _⟩ => rfl
      | ⟨3, _⟩ => exact absurd rfl hb
    exact (W4_arr m ρ c w).trans (((dat1 (VW3 m ρ) c).arrAt_in w hw _).trans (A_eq1 (VW3 m ρ) c w))
/-- After host stretch 2. -/
abbrev W5 : Dev nD → Valuation τ sig (Elt F) := fun c => StableHlo.after hostOps2 (W4 m ρ c)
abbrev VW5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (VW5 m ρ) c).arrAt w cfg2.N
theorem W6_arr (c : Dev nD) (w : Fin cfg2.W) :
    W6 m ρ c (Proc.devRef .tc (Pipeline.arrRef spec2 w)) = (dat2 (VW5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev VW6 : (c : Dev nD) → (b : Ref sig .tc) → Buf (Elt F) ((c : Thread nD τ).loc b) := fun c b => W6 m ρ c b
theorem hF2 (c : Dev nD) (w : Fin cfg2.W) : (dat2 (VW5 m ρ) c).arrAt w cfg2.N = VW6 m ρ c (Pipeline.arrRef spec2 w) :=
  (W6_arr m ρ c w).symm
theorem hrest2 (c : Dev nD) : ∀ b, b ∉ Finset.univ.image (Pipeline.arrRef spec2) → VW6 m ρ c b = VW5 m ρ c b :=
  fun b hb => W6_of_ne m ρ c b fun w e => hb (Finset.mem_image.mpr ⟨w, Finset.mem_univ _, e⟩)
/-- Region 2 changes only its output array `main_v41`: an input array is left as entered, any other buffer bypasses the region. -/
theorem W6_keep (c : Dev nD) (b : Ref sig .tc) (hb : b ≠ main_v41) :
    W6 m ρ c (Proc.devRef .tc b) = W5 m ρ c (Proc.devRef .tc b) := by
  by_cases h : ∀ w, Pipeline.arrRef spec2 w ≠ b
  · exact W6_of_ne m ρ c b h
  · push Not at h; obtain ⟨w, rfl⟩ := h
    have hw : (cfg2.win w).isOut = false := by
      match w with
      | ⟨0, _⟩ => rfl
      | ⟨1, _⟩ => rfl
      | ⟨2, _⟩ => rfl
      | ⟨3, _⟩ => exact absurd rfl hb
    exact (W6_arr m ρ c w).trans (((dat2 (VW5 m ρ) c).arrAt_in w hw _).trans (A_eq2 (VW5 m ρ) c w))
/-- After host stretch 3. -/
abbrev W7 : Dev nD → Valuation τ sig (Elt F) := fun c => StableHlo.after hostOps3 (W6 m ρ c)
abbrev VW7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (VW7 m ρ) c).arrAt w cfg3.N
theorem W8_arr (c : Dev nD) (w : Fin cfg3.W) :
    W8 m ρ c (Proc.devRef .tc (Pipeline.arrRef spec3 w)) = (dat3 (VW7 m ρ) c).arrAt w cfg3.N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev VW8 : (c : Dev nD) → (b : Ref sig .tc) → Buf (Elt F) ((c : Thread nD τ).loc b) := fun c b => W8 m ρ c b
theorem hF3 (c : Dev nD) (w : Fin cfg3.W) : (dat3 (VW7 m ρ) c).arrAt w cfg3.N = VW8 m ρ c (Pipeline.arrRef spec3 w) :=
  (W8_arr m ρ c w).symm
theorem hrest3 (c : Dev nD) : ∀ b, b ∉ Finset.univ.image (Pipeline.arrRef spec3) → VW8 m ρ c b = VW7 m ρ c b :=
  fun b hb => W8_of_ne m ρ c b fun w e => hb (Finset.mem_image.mpr ⟨w, Finset.mem_univ _, e⟩)
/-- Region 3 changes only its output array `main_v55`: an input array is left as entered, any other buffer bypasses the region. -/
theorem W8_keep (c : Dev nD) (b : Ref sig .tc) (hb : b ≠ main_v55) :
    W8 m ρ c (Proc.devRef .tc b) = W7 m ρ c (Proc.devRef .tc b) := by
  by_cases h : ∀ w, Pipeline.arrRef spec3 w ≠ b
  · exact W8_of_ne m ρ c b h
  · push Not at h; obtain ⟨w, rfl⟩ := h
    have hw : (cfg3.win w).isOut = false := by
      match w with
      | ⟨0, _⟩ => rfl
      | ⟨1, _⟩ => rfl
      | ⟨2, _⟩ => rfl
      | ⟨3, _⟩ => exact absurd rfl hb
    exact (W8_arr m ρ c w).trans (((dat3 (VW7 m ρ) c).arrAt_in w hw _).trans (A_eq3 (VW7 m ρ) c w))
/-- After host stretch 4. -/
abbrev W9 : Dev nD → Valuation τ sig (Elt F) := fun c => StableHlo.after hostOps4 (W8 m ρ c)
abbrev VW9 : (c : Dev nD) → (b : Ref sig .tc) → Buf (Elt F) ((c : Thread nD τ).loc b) := fun c b => W9 m ρ c b
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 a4 (VW9 m ρ) c).arrAt w (cfg4 a4).N
theorem W10_arr (c : Dev nD) (w : Fin (cfg4 a4).W) :
    W10 m ρ a4 c (Proc.devRef .tc (Pipeline.arrRef spec4 w)) = (dat4 a4 (VW9 m ρ) c).arrAt w (cfg4 a4).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m ρ a4 c (Proc.devRef .tc b) = W9 m ρ c (Proc.devRef .tc b) := by
  unfold W10; exact Pipeline.withArrays_of_ne spec4 c _ _ b hb
abbrev VW10 : (c : Dev nD) → (b : Ref sig .tc) → Buf (Elt F) ((c : Thread nD τ).loc b) := fun c b => W10 m ρ a4 c b
theorem hF4 (c : Dev nD) (w : Fin (cfg4 a4).W) : (dat4 a4 (VW9 m ρ) c).arrAt w (cfg4 a4).N = VW10 m ρ a4 c (Pipeline.arrRef spec4 w) :=
  (W10_arr m ρ a4 c w).symm
theorem hrest4 (c : Dev nD) : ∀ b, b ∉ Finset.univ.image (Pipeline.arrRef spec4) → VW10 m ρ a4 c b = VW9 m ρ c b :=
  fun b hb => W10_of_ne m ρ a4 c b fun w e => hb (Finset.mem_image.mpr ⟨w, Finset.mem_univ _, e⟩)
/-- Region 4 changes only its output array `main_v61`: an input array is left as entered, any other buffer bypasses the region. -/
theorem W10_keep (c : Dev nD) (b : Ref sig .tc) (hb : b ≠ main_v61) :
    W10 m ρ a4 c (Proc.devRef .tc b) = W9 m ρ c (Proc.devRef .tc b) := by
  by_cases h : ∀ w, Pipeline.arrRef spec4 w ≠ b
  · exact W10_of_ne m ρ a4 c b h
  · push Not at h; obtain ⟨w, rfl⟩ := h
    have hw : ((cfg4 a4).win w).isOut = false := by
      match w with
      | ⟨0, _⟩ => rfl
      | ⟨1, _⟩ => exact absurd rfl hb
    exact (W10_arr m ρ a4 c w).trans (((dat4 a4 (VW9 m ρ) c).arrAt_in w hw _).trans (A_eq4 a4 (VW9 m ρ) c w))
/-- After host stretch 5. -/
abbrev W11 : Dev nD → Valuation τ sig (Elt F) := fun c => StableHlo.after hostOps5 (W10 m ρ a4 c)
abbrev VW11 : (c : Dev nD) → (b : Ref sig .tc) → Buf (Elt F) ((c : Thread nD τ).loc b) := fun c b => W11 m ρ a4 c b
theorem W11_of (c : Dev nD) (r : Ref sig .tc) (h : r ∉ hostOps5_W) : W11 m ρ a4 c (Proc.devRef .tc r) = W10 m ρ a4 c (Proc.devRef .tc r) :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ a4 c) fun w => (dat5 a5 (VW11 m ρ a4) c).arrAt w (cfg5 a5).N
theorem W12_arr (c : Dev nD) (w : Fin (cfg5 a5).W) :
    W12 m ρ a4 a5 c (Proc.devRef .tc (Pipeline.arrRef spec5 w)) = (dat5 a5 (VW11 m ρ a4) c).arrAt w (cfg5 a5).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m ρ a4 a5 c (Proc.devRef .tc b) = W11 m ρ a4 c (Proc.devRef .tc b) := by
  unfold W12; exact Pipeline.withArrays_of_ne spec5 c _ _ b hb
abbrev VW12 : (c : Dev nD) → (b : Ref sig .tc) → Buf (Elt F) ((c : Thread nD τ).loc b) := fun c b => W12 m ρ a4 a5 c b
theorem hF5 (c : Dev nD) (w : Fin (cfg5 a5).W) : (dat5 a5 (VW11 m ρ a4) c).arrAt w (cfg5 a5).N = VW12 m ρ a4 a5 c (Pipeline.arrRef spec5 w) :=
  (W12_arr m ρ a4 a5 c w).symm
theorem hrest5 (c : Dev nD) : ∀ b, b ∉ Finset.univ.image (Pipeline.arrRef spec5) → VW12 m ρ a4 a5 c b = VW11 m ρ a4 c b :=
  fun b hb => W12_of_ne m ρ a4 a5 c b fun w e => hb (Finset.mem_image.mpr ⟨w, Finset.mem_univ _, e⟩)
/-- Region 5 changes only its output array `main_v64`: an input array is left as entered, any other buffer bypasses the region. -/
theorem W12_keep (c : Dev nD) (b : Ref sig .tc) (hb : b ≠ main_v64) :
    W12 m ρ a4 a5 c (Proc.devRef .tc b) = W11 m ρ a4 c (Proc.devRef .tc b) := by
  by_cases h : ∀ w, Pipeline.arrRef spec5 w ≠ b
  · exact W12_of_ne m ρ a4 a5 c b h
  · push Not at h; obtain ⟨w, rfl⟩ := h
    have hw : ((cfg5 a5).win w).isOut = false := by
      match w with
      | ⟨0, _⟩ => rfl
      | ⟨1, _⟩ => exact absurd rfl hb
    exact (W12_arr m ρ a4 a5 c w).trans (((dat5 a5 (VW11 m ρ a4) c).arrAt_in w hw _).trans (A_eq5 a5 (VW11 m ρ a4) c w))
/-- After host stretch 6. -/
abbrev W13 : Dev nD → Valuation τ sig (Elt F) := fun c => StableHlo.after hostOps6 (W12 m ρ a4 a5 c)
abbrev VW13 : (c : Dev nD) → (b : Ref sig .tc) → Buf (Elt F) ((c : Thread nD τ).loc b) := fun c b => W13 m ρ a4 a5 c b
theorem W13_of (c : Dev nD) (r : Ref sig .tc) (h : r ∉ hostOps6_W) : W13 m ρ a4 a5 c (Proc.devRef .tc r) = W12 m ρ a4 a5 c (Proc.devRef .tc r) :=
  StableHlo.after_of_writes_sub hostOps6 _ hostOps6_writes h

/-! ## A buffer nothing writes reads back to the launch memory -/

theorem W9_launch (c : Dev nD) (b : Ref sig .tc) (h1 : b ∉ hostOps0_W) (h2 : b ≠ main_v13) (h3 : b ∉ hostOps1_W) (h4 : b ≠ main_v27) (h5 : b ∉ hostOps2_W) (h6 : b ≠ main_v41) (h7 : b ∉ hostOps3_W) (h8 : b ≠ main_v55) (h9 : b ∉ hostOps4_W) :
    W9 m ρ c (Proc.devRef .tc b) = m ((c : Thread nD τ).loc b) :=
  (W9_of m ρ c b h9).trans <| (W8_keep m ρ c b h8).trans <| (W7_of m ρ c b h7).trans <| (W6_keep m ρ c b h6).trans <| (W5_of m ρ c b h5).trans <| (W4_keep m ρ c b h4).trans <| (W3_of m ρ c b h3).trans <| (W2_keep m ρ c b h2).trans <| (W1_of m ρ c b h1).trans <| rfl
theorem W11_launch (c : Dev nD) (b : Ref sig .tc) (h1 : b ∉ hostOps0_W) (h2 : b ≠ main_v13) (h3 : b ∉ hostOps1_W) (h4 : b ≠ main_v27) (h5 : b ∉ hostOps2_W) (h6 : b ≠ main_v41) (h7 : b ∉ hostOps3_W) (h8 : b ≠ main_v55) (h9 : b ∉ hostOps4_W) (h10 : b ≠ main_v61) (h11 : b ∉ hostOps5_W) :
    W11 m ρ a4 c (Proc.devRef .tc b) = m ((c : Thread nD τ).loc b) :=
  (W11_of m ρ a4 c b h11).trans <| (W10_keep m ρ a4 c b h10).trans <| (W9_of m ρ c b h9).trans <| (W8_keep m ρ c b h8).trans <| (W7_of m ρ c b h7).trans <| (W6_keep m ρ c b h6).trans <| (W5_of m ρ c b h5).trans <| (W4_keep m ρ c b h4).trans <| (W3_of m ρ c b h3).trans <| (W2_keep m ρ c b h2).trans <| (W1_of m ρ c b h1).trans <| rfl
theorem W13_launch (c : Dev nD) (b : Ref sig .tc) (h1 : b ∉ hostOps0_W) (h2 : b ≠ main_v13) (h3 : b ∉ hostOps1_W) (h4 : b ≠ main_v27) (h5 : b ∉ hostOps2_W) (h6 : b ≠ main_v41) (h7 : b ∉ hostOps3_W) (h8 : b ≠ main_v55) (h9 : b ∉ hostOps4_W) (h10 : b ≠ main_v61) (h11 : b ∉ hostOps5_W) (h12 : b ≠ main_v64) (h13 : b ∉ hostOps6_W) :
    W13 m ρ a4 a5 c (Proc.devRef .tc b) = m ((c : Thread nD τ).loc b) :=
  (W13_of m ρ a4 a5 c b h13).trans <| (W12_keep m ρ a4 a5 c b h12).trans <| (W11_of m ρ a4 c b h11).trans <| (W10_keep m ρ a4 c b h10).trans <| (W9_of m ρ c b h9).trans <| (W8_keep m ρ c b h8).trans <| (W7_of m ρ c b h7).trans <| (W6_keep m ρ c b h6).trans <| (W5_of m ρ c b h5).trans <| (W4_keep m ρ c b h4).trans <| (W3_of m ρ c b h3).trans <| (W2_keep m ρ c b h2).trans <| (W1_of m ρ c b h1).trans <| rfl

/-! ## The proof data family and the thread state -/

/-- The index tables' contents per pipeline: none for the four residual regions, `a4` and `a5` for the lookups. -/
abbrev adm : (p : Fin 6) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => a4
  | ⟨5, _⟩ => a5
/-- Every pipeline's proof data, each at its region's entry contents. -/
def pdats : (p : Fin 6) → (c : Dev nD) → Dat τ (Elt F) Unit ℕ (UR sig nD τ) ℕ (Pipeline.pin (pcfgs (F := F)) (adm a4 a5) p) c
  | ⟨0, _⟩ => fun c => dat0 (VW1 m ρ) c
  | ⟨1, _⟩ => fun c => dat1 (VW3 m ρ) c
  | ⟨2, _⟩ => fun c => dat2 (VW5 m ρ) c
  | ⟨3, _⟩ => fun c => dat3 (VW7 m ρ) c
  | ⟨4, _⟩ => fun c => dat4 a4 (VW9 m ρ) c
  | ⟨5, _⟩ => fun c => dat5 a5 (VW11 m ρ a4) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ a4 a5 c) ∗ ∃ r, prngReg c r)

end Cert.KernelIdeal.Gen

end
-- ==== Proof.KI.Reg0.lean ====
import proofs.«430333_j20727512170685_2_alg».proof.Proof.KI.Chain

/-!
# Region 0 as an item of the program

The region is entered with every unscoped buffer held at `W1` and left with them held at `W2`: its arrays are split
out of the buffers on entry and put back at what the pipeline leaves on exit; the generator register goes into the
pipeline's invariant and comes back; nothing is owed; the kernel has no semaphore of its own and no index table.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg0 : Pipeline.RegionSeg (pcfgs (F := F)) (adm a4 a5) (pdats m ρ a4 a5) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VW1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VW1 m ρ c)
  hentry c := by
    rw [Pipeline.ownSems0_none]
    have hsplit := Pipeline.arrays_of_unscopedBufs (p := 0) (pcfgs (F := F)) (adm a4 a5) (pdats m ρ a4 a5) (launch0 (F := F)).win (launch0 (F := F)).arr_whole c
      ((pdats m ρ a4 a5 0 c).share_full fun _ => rfl) (VW1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ a4 a5 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a4 a5) (Ix := Unit) (Name := ℕ) (U := UR sig nD τ) (Lvl := ℕ)
      (launch0 (F := F)).win (launch0 (F := F)).arr_whole c (pdats m ρ a4 a5) ((pdats m ρ a4 a5 0 c).share_full fun _ => rfl)
      (VW1 m ρ c) (VW2 m ρ c) ((pdats m ρ a4 a5 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg1.lean ====
import proofs.«430333_j20727512170685_2_alg».proof.Proof.KI.Chain

/-!
# Region 1 as an item of the program

The region is entered with every unscoped buffer held at `W3` and left with them held at `W4`: its arrays are split
out of the buffers on entry and put back at what the pipeline leaves on exit; the generator register goes into the
pipeline's invariant and comes back; nothing is owed; the kernel has no semaphore of its own and no index table.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg1 : Pipeline.RegionSeg (pcfgs (F := F)) (adm a4 a5) (pdats m ρ a4 a5) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VW3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VW3 m ρ c)
  hentry c := by
    rw [Pipeline.ownSems0_none]
    have hsplit := Pipeline.arrays_of_unscopedBufs (p := 1) (pcfgs (F := F)) (adm a4 a5) (pdats m ρ a4 a5) (launch1 (F := F)).win (launch1 (F := F)).arr_whole c
      ((pdats m ρ a4 a5 1 c).share_full fun _ => rfl) (VW3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ a4 a5 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a4 a5) (Ix := Unit) (Name := ℕ) (U := UR sig nD τ) (Lvl := ℕ)
      (launch1 (F := F)).win (launch1 (F := F)).arr_whole c (pdats m ρ a4 a5) ((pdats m ρ a4 a5 1 c).share_full fun _ => rfl)
      (VW3 m ρ c) (VW4 m ρ c) ((pdats m ρ a4 a5 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg2.lean ====
import proofs.«430333_j20727512170685_2_alg».proof.Proof.KI.Chain

/-!
# Region 2 as an item of the program

The region is entered with every unscoped buffer held at `W5` and left with them held at `W6`: its arrays are split
out of the buffers on entry and put back at what the pipeline leaves on exit; the generator register goes into the
pipeline's invariant and comes back; nothing is owed; the kernel has no semaphore of its own and no index table.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg2 : Pipeline.RegionSeg (pcfgs (F := F)) (adm a4 a5) (pdats m ρ a4 a5) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (VW5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (VW5 m ρ c)
  hentry c := by
    rw [Pipeline.ownSems0_none]
    have hsplit := Pipeline.arrays_of_unscopedBufs (p := 2) (pcfgs (F := F)) (adm a4 a5) (pdats m ρ a4 a5) (launch2 (F := F)).win (launch2 (F := F)).arr_whole c
      ((pdats m ρ a4 a5 2 c).share_full fun _ => rfl) (VW5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ a4 a5 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a4 a5) (Ix := Unit) (Name := ℕ) (U := UR sig nD τ) (Lvl := ℕ)
      (launch2 (F := F)).win (launch2 (F := F)).arr_whole c (pdats m ρ a4 a5) ((pdats m ρ a4 a5 2 c).share_full fun _ => rfl)
      (VW5 m ρ c) (VW6 m ρ c) ((pdats m ρ a4 a5 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg3.lean ====
import proofs.«430333_j20727512170685_2_alg».proof.Proof.KI.Chain

/-!
# Region 3 as an item of the program

The region is entered with every unscoped buffer held at `W7` and left with them held at `W8`: its arrays are split
out of the buffers on entry and put back at what the pipeline leaves on exit; the generator register goes into the
pipeline's invariant and comes back; nothing is owed; the kernel has no semaphore of its own and no index table.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg3 : Pipeline.RegionSeg (pcfgs (F := F)) (adm a4 a5) (pdats m ρ a4 a5) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (VW7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (VW7 m ρ c)
  hentry c := by
    rw [Pipeline.ownSems0_none]
    have hsplit := Pipeline.arrays_of_unscopedBufs (p := 3) (pcfgs (F := F)) (adm a4 a5) (pdats m ρ a4 a5) (launch3 (F := F)).win (launch3 (F := F)).arr_whole c
      ((pdats m ρ a4 a5 3 c).share_full fun _ => rfl) (VW7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ a4 a5 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm a4 a5) (Ix := Unit) (Name := ℕ) (U := UR sig nD τ) (Lvl := ℕ)
      (launch3 (F := F)).win (launch3 (F := F)).arr_whole c (pdats m ρ a4 a5) ((pdats m ρ a4 a5 3 c).share_full fun _ => rfl)
      (VW7 m ρ c) (VW8 m ρ c) ((pdats m ρ a4 a5 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg4.lean ====
import proofs.«430333_j20727512170685_2_alg».proof.Proof.KI.Chain

/-!
# Region 4 as an item of the program

The region is entered with every unscoped buffer held at `W9` and left with them held at `W10`. On entry its two arrays
and its index table are split out of the buffers; the table, at the contents `a4` the buffers hold (`h4`), goes into
the pipeline's invariant, is held there throughout and comes back on exit, where the arrays are put back at what the
pipeline leaves. The generator register goes in and comes back; nothing is owed; the kernel has no semaphore of its own.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg4 (h4 : ∀ c : Dev nD, (fun k => VW9 m ρ c (pre4.ref k)) = a4.1) :
    Pipeline.RegionSeg (pcfgs (F := F)) (adm a4 a5) (pdats m ρ a4 a5) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 a4 (VW9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ a4 c) ∗ R c)
  X c := iprop(∃ r, prngReg c r)
  Y c := iprop((∃ r, prngReg c r) ∗ Pipeline.prefHeld (Ix := Unit) (Name := ℕ) (U := UR sig nD τ) (Lvl := ℕ) pre4 c (fun _ => fullShare) a4.1)
  Z c := Pipeline.unscopedRestP (Ix := Unit) (Name := ℕ) (U := UR sig nD τ) (Lvl := ℕ) pre4 spec4 c (VW9 m ρ c)
  hentry c := by
    rw [Pipeline.ownSems0_none]
    have hsplit := Pipeline.arrays_of_unscopedBufs (p := 4) (pcfgs (F := F)) (adm a4 a5) (pdats m ρ a4 a5) (launch4 (F := F)).win (launch4 (F := F)).arr_whole c
      ((pdats m ρ a4 a5 4 c).share_full fun _ => rfl) (VW9 m ρ c) fun _ => rfl
    rw [Pipeline.unscopedBufs_held, (show (Pipeline.unscopedRest (Ix := Unit) (Name := ℕ) (U := UR sig nD τ) (Lvl := ℕ) (Pipeline.pin (pcfgs (F := F)) (adm a4 a5) 4).spec c (VW9 m ρ c) : sProp 𝕄)
        = iprop(Pipeline.prefHeld (Ix := Unit) (Name := ℕ) (U := UR sig nD τ) (Lvl := ℕ) pre4 c (fun _ => fullShare) a4.1
            ∗ Pipeline.unscopedRestP (Ix := Unit) (Name := ℕ) (U := UR sig nD τ) (Lvl := ℕ) pre4 spec4 c (VW9 m ρ c))
      from (Pipeline.unscopedRest_split preFacts4 c (VW9 m ρ c)).trans (by rw [h4 c]))] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 4 c).Φ 0 = iprop(Pipeline.ΦA spec4 c ∗ Pipeline.prefHeld (Ix := Unit) (Name := ℕ) (U := UR sig nD τ) (Lvl := ℕ) pre4 c (fun _ => fullShare) a4.1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m ρ a4 a5 4 c).Φ (Fin.last _) = iprop(Pipeline.ΦA spec4 c ∗ Pipeline.prefHeld (Ix := Unit) (Name := ℕ) (U := UR sig nD τ) (Lvl := ℕ) pre4 c (fun _ => fullShare) a4.1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 4) (pcfgs (F := F)) (adm a4 a5) (Ix := Unit) (Name := ℕ) (U := UR sig nD τ) (Lvl := ℕ)
      (launch4 (F := F)).win (launch4 (F := F)).arr_whole c (pdats m ρ a4 a5) ((pdats m ρ a4 a5 4 c).share_full fun _ => rfl)
      (VW9 m ρ c) (VW10 m ρ a4 c) ((pdats m ρ a4 a5 4 c).arrAt · (cfg4 a4).N) (hF4 m ρ a4 c) (hrest4 m ρ a4 c)
    rw [Pipeline.unscopedBufs_held, (show (Pipeline.unscopedRest (Ix := Unit) (Name := ℕ) (U := UR sig nD τ) (Lvl := ℕ) (Pipeline.pin (pcfgs (F := F)) (adm a4 a5) 4).spec c (VW9 m ρ c) : sProp 𝕄)
        = iprop(Pipeline.prefHeld (Ix := Unit) (Name := ℕ) (U := UR sig nD τ) (Lvl := ℕ) pre4 c (fun _ => fullShare) a4.1
            ∗ Pipeline.unscopedRestP (Ix := Unit) (Name := ℕ) (U := UR sig nD τ) (Lvl := ℕ) pre4 spec4 c (VW9 m ρ c))
      from (Pipeline.unscopedRest_split preFacts4 c (VW9 m ρ c)).trans (by rw [h4 c]))] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

end Cert.KernelIdeal.Gen

end
-- ==== Proof.KI.Reg5.lean ====
import proofs.«430333_j20727512170685_2_alg».proof.Proof.KI.Chain

/-!
# Region 5 as an item of the program

The region is entered with every unscoped buffer held at `W11` and left with them held at `W12`. On entry its two arrays
and its index table are split out of the buffers; the table, at the contents `a5` the buffers hold (`h5`), goes into
the pipeline's invariant, is held there throughout and comes back on exit, where the arrays are put back at what the
pipeline leaves. The generator register goes in and comes back; nothing is owed; the kernel has no semaphore of its own.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

set_option backward.isDefEq.respectTransparency.types false in
def reg5 (h5 : ∀ c : Dev nD, (fun k => VW11 m ρ a4 c (pre5.ref k)) = a5.1) :
    Pipeline.RegionSeg (pcfgs (F := F)) (adm a4 a5) (pdats m ρ a4 a5) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 a5 (VW11 m ρ a4) c).loose
  hwaits := Pipeline.hwaits_of_owed_zero _ _ _ _ L lv 5 fun _ _ => rfl
  pre c := iprop(StableHlo.held (c : Thread nD τ) (Pipeline.ucRefs τ sig) (W11 m ρ a4 c) ∗ R c)
  post c := iprop(StableHlo.held (c : Thread nD τ) (Pipeline.ucRefs τ sig) (W12 m ρ a4 a5 c) ∗ R c)
  X c := iprop(∃ r, prngReg c r)
  Y c := iprop((∃ r, prngReg c r) ∗ Pipeline.prefHeld (Ix := Unit) (Name := ℕ) (U := UR sig nD τ) (Lvl := ℕ) pre5 c (fun _ => fullShare) a5.1)
  Z c := Pipeline.unscopedRestP (Ix := Unit) (Name := ℕ) (U := UR sig nD τ) (Lvl := ℕ) pre5 spec5 c (VW11 m ρ a4 c)
  hentry c := by
    rw [Pipeline.ownSems0_none]
    have hsplit := Pipeline.arrays_of_unscopedBufs (p := 5) (pcfgs (F := F)) (adm a4 a5) (pdats m ρ a4 a5) (launch5 (F := F)).win (launch5 (F := F)).arr_whole c
      ((pdats m ρ a4 a5 5 c).share_full fun _ => rfl) (VW11 m ρ a4 c) fun _ => rfl
    rw [Pipeline.unscopedBufs_held, (show (Pipeline.unscopedRest (Ix := Unit) (Name := ℕ) (U := UR sig nD τ) (Lvl := ℕ) (Pipeline.pin (pcfgs (F := F)) (adm a4 a5) 5).spec c (VW11 m ρ a4 c) : sProp 𝕄)
        = iprop(Pipeline.prefHeld (Ix := Unit) (Name := ℕ) (U := UR sig nD τ) (Lvl := ℕ) pre5 c (fun _ => fullShare) a5.1
            ∗ Pipeline.unscopedRestP (Ix := Unit) (Name := ℕ) (U := UR sig nD τ) (Lvl := ℕ) pre5 spec5 c (VW11 m ρ a4 c))
      from (Pipeline.unscopedRest_split preFacts5 c (VW11 m ρ a4 c)).trans (by rw [h5 c]))] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a4 a5 5 c).Φ 0 = iprop(Pipeline.ΦA spec5 c ∗ Pipeline.prefHeld (Ix := Unit) (Name := ℕ) (U := UR sig nD τ) (Lvl := ℕ) pre5 c (fun _ => fullShare) a5.1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m ρ a4 a5 5 c).Φ (Fin.last _) = iprop(Pipeline.ΦA spec5 c ∗ Pipeline.prefHeld (Ix := Unit) (Name := ℕ) (U := UR sig nD τ) (Lvl := ℕ) pre5 c (fun _ => fullShare) a5.1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 5) (pcfgs (F := F)) (adm a4 a5) (Ix := Unit) (Name := ℕ) (U := UR sig nD τ) (Lvl := ℕ)
      (launch5 (F := F)).win (launch5 (F := F)).arr_whole c (pdats m ρ a4 a5) ((pdats m ρ a4 a5 5 c).share_full fun _ => rfl)
      (VW11 m ρ a4 c) (VW12 m ρ a4 a5 c) ((pdats m ρ a4 a5 5 c).arrAt · (cfg5 a5).N) (hF5 m ρ a4 a5 c) (hrest5 m ρ a4 a5 c)
    rw [Pipeline.unscopedBufs_held, (show (Pipeline.unscopedRest (Ix := Unit) (Name := ℕ) (U := UR sig nD τ) (Lvl := ℕ) (Pipeline.pin (pcfgs (F := F)) (adm a4 a5) 5).spec c (VW11 m ρ a4 c) : sProp 𝕄)
        = iprop(Pipeline.prefHeld (Ix := Unit) (Name := ℕ) (U := UR sig nD τ) (Lvl := ℕ) pre5 c (fun _ => fullShare) a5.1
            ∗ Pipeline.unscopedRestP (Ix := Unit) (Name := ℕ) (U := UR sig nD τ) (Lvl := ℕ) pre5 spec5 c (VW11 m ρ a4 c))
      from (Pipeline.unscopedRest_split preFacts5 c (VW11 m ρ a4 c)).trans (by rw [h5 c]))] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

end Cert.KernelIdeal.Gen

end
-- ==== Proof.KI.Launch.lean ====
import proofs.«430333_j20727512170685_2_alg».proof.Proof.KI.Reg0
import proofs.«430333_j20727512170685_2_alg».proof.Proof.KI.Reg1
import proofs.«430333_j20727512170685_2_alg».proof.Proof.KI.Reg2
import proofs.«430333_j20727512170685_2_alg».proof.Proof.KI.Reg3
import proofs.«430333_j20727512170685_2_alg».proof.Proof.KI.Reg4
import proofs.«430333_j20727512170685_2_alg».proof.Proof.KI.Reg5

/-!
# The launch: the program as its items, run from the launch memory

The program is the run of thirteen items: host stretch, region, …, host stretch. From the launch memory with every
counter at zero, every weakly fair execution ends, and in the final memory every unscoped buffer holds what the last
item's contents `W13` say. The index tables are any admissible contents that the launch memory's table buffers hold
(`h4`, `h5`).
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a4 : (pcfg4 (F := F)).Adm) (a5 : (pcfg5 (F := F)).Adm)

variable (h4 : ∀ c : Dev nD, (fun k => VW9 m ρ c (pre4.ref k)) = a4.1) (h5 : ∀ c : Dev nD, (fun k => VW11 m ρ a4 c (pre5.ref k)) = a5.1)

/-- The thirteen items in order. -/
abbrev items : List (Pipeline.Seg (pcfgs (F := F)) (adm a4 a5) (pdats m ρ a4 a5) () defs₀ 𝒱₀ L lv) :=
  [ .host (hseg hostOps0 hostOps0_sub hostOps0_fresh (W0 m ρ)),
    .region (reg0 m ρ a4 a5),
    .host (hseg hostOps1 hostOps1_sub hostOps1_fresh (W2 m ρ)),
    .region (reg1 m ρ a4 a5),
    .host (hseg hostOps2 hostOps2_sub hostOps2_fresh (W4 m ρ)),
    .region (reg2 m ρ a4 a5),
    .host (hseg hostOps3 hostOps3_sub hostOps3_fresh (W6 m ρ)),
    .region (reg3 m ρ a4 a5),
    .host (hseg hostOps4 hostOps4_sub hostOps4_fresh (W8 m ρ)),
    .region (reg4 m ρ a4 a5 h4),
    .host (hseg hostOps5 hostOps5_sub hostOps5_fresh (W10 m ρ a4)),
    .region (reg5 m ρ a4 a5 h5),
    .host (hseg hostOps6 hostOps6_sub hostOps6_fresh (W12 m ρ a4 a5)) ]

include h4 h5 in
/-- The program is the run of its items. -/
theorem main_run (c : Dev nD) : main (F := F) c = Pipeline.Seg.run (items m ρ a4 a5 h4 h5) := (main_chain c).trans (by chain_rfl)

include h4 h5 in
set_option backward.isDefEq.respectTransparency.types false in
/-- Every weakly fair execution from `m` with zero counters ends, nothing faulting, with every unscoped buffer of
    every core at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ a4 a5 c b) :=
  Pipeline.θ_run_regions_kit (pcfgs (F := F)) (adm a4 a5) (pdats m ρ a4 a5) () (cellOf_inj (adm a4 a5)) emb₁ defs₀ 𝒱₀ L lv m ρ main (items m ρ a4 a5 h4 h5)
    (fun c Q => by rw [main_run m ρ a4 a5 h4 h5 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a4 a5)) (cellOf_inj (adm a4 a5))) (Pipeline.launchToks (Pipeline.pin (pcfgs (F := F)) (adm a4 a5)) (cellOf_inj (adm a4 a5))))
    (hu₀ := by
      iintro Hu; imodintro
      isplitl [Hu]
      · iapply (show (ownU (initOf (Pipeline.cells (Pipeline.pin (pcfgs (F := F)) (adm a4 a5)) (cellOf_inj (adm a4 a5))) (Pipeline.launchToks (Pipeline.pin (pcfgs (F := F)) (adm a4 a5)) (cellOf_inj (adm a4 a5)))) : sProp 𝕄)
            ⊢ BI.own (emb₁ (initOf (Pipeline.cells (Pipeline.pin (pcfgs (F := F)) (adm a4 a5)) (cellOf_inj (adm a4 a5))) (Pipeline.launchToks (Pipeline.pin (pcfgs (F := F)) (adm a4 a5)) (cellOf_inj (adm a4 a5))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ a4 a5)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W13 m ρ a4 a5 c) ∗ R c)
          ⊢ iprop(Tₙ m ρ a4 a5 c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ a4 a5 c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ a4 a5 c) s')
      isplitl [Hh] <;> iassumption)
    (hQ := fun s h c => h c)

end Cert.KernelIdeal.Gen

end
-- ==== Proof.KI.Tables.lean ====
/-
  The index tables of the two lookup regions. Each lookup region prefetches one table of 16384 words: the first
  the argument that indexes the 100000-row table, the second the argument that indexes the 50000-row table. The
  contents the regions run at are the launch memory's: no host stretch writes an argument and no region has one as
  its output, so the tables read at the regions' entries are the arguments as launched. There is one core, so "on
  every core" is "on core 0". Under the precondition every word of the first table is in [0, 100000) and every
  word of the second in [0, 50000).
-/
import proofs.«430333_j20727512170685_2_alg».proof.Proof.KI.Chain
import proofs.«430333_j20727512170685_2_alg».proof.Proof.PreIdx
import proofs.«430333_j20727512170685_2_alg».proof.Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first lookup region's table contents at launch: its one table is the first index argument. -/
def tbl4 (m : (ℓ : Loc nD τ sig) → Buf (Elt F) ℓ) : pre4.Contents (Elt F) := fun k => m (((0 : Dev nD) : Thread nD τ).loc (pre4.ref k))
/-- The second lookup region's table contents at launch: its one table is the second index argument. -/
def tbl5 (m : (ℓ : Loc nD τ sig) → Buf (Elt F) ℓ) : pre5.Contents (Elt F) := fun k => m (((0 : Dev nD) : Thread nD τ).loc (pre5.ref k))

/-- Table 0 of the first lookup region is the first index argument, on the one core. -/
theorem tbl4_zero (m : (ℓ : Loc nD τ sig) → Buf (Elt F) ℓ) (c : Dev nD) : (tbl4 m 0 : IVec S16384 32) = m ((c : Thread nD τ).loc main_arg8) := by
  obtain rfl : c = 0 := Subsingleton.elim _ _
  rfl

/-- Table 0 of the second lookup region is the second index argument, on the one core. -/
theorem tbl5_zero (m : (ℓ : Loc nD τ sig) → Buf (Elt F) ℓ) (c : Dev nD) : (tbl5 m 0 : IVec S16384 32) = m ((c : Thread nD τ).loc main_arg9) := by
  obtain rfl : c = 0 := Subsingleton.elim _ _
  rfl

/-- At the first lookup region's entry its table reads back to the launch memory: the first index argument is
    written by none of host stretches 0–4 and is the output of none of regions 0–3. -/
theorem h4_of (m : (ℓ : Loc nD τ sig) → Buf (Elt F) ℓ) (ρ : Dev nD → PrngReg) (a4 : (pcfg4 (F := F)).Adm) (ha : a4.1 = tbl4 m) :
    ∀ c : Dev nD, (fun k => VW9 m ρ c (pre4.ref k)) = a4.1 := by
  intro c
  rw [ha]
  funext k
  -- one table, one core
  obtain rfl : k = 0 := Subsingleton.elim _ _
  obtain rfl : c = 0 := Subsingleton.elim _ _
  exact W9_launch m ρ 0 main_arg8 (by decide) (by decide) (by decide) (by decide) (by decide) (by decide) (by decide) (by decide) (by decide)

/-- At the second lookup region's entry its table reads back to the launch memory: the second index argument is
    written by none of host stretches 0–5 and is the output of none of regions 0–4. -/
theorem h5_of (m : (ℓ : Loc nD τ sig) → Buf (Elt F) ℓ) (ρ : Dev nD → PrngReg) (a4 : (pcfg4 (F := F)).Adm) (a5 : (pcfg5 (F := F)).Adm) (ha : a5.1 = tbl5 m) :
    ∀ c : Dev nD, (fun k => VW11 m ρ a4 c (pre5.ref k)) = a5.1 := by
  intro c
  rw [ha]
  funext k
  obtain rfl : k = 0 := Subsingleton.elim _ _
  obtain rfl : c = 0 := Subsingleton.elim _ _
  exact W11_launch m ρ a4 0 main_arg9 (by decide) (by decide) (by decide) (by decide) (by decide) (by decide) (by decide) (by decide) (by decide) (by decide) (by decide)

/-- Under the precondition (the printed predicate of the argument arrays all ones, on every core) every word of the
    first table is below 100000 and every word of the second below 50000, read unsigned, and none is negative read
    signed: the predicate's two range conjuncts, read at core 0. -/
theorem idx_of_Pre (m : (ℓ : Loc nD τ sig) → Buf (Elt F) ℓ)
    (hpre : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    (∀ i : S16384.Idx, ((tbl4 m 0 : IVec S16384 32) i).toNat < 100000 ∧ ¬ ((tbl4 m 0 : IVec S16384 32) i).slt 0#32 = true)
    ∧ (∀ i : S16384.Idx, ((tbl5 m 0 : IVec S16384 32) i).toNat < 50000 ∧ ¬ ((tbl5 m 0 : IVec S16384 32) i).slt 0#32 = true) :=
  Cert.PreIdx.idx_of_pre _ _ _ _ _ _ _ _ _ _ (hpre 0)

end Cert.KernelIdeal.Gen

end
-- ==== Proof.KI.Ok.lean ====
import proofs.«430333_j20727512170685_2_alg».proof.Proof.Gen.KernelIdeal

/-!
# When an index table is admissible

A lookup region's pipeline fetches, at sample `i`, the one-row block of the table whose block index is the `i`-th
word of the index table read UNSIGNED. The pipeline's side condition asks that block to lie inside the table: that is
exactly that every word, read unsigned, is below the number of rows.
-/

noncomputable section

namespace Cert.KernelIdeal.Gen

open Idealize.ShloMosaic Idealize.SL.Sem
open Cert.KernelIdeal.Facts₀ Cert.KernelIdeal.Facts

variable {F : FTy → Type} [FloatOps F]

/-- Every word of the index table below 100000 makes the table admissible for pipeline 4. -/
theorem ok4_of_lt (pf : pre4.Contents (Elt F)) (hlt : ∀ i : S16384.Idx, ((pf 0 : IVec S16384 32) i).toNat < 100000) : ok4 pf := by
  intro i
  refine ⟨fun a => ?_, Or.inl rfl⟩
  match a with
  | ⟨0, _⟩ =>
    show (BitVec.toNat ((pf 0 : IVec S16384 32) _) + 1) * 1 ≤ 100000
    rw [Nat.mul_one]
    exact hlt _
  | ⟨1, _⟩ => show ((0#32 : BitVec 32).toNat + 1) * 1 ≤ 1; decide
  | ⟨2, _⟩ => show ((0#32 : BitVec 32).toNat + 1) * 64 ≤ 64; decide

/-- Every word of the index table below 50000 makes the table admissible for pipeline 5. -/
theorem ok5_of_lt (pf : pre5.Contents (Elt F)) (hlt : ∀ i : S16384.Idx, ((pf 0 : IVec S16384 32) i).toNat < 50000) : ok5 pf := by
  intro i
  refine ⟨fun a => ?_, Or.inl rfl⟩
  match a with
  | ⟨0, _⟩ =>
    show (BitVec.toNat ((pf 0 : IVec S16384 32) _) + 1) * 1 ≤ 50000
    rw [Nat.mul_one]
    exact hlt _
  | ⟨1, _⟩ => show ((0#32 : BitVec 32).toNat + 1) * 1 ≤ 1; decide
  | ⟨2, _⟩ => show ((0#32 : BitVec 32).toNat + 1) * 64 ≤ 64; decide

end Cert.KernelIdeal.Gen

end
-- ==== Proof.KI.Frame.lean ====
import proofs.«430333_j20727512170685_2_alg».proof.Proof.KI.Launch
import proofs.«430333_j20727512170685_2_alg».proof.Proof.KI.Tables
import proofs.«430333_j20727512170685_2_alg».proof.Proof.KI.Ok

/-!
# The run under the precondition

The precondition bounds every word of the two index tables the launch memory holds by the number of rows of the table
it indexes, so those contents are admissible and the launch applies: every execution ends, the result buffer holds
what the last item's contents say, and every argument holds its launch contents (nothing writes an argument).
-/

set_option maxRecDepth 16384

noncomputable section

namespace Cert.KernelIdeal.Gen

open Idealize.ShloMosaic Idealize.ShloMosaic.TcCoe
open Idealize.SL Idealize.SL.Sem

variable {F : FTy → Type} [FloatOps F]

/-- The user index table the launch memory holds, admissible when every word is below 100000. -/
def admOf4 (m : (ℓ : Loc nD τ sig) → Buf (Elt F) ℓ) (h : ∀ i : S16384.Idx, ((tbl4 m 0 : IVec S16384 32) i).toNat < 100000) : (pcfg4 (F := F)).Adm :=
  ⟨tbl4 m, ok4_of_lt (tbl4 m) h⟩
/-- The item index table the launch memory holds, admissible when every word is below 50000. -/
def admOf5 (m : (ℓ : Loc nD τ sig) → Buf (Elt F) ℓ) (h : ∀ i : S16384.Idx, ((tbl5 m 0 : IVec S16384 32) i).toNat < 50000) : (pcfg5 (F := F)).Adm :=
  ⟨tbl5 m, ok5_of_lt (tbl5 m) h⟩

/-- The precondition as the programs' claims state it: the printed predicate is all ones on every core's arguments. -/
abbrev PreAt (m : (ℓ : Loc nD τ sig) → Buf (Elt F) ℓ) : Prop :=
  ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1

/-- The two tables' contents under the precondition. -/
abbrev a4Of (m : (ℓ : Loc nD τ sig) → Buf (Elt F) ℓ) (hpre : PreAt m) : (pcfg4 (F := F)).Adm := admOf4 m fun i => ((idx_of_Pre m hpre).1 i).1
abbrev a5Of (m : (ℓ : Loc nD τ sig) → Buf (Elt F) ℓ) (hpre : PreAt m) : (pcfg5 (F := F)).Adm := admOf5 m fun i => ((idx_of_Pre m hpre).2 i).1

/-- Under the precondition every weakly fair execution ends with the result buffer at the last item's contents and
    every argument as launched. -/
theorem run_post (m : (ℓ : Loc nD τ sig) → Buf (Elt F) ℓ) (ρ : Dev nD → PrngReg) (hpre : PreAt m) :
    θ_run defs (onTc (τ := τ) (main (F := F))) ⟨m, fun _ => 0, ρ⟩ (fun r => ∀ c : Dev nD,
      r.2.mem ((c.tc : Thread nD τ).loc main_v84) = W13 m ρ (a4Of m hpre) (a5Of m hpre) c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v84 (by decide)),
     (h c _ (mem_uc main_arg0 (by decide))).trans (W13_launch m ρ (a4Of m hpre) (a5Of m hpre) c main_arg0 (by decide) (by decide) (by decide) (by decide) (by decide) (by decide) (by decide) (by decide) (by decide) (by decide) (by decide) (by decide) (by decide)),
     (h c _ (mem_uc main_arg1 (by decide))).trans (W13_launch m ρ (a4Of m hpre) (a5Of m hpre) c main_arg1 (by decide) (by decide) (by decide) (by decide) (by decide) (by decide) (by decide) (by decide) (by decide) (by decide) (by decide) (by decide) (by decide)),
     (h c _ (mem_uc main_arg2 (by decide))).trans (W13_launch m ρ (a4Of m hpre) (a5Of m hpre) c main_arg2 (by decide) (by decide) (by decide) (by decide) (by decide) (by decide) (by decide) (by decide) (by decide) (by decide) (by decide) (by decide) (by decide)),
     (h c _ (mem_uc main_arg3 (by decide))).trans (W13_launch m ρ (a4Of m hpre) (a5Of m hpre) c main_arg3 (by decide) (by decide) (by decide) (by decide) (by decide) (by decide) (by decide) (by decide) (by decide) (by decide) (by decide) (by decide) (by decide)),
     (h c _ (mem_uc main_arg4 (by decide))).trans (W13_launch m ρ (a4Of m hpre) (a5Of m hpre) c main_arg4 (by decide) (by decide) (by decide) (by decide) (by decide) (by decide) (by decide) (by decide) (by decide) (by decide) (by decide) (by decide) (by decide)),
     (h c _ (mem_uc main_arg5 (by decide))).trans (W13_launch m ρ (a4Of m hpre) (a5Of m hpre) c main_arg5 (by decide) (by decide) (by decide) (by decide) (by decide) (by decide) (by decide) (by decide) (by decide) (by decide) (by decide) (by decide) (by decide)),
     (h c _ (mem_uc main_arg6 (by decide))).trans (W13_launch m ρ (a4Of m hpre) (a5Of m hpre) c main_arg6 (by decide) (by decide) (by decide) (by decide) (by decide) (by decide) (by decide) (by decide) (by decide) (by decide) (by decide) (by decide) (by decide)),
     (h c _ (mem_uc main_arg7 (by decide))).trans (W13_launch m ρ (a4Of m hpre) (a5Of m hpre) c main_arg7 (by decide) (by decide) (by decide) (by decide) (by decide) (by decide) (by decide) (by decide) (by decide) (by decide) (by decide) (by decide) (by decide)),
     (h c _ (mem_uc main_arg8 (by decide))).trans (W13_launch m ρ (a4Of m hpre) (a5Of m hpre) c main_arg8 (by decide) (by decide) (by decide) (by decide) (by decide) (by decide) (by decide) (by decide) (by decide) (by decide) (by decide) (by decide) (by decide)),
     (h c _ (mem_uc main_arg9 (by decide))).trans (W13_launch m ρ (a4Of m hpre) (a5Of m hpre) c main_arg9 (by decide) (by decide) (by decide) (by decide) (by decide) (by decide) (by decide) (by decide) (by decide) (by decide) (by decide) (by decide) (by decide))⟩)
    (run_all m ρ (a4Of m hpre) (a5Of m hpre) (h4_of m ρ (a4Of m hpre) rfl) (h5_of m ρ (a4Of m hpre) (a5Of m hpre) rfl))

end Cert.KernelIdeal.Gen

end
-- ==== Proof.RefSpec.lean ====
import proofs.«430333_j20727512170685_2_alg».proof.Proof.Gen.ReferenceIdeal

/-!
# The computation both programs perform, stage by stage

Two hops of degree-scaled propagation over a bipartite user–item edge list, a row lookup and three means:

* `spmmU x` sums, into each user's row, `vals e * x (cols e)` over the edges `e` of that user (a gather of item rows,
  a scaling by the edge weight and a scatter-add by user); `spmmI` is the transpose (gather user rows, scatter by item).
* `reluU s x d = max (s + x * d) 0` with the degree column `d` spread over the 64 features; `reluI` likewise.
* `takeU g idx` reads row `idx i` of `g` for each of the 16384 samples (negative indices wrapped, then clamped).
* `tail user item r` is `[mse, mse, l2]` with `mse = mean ((Σ_j user * item - r)^2)` and
  `l2 = 0.001 * mean (user^2) + 0.001 * mean (item^2)`.

`final` composes them as the source does. Each stage is written with the host operations themselves, so that a
program's own chain of operations is the stage by unfolding.
-/

noncomputable section

namespace Cert.RefSpec

open Cert.ReferenceIdeal Cert.ReferenceIdeal.Facts₀ Cert.ReferenceIdeal.Facts Idealize.ShloMosaic

variable {F : FTy → Type} [FloatOps F]

/-- Edge indices with negative entries wrapped by the axis extent `n`, as a column. -/
def wrapE (n : BitVec 32) (idx : IVec S3200000 32) : IVec S3200000x1 32 :=
  broadcastInDim S3200000x1 ![0] bcast_S3200000_S3200000x1_0
    (select (cmpi .slt idx (broadcastInDim S3200000 ![] bcast_S_S3200000 (constantI S_ 32 0#32)))
      (addi idx (broadcastInDim S3200000 ![] bcast_S_S3200000 (constantI S_ 32 n))) idx)

/-- The edge weights spread over the 64 features. -/
def valsE (vals : FVec F S3200000 .f32) : FVec F S3200000x64 .f32 :=
  broadcastInDim S3200000x64 ![0, 1] bcast_S3200000x1_S3200000x64_0_1 (broadcastInDim S3200000x1 ![0] bcast_S3200000_S3200000x1_0 vals)

/-- Items to users: `out u = Σ_{e : rows e = u} vals e * x (cols e)`. -/
def spmmU (vals : FVec F S3200000 .f32) (rows cols : IVec S3200000 32) (x : FVec F S50000x64 .f32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 rows)
    (mulf (valsE vals) (Host.gather gather_S50000x64_S3200000x1_S3200000x64_1_0_n_n_0_1_164 x (wrapE 50000#32 cols)))

/-- Users to items: `out i = Σ_{e : cols e = i} vals e * x (rows e)`. -/
def spmmI (vals : FVec F S3200000 .f32) (rows cols : IVec S3200000 32) (x : FVec F S100000x64 .f32) : FVec F S50000x64 .f32 :=
  Host.scatterAdd scatter_S50000x64_S3200000x1_S3200000x64_1_0_0_1
    (broadcastInDim S50000x64 ![] bcast_S_S50000x64 (constant S_ .f32 0x00000000#32))
    (broadcastInDim S3200000x1 ![0] bcast_S3200000_S3200000x1_0 cols)
    (mulf (valsE vals) (Host.gather gather_S100000x64_S3200000x1_S3200000x64_1_0_n_n_0_1_164 x (wrapE 100000#32 rows)))

/-- `max (s + x * d) 0` over the user table. -/
def reluU (s x : FVec F S100000x64 .f32) (d : FVec F S100000x1 .f32) : FVec F S100000x64 .f32 :=
  maximumf (addf s (mulf x (broadcastInDim S100000x64 ![0, 1] bcast_S100000x1_S100000x64_0_1 d)))
    (broadcastInDim S100000x64 ![] bcast_S_S100000x64 (constant S_ .f32 0x00000000#32))

/-- `max (s + x * d) 0` over the item table. -/
def reluI (s x : FVec F S50000x64 .f32) (d : FVec F S50000x1 .f32) : FVec F S50000x64 .f32 :=
  maximumf (addf s (mulf x (broadcastInDim S50000x64 ![0, 1] bcast_S50000x1_S50000x64_0_1 d)))
    (broadcastInDim S50000x64 ![] bcast_S_S50000x64 (constant S_ .f32 0x00000000#32))

/-- Sample indices with negative entries wrapped by `n`, as a column. -/
def wrapB (n : BitVec 32) (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 n))) idx)

/-- Row `idx i` of the user table for every sample `i`. -/
def takeU (g : FVec F S100000x64 .f32) (idx : IVec S16384 32) : FVec F S16384x64 .f32 :=
  Host.gather gather_S100000x64_S16384x1_S16384x64_1_0_n_n_0_1_164 g (wrapB 100000#32 idx)

/-- Row `idx i` of the item table for every sample `i`. -/
def takeI (g : FVec F S50000x64 .f32) (idx : IVec S16384 32) : FVec F S16384x64 .f32 :=
  Host.gather gather_S50000x64_S16384x1_S16384x64_1_0_n_n_0_1_164 g (wrapB 50000#32 idx)

/-- The mean of the squares of a [16384, 64] table, scaled by 0.001. -/
def l2term (u : FVec F S16384x64 .f32) : FVec F S_ .f32 :=
  mulf (constant S_ .f32 0x3A83126F#32)
    (Host.divf (Host.reduceAdd (mulf u u) (constant S_ .f32 0x00000000#32) reducesTo_S16384x64_S_d0_1 h_S_) (constant S_ .f32 0x49800000#32))

/-- The mean squared error of the per-sample inner products against the ratings. -/
def mse (user item : FVec F S16384x64 .f32) (r : FVec F S16384 .f32) : FVec F S_ .f32 :=
  Host.divf
    (Host.reduceAdd
      (mulf (subf (Host.reduceAdd (mulf user item) (constant S_ .f32 0x00000000#32) reducesTo_S16384x64_S16384_d1 h_S_) r)
        (subf (Host.reduceAdd (mulf user item) (constant S_ .f32 0x00000000#32) reducesTo_S16384x64_S16384_d1 h_S_) r))
      (constant S_ .f32 0x00000000#32) reducesTo_S16384_S_d0 h_S_)
    (constant S_ .f32 0x46800000#32)

/-- `[mse, mse, l2]`. -/
def tail (user item : FVec F S16384x64 .f32) (r : FVec F S16384 .f32) : FVec F S3 .f32 :=
  concatenate S3 0 [⟨S1, broadcastInDim S1 ![] bcast_S_S1 (mse user item r)⟩, ⟨S1, broadcastInDim S1 ![] bcast_S_S1 (mse user item r)⟩,
    ⟨S1, broadcastInDim S1 ![] bcast_S_S1 (addf (l2term user) (l2term item))⟩] concatenates_S1_S1_S1_S3_d0

/-- The first-hop tables. -/
def g1u (u0 : FVec F S100000x64 .f32) (i0 : FVec F S50000x64 .f32) (vals : FVec F S3200000 .f32) (di : FVec F S100000x1 .f32)
    (rows cols : IVec S3200000 32) : FVec F S100000x64 .f32 := reluU (spmmU vals rows cols i0) u0 di
def g1i (u0 : FVec F S100000x64 .f32) (i0 : FVec F S50000x64 .f32) (vals : FVec F S3200000 .f32) (dj : FVec F S50000x1 .f32)
    (rows cols : IVec S3200000 32) : FVec F S50000x64 .f32 := reluI (spmmI vals rows cols u0) i0 dj

/-- The whole computation. -/
def final (u0 : FVec F S100000x64 .f32) (i0 : FVec F S50000x64 .f32) (vals : FVec F S3200000 .f32) (di : FVec F S100000x1 .f32)
    (dj : FVec F S50000x1 .f32) (r : FVec F S16384 .f32) (rows cols : IVec S3200000 32) (user0 item0 : IVec S16384 32) : FVec F S3 .f32 :=
  let a := g1u u0 i0 vals di rows cols
  let b := g1i u0 i0 vals dj rows cols
  let a2 := reluU (spmmU vals rows cols b) a di
  let b2 := reluI (spmmI vals rows cols a) b dj
  tail (takeU (addf (addf u0 a) a2) user0) (takeI (addf (addf i0 b) b2) item0) r

end Cert.RefSpec

end
-- ==== Proof.KI.HostVals.lean ====
import proofs.«430333_j20727512170685_2_alg».proof.Proof.KI.Chain
import proofs.«430333_j20727512170685_2_alg».proof.Proof.RefSpec
import Idealize.ShloMosaic.Lib.StableHlo.Run
import Idealize.ShloMosaic.Lib.Pipeline.Value
import Idealize.ShloMosaic.Lib.ValueIdx

/-!
# What each host stretch writes

Every stretch of host operations between two kernel regions is a fold of its operations over the buffer contents
it starts from. Read at the buffer the next item uses, the fold is one of the stages the reference is written
with: the four propagation stretches are `spmmU` / `spmmI` of the edge weights, the edge endpoints and a table; the
fifth sums the three user tables and the three item tables; the sixth only reshapes; the last is the tail
`[mse, mse, l2]`. The stage functions are the same host operations over the same shapes, so each statement holds by
unfolding the fold operation by operation.

A reshape between `[n, C]` and `[n, 1, C]` is named (`rows3`, `rows2`) and read at an index.
-/

set_option maxRecDepth 16384

noncomputable section

namespace Cert.KernelIdeal.Gen

open Idealize.ShloMosaic Idealize.ShloMosaic.TcCoe
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## A table with a unit middle axis -/

section Reshapes
variable {α : Type}
open Idealize.ShloMosaic.ValueIdx

/-- An `[n, C]` table viewed as `[n, 1, C]`. -/
abbrev rows3 {n C : Nat} (h : (⟨2, ![n, C]⟩ : Shape).ShapeCasts ⟨3, ![n, 1, C]⟩) (x : (⟨2, ![n, C]⟩ : Shape).Idx → α) :
    (⟨3, ![n, 1, C]⟩ : Shape).Idx → α := shapeCast ⟨3, ![n, 1, C]⟩ x h

/-- An `[n, 1, C]` table viewed as `[n, C]`. -/
abbrev rows2 {n C : Nat} (h : (⟨3, ![n, 1, C]⟩ : Shape).ShapeCasts ⟨2, ![n, C]⟩) (x : (⟨3, ![n, 1, C]⟩ : Shape).Idx → α) :
    (⟨2, ![n, C]⟩ : Shape).Idx → α := shapeCast ⟨2, ![n, C]⟩ x h

/-- The `[n, 1, C]` view at `(i, 0, j)` is the table at `(i, j)`: both have row-major position `i * C + j`. -/
theorem rows3_apply {n C : Nat} (h : (⟨2, ![n, C]⟩ : Shape).ShapeCasts ⟨3, ![n, 1, C]⟩) (x : (⟨2, ![n, C]⟩ : Shape).Idx → α)
    (y : (⟨3, ![n, 1, C]⟩ : Shape).Idx) : rows3 h x y = x (ix2 (y 0) (y 2)) := by
  refine shapeCast_apply x h y (ix2 (y 0) (y 2)) ?_
  have h1 : (y 1).val = 0 := by have := (y 1).isLt; simp at this; omega
  rw [Shape.rowMajor_val_two, Shape.rowMajor_val_three, h1]
  show (y 0).val * C + (y 2).val = ((y 0).val * 1 + 0) * C + (y 2).val
  rw [Nat.mul_one, Nat.add_zero]

/-- The `[n, C]` view at `(i, j)` is the table at `(i, 0, j)`. -/
theorem rows2_apply {n C : Nat} (h : (⟨3, ![n, 1, C]⟩ : Shape).ShapeCasts ⟨2, ![n, C]⟩) (x : (⟨3, ![n, 1, C]⟩ : Shape).Idx → α)
    (y : (⟨2, ![n, C]⟩ : Shape).Idx) : rows2 h x y = x (ix3 (y 0) ⟨0, Nat.one_pos⟩ (y 1)) := by
  refine shapeCast_apply x h y (ix3 (y 0) ⟨0, Nat.one_pos⟩ (y 1)) ?_
  rw [Shape.rowMajor_val_two, Shape.rowMajor_val_three]
  show ((y 0).val * 1 + 0) * C + (y 1).val = (y 0).val * C + (y 1).val
  rw [Nat.mul_one, Nat.add_zero]

end Reshapes

/-! ## The four propagation stretches -/

set_option maxHeartbeats 1000000 in
/-- Host stretch 0 leaves in `main_v12` the propagation `spmmU` of the edge weights, the edge endpoints and the table it reads. -/
theorem stretch0 (V : Valuation τ sig (Elt F)) :
    StableHlo.after hostOps0 V (Proc.devRef .tc main_v12)
      = Cert.RefSpec.spmmU (V (Proc.devRef .tc main_arg2)) (V (Proc.devRef .tc main_arg6)) (V (Proc.devRef .tc main_arg7)) (V (Proc.devRef .tc main_arg1)) := by
  after_results
  rfl

set_option maxHeartbeats 1000000 in
/-- Host stretch 1 leaves in `main_v26` the propagation `spmmI` of the edge weights, the edge endpoints and the table it reads. -/
theorem stretch1 (V : Valuation τ sig (Elt F)) :
    StableHlo.after hostOps1 V (Proc.devRef .tc main_v26)
      = Cert.RefSpec.spmmI (V (Proc.devRef .tc main_arg2)) (V (Proc.devRef .tc main_arg6)) (V (Proc.devRef .tc main_arg7)) (V (Proc.devRef .tc main_arg0)) := by
  after_results
  rfl

set_option maxHeartbeats 1000000 in
/-- Host stretch 2 leaves in `main_v40` the propagation `spmmU` of the edge weights, the edge endpoints and the table it reads. -/
theorem stretch2 (V : Valuation τ sig (Elt F)) :
    StableHlo.after hostOps2 V (Proc.devRef .tc main_v40)
      = Cert.RefSpec.spmmU (V (Proc.devRef .tc main_arg2)) (V (Proc.devRef .tc main_arg6)) (V (Proc.devRef .tc main_arg7)) (V (Proc.devRef .tc main_v27)) := by
  after_results
  rfl

set_option maxHeartbeats 1000000 in
/-- Host stretch 3 leaves in `main_v54` the propagation `spmmI` of the edge weights, the edge endpoints and the table it reads. -/
theorem stretch3 (V : Valuation τ sig (Elt F)) :
    StableHlo.after hostOps3 V (Proc.devRef .tc main_v54)
      = Cert.RefSpec.spmmI (V (Proc.devRef .tc main_arg2)) (V (Proc.devRef .tc main_arg6)) (V (Proc.devRef .tc main_arg7)) (V (Proc.devRef .tc main_v13)) := by
  after_results
  rfl

/-- Rewrites each operation's result at its own buffer to its function's value, and at any other buffer to what was
    there, until neither applies. -/
local macro "after_loop" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide)))

/-! ## The sums, the reshapes and the tail -/

/-- The result of a three-operand operation with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- Host stretch 4 leaves in `main_v60` the sum of the three user tables, viewed `[100000, 1, 64]`. -/
theorem stretch4_v60 (V : Valuation τ sig (Elt F)) :
    StableHlo.after hostOps4 V (Proc.devRef .tc main_v60)
      = rows3 (n := 100000) (C := 64) shapeCasts_S100000x64_S100000x1x64
          (addf (addf (V (Proc.devRef .tc main_arg0)) (V (Proc.devRef .tc main_v13))) (V (Proc.devRef .tc main_v41))) := by
  after_results
  rfl

/-- Host stretch 4 leaves in `main_v59` the sum of the three item tables. -/
theorem stretch4_v59 (V : Valuation τ sig (Elt F)) :
    StableHlo.after hostOps4 V (Proc.devRef .tc main_v59)
      = addf (addf (V (Proc.devRef .tc main_arg1)) (V (Proc.devRef .tc main_v27))) (V (Proc.devRef .tc main_v55)) := by
  after_results

/-- Host stretch 5 leaves in `main_v62` the looked-up user rows viewed `[16384, 64]`. -/
theorem stretch5_v62 (V : Valuation τ sig (Elt F)) :
    StableHlo.after hostOps5 V (Proc.devRef .tc main_v62)
      = rows2 (n := 16384) (C := 64) shapeCasts_S16384x1x64_S16384x64 (V (Proc.devRef .tc main_v61)) := by
  after_results
  rfl

/-- Host stretch 5 leaves in `main_v63` the summed item table viewed `[50000, 1, 64]`. -/
theorem stretch5_v63 (V : Valuation τ sig (Elt F)) :
    StableHlo.after hostOps5 V (Proc.devRef .tc main_v63)
      = rows3 (n := 50000) (C := 64) shapeCasts_S50000x64_S50000x1x64 (V (Proc.devRef .tc main_v59)) := by
  after_results
  rfl

set_option maxHeartbeats 2000000 in
/-- Host stretch 6 leaves in `main_v84` the three means of the looked-up user rows, the looked-up item rows viewed
    `[16384, 64]`, and the ratings. -/
theorem stretch6 (V : Valuation τ sig (Elt F)) :
    StableHlo.after hostOps6 V (Proc.devRef .tc main_v84)
      = Cert.RefSpec.tail (V (Proc.devRef .tc main_v62))
          (rows2 (n := 16384) (C := 64) shapeCasts_S16384x1x64_S16384x64 (V (Proc.devRef .tc main_v64)))
          (V (Proc.devRef .tc main_arg5)) := by
  simp only [StableHlo.after_cons, StableHlo.after_nil]
  rw [nary3_result]
  after_loop
  rfl

/-! ## Each host stretch's result over the chain of contents -/

section Chain
variable (m : (ℓ : Loc nD τ sig) → Buf (Elt F) ℓ) (ρ : Dev nD → PrngReg)
variable (a4 : (pcfg4 (F := F)).Adm) (a5 : (pcfg5 (F := F)).Adm)

theorem S0_v12 (c : Dev nD) :
    W1 m ρ c (Proc.devRef .tc main_v12)
      = Cert.RefSpec.spmmU (W0 m ρ c (Proc.devRef .tc main_arg2)) (W0 m ρ c (Proc.devRef .tc main_arg6))
          (W0 m ρ c (Proc.devRef .tc main_arg7)) (W0 m ρ c (Proc.devRef .tc main_arg1)) :=
  stretch0 (W0 m ρ c)

theorem S1_v26 (c : Dev nD) :
    W3 m ρ c (Proc.devRef .tc main_v26)
      = Cert.RefSpec.spmmI (W2 m ρ c (Proc.devRef .tc main_arg2)) (W2 m ρ c (Proc.devRef .tc main_arg6))
          (W2 m ρ c (Proc.devRef .tc main_arg7)) (W2 m ρ c (Proc.devRef .tc main_arg0)) :=
  stretch1 (W2 m ρ c)

theorem S2_v40 (c : Dev nD) :
    W5 m ρ c (Proc.devRef .tc main_v40)
      = Cert.RefSpec.spmmU (W4 m ρ c (Proc.devRef .tc main_arg2)) (W4 m ρ c (Proc.devRef .tc main_arg6))
          (W4 m ρ c (Proc.devRef .tc main_arg7)) (W4 m ρ c (Proc.devRef .tc main_v27)) :=
  stretch2 (W4 m ρ c)

theorem S3_v54 (c : Dev nD) :
    W7 m ρ c (Proc.devRef .tc main_v54)
      = Cert.RefSpec.spmmI (W6 m ρ c (Proc.devRef .tc main_arg2)) (W6 m ρ c (Proc.devRef .tc main_arg6))
          (W6 m ρ c (Proc.devRef .tc main_arg7)) (W6 m ρ c (Proc.devRef .tc main_v13)) :=
  stretch3 (W6 m ρ c)

theorem S4_v60 (c : Dev nD) :
    W9 m ρ c (Proc.devRef .tc main_v60)
      = rows3 (n := 100000) (C := 64) shapeCasts_S100000x64_S100000x1x64
          (addf (addf (W8 m ρ c (Proc.devRef .tc main_arg0)) (W8 m ρ c (Proc.devRef .tc main_v13)))
            (W8 m ρ c (Proc.devRef .tc main_v41))) :=
  stretch4_v60 (W8 m ρ c)

theorem S4_v59 (c : Dev nD) :
    W9 m ρ c (Proc.devRef .tc main_v59)
      = addf (addf (W8 m ρ c (Proc.devRef .tc main_arg1)) (W8 m ρ c (Proc.devRef .tc main_v27)))
          (W8 m ρ c (Proc.devRef .tc main_v55)) :=
  stretch4_v59 (W8 m ρ c)

theorem S5_v62 (c : Dev nD) :
    W11 m ρ a4 c (Proc.devRef .tc main_v62)
      = rows2 (n := 16384) (C := 64) shapeCasts_S16384x1x64_S16384x64 (W10 m ρ a4 c (Proc.devRef .tc main_v61)) :=
  stretch5_v62 (W10 m ρ a4 c)

theorem S5_v63 (c : Dev nD) :
    W11 m ρ a4 c (Proc.devRef .tc main_v63)
      = rows3 (n := 50000) (C := 64) shapeCasts_S50000x64_S50000x1x64 (W10 m ρ a4 c (Proc.devRef .tc main_v59)) :=
  stretch5_v63 (W10 m ρ a4 c)

theorem S6_v84 (c : Dev nD) :
    W13 m ρ a4 a5 c (Proc.devRef .tc main_v84)
      = Cert.RefSpec.tail (W12 m ρ a4 a5 c (Proc.devRef .tc main_v62))
          (rows2 (n := 16384) (C := 64) shapeCasts_S16384x1x64_S16384x64 (W12 m ρ a4 a5 c (Proc.devRef .tc main_v64)))
          (W12 m ρ a4 a5 c (Proc.devRef .tc main_arg5)) :=
  stretch6 (W12 m ρ a4 a5 c)

end Chain

end Cert.KernelIdeal.Gen

end
-- ==== Proof.KI.ReluVal0.lean ====
import proofs.«430333_j20727512170685_2_alg».proof.Proof.KI.Relu0
import proofs.«430333_j20727512170685_2_alg».proof.Proof.RefSpec
import Idealize.ShloMosaic.Lib.Pipeline.Value
import Idealize.ShloMosaic.Lib.ValueIdx

/-!
# Region 0: the output array after the region is the reference's stage `reluU`

The region cuts its three inputs (the scattered sums `s`, the embedding `x`, the degree column `d`) and its output
into row tiles of 5000 rows; at point `t` every window's tile is the `t`-th one, so row `a` of a tile is row
`t * 5000 + a` of its array. Read at an index, both the body's payload and the reference's stage are
`max (s + x * d) 0` with the column `d` read at lane 0; hence what point `t` writes back is tile `t` of
`reluU s x d`, and since row `r` lies in the tile of point `r / 5000` the tiles fill the array: after the last point
the output array is `reluU s x d` of the inputs as the region finds them.
-/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

open Cert.RefSpec (reluU)

variable (V : (c : Dev nD) → (b : Ref sig .tc) → Buf (Elt Ideal) ((c : Thread nD τ).loc b))

/-- The zero offsets of a whole-tile rectangle. -/
theorem hz0 : (![0, 0] : Fin 2 → Nat) = fun _ => 0 := funext fun a => by fin_cases a <;> rfl

/-- The printed index maps, decided over the grid: at point `t` every window's tile is the `t`-th row tile. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's payload at row `a`, lane `b` of a tile: `max (s + x * d) 0`, the column `d` read at lane 0. -/
theorem pay0_apply (x0 x1 : Vec Ideal S5000x64 .f32) (x2 : Vec Ideal S5000x1 .f32) (a : Fin 5000) (b : Fin 64) :
    k0_pay1 x0 x1 x2 (ix2 a b) = max (x0 (ix2 a b) + x1 (ix2 a b) * x2 (ix2 a 0)) (Scalar.ofBits (F := Ideal) .f32 0x00000000#32) := by
  unfold k0_pay1
  simp only [maximumf_apply, addf_apply, mulf_apply, broadcast_apply, shapeCast_self]
  rw [broadcastTo_apply x2 broadcasts_S5000x1_S5000x64 (ix2 a b) (ix2 a 0) (fun d => by
    match d with
    | ⟨0, _⟩ => rfl
    | ⟨1, _⟩ => rfl)]

/-- The reference's stage at row `r`, lane `b` of the table: the same expression of the whole arrays. -/
theorem ref0_apply (s x : FVec Ideal S100000x64 .f32) (d : FVec Ideal S100000x1 .f32) (r : Fin 100000) (b : Fin 64) :
    reluU (F := Ideal) s x d (ix2 r b) = max (s (ix2 r b) + x (ix2 r b) * d (ix2 r 0)) (Scalar.ofBits (F := Ideal) .f32 0x00000000#32) := by
  unfold Cert.RefSpec.reluU
  simp only [maximumf_apply, addf_apply, mulf_apply]
  rw [broadcastInDim_apply _ _ d (ix2 r b) (ix2 r 0) (fun a => by
    match a with
    | ⟨0, _⟩ => rfl
    | ⟨1, _⟩ => rfl),
    broadcastInDim_apply _ _ (constant (F := Ideal) Cert.ReferenceIdeal.S_ .f32 0x00000000#32) (ix2 r b) ix0 (fun a => a.elim0)]
  rfl

/-- Tile `t` of an input window at row `a` of the tile is row `t * 5000 + a` of the window's array: a tile's coordinate
    in the array is the tile's index times the tile's size plus the coordinate inside the tile. -/
theorem iblk0_0_apply (c : Dev nD) (t : Fin cfg0.N) (a : Fin 5000) (b : Fin 64) (r : Fin 100000) (hr : r.val = t.val * 5000 + a.val) :
    (iblk0 V c 0 t : Vec Ideal S5000x64 .f32) (ix2 a b) = (V c (Pipeline.arrRef spec0 0) : S100000x64.Idx → Elt Ideal .f32) (ix2 r b) := by
  have e := idx_facts0 t
  unfold iblk0
  rw [View.read_apply]
  show (V c (Pipeline.arrRef spec0 0) : S100000x64.Idx → Elt Ideal .f32) (((cfg0.win 0).blk t).view.emb (ix2 a b)) = _
  refine congrArg _ (funext fun d => Fin.ext ?_)
  match d with
  | ⟨0, _⟩ => show win0_0.index t (0 : Fin 2) * 5000 + 1 * a.val = r.val; omega
  | ⟨1, _⟩ => show win0_0.index t (1 : Fin 2) * 64 + 1 * b.val = b.val; omega

theorem iblk0_1_apply (c : Dev nD) (t : Fin cfg0.N) (a : Fin 5000) (b : Fin 64) (r : Fin 100000) (hr : r.val = t.val * 5000 + a.val) :
    (iblk0 V c 1 t : Vec Ideal S5000x64 .f32) (ix2 a b) = (V c (Pipeline.arrRef spec0 1) : S100000x64.Idx → Elt Ideal .f32) (ix2 r b) := by
  have e := idx_facts0 t
  unfold iblk0
  rw [View.read_apply]
  show (V c (Pipeline.arrRef spec0 1) : S100000x64.Idx → Elt Ideal .f32) (((cfg0.win 1).blk t).view.emb (ix2 a b)) = _
  refine congrArg _ (funext fun d => Fin.ext ?_)
  match d with
  | ⟨0, _⟩ => show win0_1.index t (0 : Fin 2) * 5000 + 1 * a.val = r.val; omega
  | ⟨1, _⟩ => show win0_1.index t (1 : Fin 2) * 64 + 1 * b.val = b.val; omega

theorem iblk0_2_apply (c : Dev nD) (t : Fin cfg0.N) (a : Fin 5000) (b : Fin 1) (r : Fin 100000) (hr : r.val = t.val * 5000 + a.val) :
    (iblk0 V c 2 t : Vec Ideal S5000x1 .f32) (ix2 a b) = (V c (Pipeline.arrRef spec0 2) : S100000x1.Idx → Elt Ideal .f32) (ix2 r b) := by
  have e := idx_facts0 t
  unfold iblk0
  rw [View.read_apply]
  show (V c (Pipeline.arrRef spec0 2) : S100000x1.Idx → Elt Ideal .f32) (((cfg0.win 2).blk t).view.emb (ix2 a b)) = _
  refine congrArg _ (funext fun d => Fin.ext ?_)
  match d with
  | ⟨0, _⟩ => show win0_2.index t (0 : Fin 2) * 5000 + 1 * a.val = r.val; omega
  | ⟨1, _⟩ => show win0_2.index t (1 : Fin 2) * 1 + 1 * b.val = b.val; omega

/-- The payload of the three input tiles at point `t`, at row `a` of the tile, is the reference's stage at row `t * 5000 + a`. -/
theorem tile0_apply (c : Dev nD) (t : Fin cfg0.N) (a : Fin 5000) (b : Fin 64) (r : Fin 100000) (hr : r.val = t.val * 5000 + a.val) :
    k0_pay1 (iblk0 V c 0 t) (iblk0 V c 1 t) (iblk0 V c 2 t) (ix2 a b)
      = reluU (F := Ideal) (V c (Pipeline.arrRef spec0 0)) (V c (Pipeline.arrRef spec0 1)) (V c (Pipeline.arrRef spec0 2)) (ix2 r b) := by
  rw [pay0_apply, ref0_apply, iblk0_0_apply V c t a b r hr, iblk0_1_apply V c t a b r hr, iblk0_2_apply V c t a 0 r hr]

/-- WHAT POINT `t` WRITES BACK is tile `t` of the reference's stage over the arrays as the region finds them. -/
theorem flushed0_eq (c : Dev nD) (t : Fin cfg0.N) :
    (dat0 (F := Ideal) V c).flushed 3 t = ((cfg0.win 3).blk t).view.read (Elt Ideal)
      (reluU (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S5000x1) hz0]
  have e := idx_facts0 t
  have hN : cfg0.N * 5000 = 100000 := rfl
  have ht := t.isLt
  show (k0_pay1 (iblk0 V c 0 t) (iblk0 V c 1 t) (iblk0 V c 2 t) : S5000x64.Idx → Elt Ideal .f32)
    = fun j : S5000x64.Idx => (reluU (F := Ideal) (V c (Pipeline.arrRef spec0 0)) (V c (Pipeline.arrRef spec0 1)) (V c (Pipeline.arrRef spec0 2)) : S100000x64.Idx → Elt Ideal .f32)
        (((cfg0.win 3).blk t).view.emb j)
  funext j
  obtain ⟨a, b, rfl⟩ : ∃ (a : Fin 5000) (b : Fin 64), j = ix2 a b := ⟨j 0, j 1, eq_ix2 j⟩
  refine (tile0_apply V c t a b ⟨t.val * 5000 + a.val, by omega⟩ rfl).trans (congrArg _ (funext fun d => Fin.ext ?_))
  match d with
  | ⟨0, _⟩ => show t.val * 5000 + a.val = win0_3.index t (0 : Fin 2) * 5000 + 1 * a.val; omega
  | ⟨1, _⟩ => show b.val = win0_3.index t (1 : Fin 2) * 64 + 1 * b.val; omega

/-- An index of the array is in point `t`'s tile iff each coordinate is in the tile's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole (Pipeline.arrRef spec0 3)).slice (win0_3.rect t)).set ↔ _
  rw [View.set_slice_whole, Rect.mem_set_unit]
  exact Iff.rfl

/-- The row tiles fill the array: row `r` is in the tile of point `r / 5000`. -/
theorem cover0 (i : S100000x64.Idx) : ∃ t : Fin cfg0.N, (cfg0.win 3).flush t = true ∧ i ∈ ((cfg0.win 3).blk t).view.set := by
  have hN : cfg0.N * 5000 = 100000 := rfl
  have hi0 : (i 0).val < 100000 := (i 0).isLt
  have hi1 : (i 1).val < 64 := (i 1).isLt
  have hlt : (i 0).val / 5000 < cfg0.N := by omega
  obtain ⟨-, -, -, -, -, -, e30, e31⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e31]; omega

/-- THE ARRAY after the region: the reference's stage of the three input arrays as the region finds them. -/
theorem relu0_arr (c : Dev nD) :
    (dat0 (F := Ideal) V c).arrAt 3 cfg0.N = reluU (F := Ideal) (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.Gen

end
-- ==== Proof.KI.ReluVal1.lean ====
import proofs.«430333_j20727512170685_2_alg».proof.Proof.KI.Relu1
import proofs.«430333_j20727512170685_2_alg».proof.Proof.RefSpec
import Idealize.ShloMosaic.Lib.Pipeline.Value
import Idealize.ShloMosaic.Lib.ValueIdx

/-!
# Region 1: the output array after the region is the reference's stage `reluI`

The region cuts its three inputs (the scattered sums `s`, the embedding `x`, the degree column `d`) and its output
into row tiles of 5000 rows; at point `t` every window's tile is the `t`-th one, so row `a` of a tile is row
`t * 5000 + a` of its array. Read at an index, both the body's payload and the reference's stage are
`max (s + x * d) 0` with the column `d` read at lane 0; hence what point `t` writes back is tile `t` of
`reluI s x d`, and since row `r` lies in the tile of point `r / 5000` the tiles fill the array: after the last point
the output array is `reluI s x d` of the inputs as the region finds them.
-/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

open Cert.RefSpec (reluI)

variable (V : (c : Dev nD) → (b : Ref sig .tc) → Buf (Elt Ideal) ((c : Thread nD τ).loc b))

/-- The zero offsets of a whole-tile rectangle. -/
theorem hz1 : (![0, 0] : Fin 2 → Nat) = fun _ => 0 := funext fun a => by fin_cases a <;> rfl

/-- The printed index maps, decided over the grid: at point `t` every window's tile is the `t`-th row tile. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The body's payload at row `a`, lane `b` of a tile: `max (s + x * d) 0`, the column `d` read at lane 0. -/
theorem pay1_apply (x0 x1 : Vec Ideal S5000x64 .f32) (x2 : Vec Ideal S5000x1 .f32) (a : Fin 5000) (b : Fin 64) :
    k1_pay1 x0 x1 x2 (ix2 a b) = max (x0 (ix2 a b) + x1 (ix2 a b) * x2 (ix2 a 0)) (Scalar.ofBits (F := Ideal) .f32 0x00000000#32) := by
  unfold k1_pay1
  simp only [maximumf_apply, addf_apply, mulf_apply, broadcast_apply, shapeCast_self]
  rw [broadcastTo_apply x2 broadcasts_S5000x1_S5000x64 (ix2 a b) (ix2 a 0) (fun d => by
    match d with
    | ⟨0, _⟩ => rfl
    | ⟨1, _⟩ => rfl)]

/-- The reference's stage at row `r`, lane `b` of the table: the same expression of the whole arrays. -/
theorem ref1_apply (s x : FVec Ideal S50000x64 .f32) (d : FVec Ideal S50000x1 .f32) (r : Fin 50000) (b : Fin 64) :
    reluI (F := Ideal) s x d (ix2 r b) = max (s (ix2 r b) + x (ix2 r b) * d (ix2 r 0)) (Scalar.ofBits (F := Ideal) .f32 0x00000000#32) := by
  unfold Cert.RefSpec.reluI
  simp only [maximumf_apply, addf_apply, mulf_apply]
  rw [broadcastInDim_apply _ _ d (ix2 r b) (ix2 r 0) (fun a => by
    match a with
    | ⟨0, _⟩ => rfl
    | ⟨1, _⟩ => rfl),
    broadcastInDim_apply _ _ (constant (F := Ideal) Cert.ReferenceIdeal.S_ .f32 0x00000000#32) (ix2 r b) ix0 (fun a => a.elim0)]
  rfl

/-- Tile `t` of an input window at row `a` of the tile is row `t * 5000 + a` of the window's array: a tile's coordinate
    in the array is the tile's index times the tile's size plus the coordinate inside the tile. -/
theorem iblk1_0_apply (c : Dev nD) (t : Fin cfg1.N) (a : Fin 5000) (b : Fin 64) (r : Fin 50000) (hr : r.val = t.val * 5000 + a.val) :
    (iblk1 V c 0 t : Vec Ideal S5000x64 .f32) (ix2 a b) = (V c (Pipeline.arrRef spec1 0) : S50000x64.Idx → Elt Ideal .f32) (ix2 r b) := by
  have e := idx_facts1 t
  unfold iblk1
  rw [View.read_apply]
  show (V c (Pipeline.arrRef spec1 0) : S50000x64.Idx → Elt Ideal .f32) (((cfg1.win 0).blk t).view.emb (ix2 a b)) = _
  refine congrArg _ (funext fun d => Fin.ext ?_)
  match d with
  | ⟨0, _⟩ => show win1_0.index t (0 : Fin 2) * 5000 + 1 * a.val = r.val; omega
  | ⟨1, _⟩ => show win1_0.index t (1 : Fin 2) * 64 + 1 * b.val = b.val; omega

theorem iblk1_1_apply (c : Dev nD) (t : Fin cfg1.N) (a : Fin 5000) (b : Fin 64) (r : Fin 50000) (hr : r.val = t.val * 5000 + a.val) :
    (iblk1 V c 1 t : Vec Ideal S5000x64 .f32) (ix2 a b) = (V c (Pipeline.arrRef spec1 1) : S50000x64.Idx → Elt Ideal .f32) (ix2 r b) := by
  have e := idx_facts1 t
  unfold iblk1
  rw [View.read_apply]
  show (V c (Pipeline.arrRef spec1 1) : S50000x64.Idx → Elt Ideal .f32) (((cfg1.win 1).blk t).view.emb (ix2 a b)) = _
  refine congrArg _ (funext fun d => Fin.ext ?_)
  match d with
  | ⟨0, _⟩ => show win1_1.index t (0 : Fin 2) * 5000 + 1 * a.val = r.val; omega
  | ⟨1, _⟩ => show win1_1.index t (1 : Fin 2) * 64 + 1 * b.val = b.val; omega

theorem iblk1_2_apply (c : Dev nD) (t : Fin cfg1.N) (a : Fin 5000) (b : Fin 1) (r : Fin 50000) (hr : r.val = t.val * 5000 + a.val) :
    (iblk1 V c 2 t : Vec Ideal S5000x1 .f32) (ix2 a b) = (V c (Pipeline.arrRef spec1 2) : S50000x1.Idx → Elt Ideal .f32) (ix2 r b) := by
  have e := idx_facts1 t
  unfold iblk1
  rw [View.read_apply]
  show (V c (Pipeline.arrRef spec1 2) : S50000x1.Idx → Elt Ideal .f32) (((cfg1.win 2).blk t).view.emb (ix2 a b)) = _
  refine congrArg _ (funext fun d => Fin.ext ?_)
  match d with
  | ⟨0, _⟩ => show win1_2.index t (0 : Fin 2) * 5000 + 1 * a.val = r.val; omega
  | ⟨1, _⟩ => show win1_2.index t (1 : Fin 2) * 1 + 1 * b.val = b.val; omega

/-- The payload of the three input tiles at point `t`, at row `a` of the tile, is the reference's stage at row `t * 5000 + a`. -/
theorem tile1_apply (c : Dev nD) (t : Fin cfg1.N) (a : Fin 5000) (b : Fin 64) (r : Fin 50000) (hr : r.val = t.val * 5000 + a.val) :
    k1_pay1 (iblk1 V c 0 t) (iblk1 V c 1 t) (iblk1 V c 2 t) (ix2 a b)
      = reluI (F := Ideal) (V c (Pipeline.arrRef spec1 0)) (V c (Pipeline.arrRef spec1 1)) (V c (Pipeline.arrRef spec1 2)) (ix2 r b) := by
  rw [pay1_apply, ref1_apply, iblk1_0_apply V c t a b r hr, iblk1_1_apply V c t a b r hr, iblk1_2_apply V c t a 0 r hr]

/-- WHAT POINT `t` WRITES BACK is tile `t` of the reference's stage over the arrays as the region finds them. -/
theorem flushed1_eq (c : Dev nD) (t : Fin cfg1.N) :
    (dat1 (F := Ideal) V c).flushed 3 t = ((cfg1.win 3).blk t).view.read (Elt Ideal)
      (reluI (F := Ideal) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S5000x1) hz1]
  have e := idx_facts1 t
  have hN : cfg1.N * 5000 = 50000 := rfl
  have ht := t.isLt
  show (k1_pay1 (iblk1 V c 0 t) (iblk1 V c 1 t) (iblk1 V c 2 t) : S5000x64.Idx → Elt Ideal .f32)
    = fun j : S5000x64.Idx => (reluI (F := Ideal) (V c (Pipeline.arrRef spec1 0)) (V c (Pipeline.arrRef spec1 1)) (V c (Pipeline.arrRef spec1 2)) : S50000x64.Idx → Elt Ideal .f32)
        (((cfg1.win 3).blk t).view.emb j)
  funext j
  obtain ⟨a, b, rfl⟩ : ∃ (a : Fin 5000) (b : Fin 64), j = ix2 a b := ⟨j 0, j 1, eq_ix2 j⟩
  refine (tile1_apply V c t a b ⟨t.val * 5000 + a.val, by omega⟩ rfl).trans (congrArg _ (funext fun d => Fin.ext ?_))
  match d with
  | ⟨0, _⟩ => show t.val * 5000 + a.val = win1_3.index t (0 : Fin 2) * 5000 + 1 * a.val; omega
  | ⟨1, _⟩ => show b.val = win1_3.index t (1 : Fin 2) * 64 + 1 * b.val; omega

/-- An index of the array is in point `t`'s tile iff each coordinate is in the tile's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole (Pipeline.arrRef spec1 3)).slice (win1_3.rect t)).set ↔ _
  rw [View.set_slice_whole, Rect.mem_set_unit]
  exact Iff.rfl

/-- The row tiles fill the array: row `r` is in the tile of point `r / 5000`. -/
theorem cover1 (i : S50000x64.Idx) : ∃ t : Fin cfg1.N, (cfg1.win 3).flush t = true ∧ i ∈ ((cfg1.win 3).blk t).view.set := by
  have hN : cfg1.N * 5000 = 50000 := rfl
  have hi0 : (i 0).val < 50000 := (i 0).isLt
  have hi1 : (i 1).val < 64 := (i 1).isLt
  have hlt : (i 0).val / 5000 < cfg1.N := by omega
  obtain ⟨-, -, -, -, -, -, e30, e31⟩ := idx_facts1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    rw [e31]; omega

/-- THE ARRAY after the region: the reference's stage of the three input arrays as the region finds them. -/
theorem relu1_arr (c : Dev nD) :
    (dat1 (F := Ideal) V c).arrAt 3 cfg1.N = reluI (F := Ideal) (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.Gen

end
-- ==== Proof.KI.ReluVal2.lean ====
import proofs.«430333_j20727512170685_2_alg».proof.Proof.KI.Relu2
import proofs.«430333_j20727512170685_2_alg».proof.Proof.RefSpec
import Idealize.ShloMosaic.Lib.Pipeline.Value
import Idealize.ShloMosaic.Lib.ValueIdx

/-!
# Region 2: the output array after the region is the reference's stage `reluU`

The region cuts its three inputs (the scattered sums `s`, the embedding `x`, the degree column `d`) and its output
into row tiles of 5000 rows; at point `t` every window's tile is the `t`-th one, so row `a` of a tile is row
`t * 5000 + a` of its array. Read at an index, both the body's payload and the reference's stage are
`max (s + x * d) 0` with the column `d` read at lane 0; hence what point `t` writes back is tile `t` of
`reluU s x d`, and since row `r` lies in the tile of point `r / 5000` the tiles fill the array: after the last point
the output array is `reluU s x d` of the inputs as the region finds them.
-/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

open Cert.RefSpec (reluU)

variable (V : (c : Dev nD) → (b : Ref sig .tc) → Buf (Elt Ideal) ((c : Thread nD τ).loc b))

/-- The zero offsets of a whole-tile rectangle. -/
theorem hz2 : (![0, 0] : Fin 2 → Nat) = fun _ => 0 := funext fun a => by fin_cases a <;> rfl

/-- The printed index maps, decided over the grid: at point `t` every window's tile is the `t`-th row tile. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The body's payload at row `a`, lane `b` of a tile: `max (s + x * d) 0`, the column `d` read at lane 0. -/
theorem pay2_apply (x0 x1 : Vec Ideal S5000x64 .f32) (x2 : Vec Ideal S5000x1 .f32) (a : Fin 5000) (b : Fin 64) :
    k2_pay1 x0 x1 x2 (ix2 a b) = max (x0 (ix2 a b) + x1 (ix2 a b) * x2 (ix2 a 0)) (Scalar.ofBits (F := Ideal) .f32 0x00000000#32) := by
  unfold k2_pay1
  simp only [maximumf_apply, addf_apply, mulf_apply, broadcast_apply, shapeCast_self]
  rw [broadcastTo_apply x2 broadcasts_S5000x1_S5000x64 (ix2 a b) (ix2 a 0) (fun d => by
    match d with
    | ⟨0, _⟩ => rfl
    | ⟨1, _⟩ => rfl)]

/-- The reference's stage at row `r`, lane `b` of the table: the same expression of the whole arrays. -/
theorem ref2_apply (s x : FVec Ideal S100000x64 .f32) (d : FVec Ideal S100000x1 .f32) (r : Fin 100000) (b : Fin 64) :
    reluU (F := Ideal) s x d (ix2 r b) = max (s (ix2 r b) + x (ix2 r b) * d (ix2 r 0)) (Scalar.ofBits (F := Ideal) .f32 0x00000000#32) := by
  unfold Cert.RefSpec.reluU
  simp only [maximumf_apply, addf_apply, mulf_apply]
  rw [broadcastInDim_apply _ _ d (ix2 r b) (ix2 r 0) (fun a => by
    match a with
    | ⟨0, _⟩ => rfl
    | ⟨1, _⟩ => rfl),
    broadcastInDim_apply _ _ (constant (F := Ideal) Cert.ReferenceIdeal.S_ .f32 0x00000000#32) (ix2 r b) ix0 (fun a => a.elim0)]
  rfl

/-- Tile `t` of an input window at row `a` of the tile is row `t * 5000 + a` of the window's array: a tile's coordinate
    in the array is the tile's index times the tile's size plus the coordinate inside the tile. -/
theorem iblk2_0_apply (c : Dev nD) (t : Fin cfg2.N) (a : Fin 5000) (b : Fin 64) (r : Fin 100000) (hr : r.val = t.val * 5000 + a.val) :
    (iblk2 V c 0 t : Vec Ideal S5000x64 .f32) (ix2 a b) = (V c (Pipeline.arrRef spec2 0) : S100000x64.Idx → Elt Ideal .f32) (ix2 r b) := by
  have e := idx_facts2 t
  unfold iblk2
  rw [View.read_apply]
  show (V c (Pipeline.arrRef spec2 0) : S100000x64.Idx → Elt Ideal .f32) (((cfg2.win 0).blk t).view.emb (ix2 a b)) = _
  refine congrArg _ (funext fun d => Fin.ext ?_)
  match d with
  | ⟨0, _⟩ => show win2_0.index t (0 : Fin 2) * 5000 + 1 * a.val = r.val; omega
  | ⟨1, _⟩ => show win2_0.index t (1 : Fin 2) * 64 + 1 * b.val = b.val; omega

theorem iblk2_1_apply (c : Dev nD) (t : Fin cfg2.N) (a : Fin 5000) (b : Fin 64) (r : Fin 100000) (hr : r.val = t.val * 5000 + a.val) :
    (iblk2 V c 1 t : Vec Ideal S5000x64 .f32) (ix2 a b) = (V c (Pipeline.arrRef spec2 1) : S100000x64.Idx → Elt Ideal .f32) (ix2 r b) := by
  have e := idx_facts2 t
  unfold iblk2
  rw [View.read_apply]
  show (V c (Pipeline.arrRef spec2 1) : S100000x64.Idx → Elt Ideal .f32) (((cfg2.win 1).blk t).view.emb (ix2 a b)) = _
  refine congrArg _ (funext fun d => Fin.ext ?_)
  match d with
  | ⟨0, _⟩ => show win2_1.index t (0 : Fin 2) * 5000 + 1 * a.val = r.val; omega
  | ⟨1, _⟩ => show win2_1.index t (1 : Fin 2) * 64 + 1 * b.val = b.val; omega

theorem iblk2_2_apply (c : Dev nD) (t : Fin cfg2.N) (a : Fin 5000) (b : Fin 1) (r : Fin 100000) (hr : r.val = t.val * 5000 + a.val) :
    (iblk2 V c 2 t : Vec Ideal S5000x1 .f32) (ix2 a b) = (V c (Pipeline.arrRef spec2 2) : S100000x1.Idx → Elt Ideal .f32) (ix2 r b) := by
  have e := idx_facts2 t
  unfold iblk2
  rw [View.read_apply]
  show (V c (Pipeline.arrRef spec2 2) : S100000x1.Idx → Elt Ideal .f32) (((cfg2.win 2).blk t).view.emb (ix2 a b)) = _
  refine congrArg _ (funext fun d => Fin.ext ?_)
  match d with
  | ⟨0, _⟩ => show win2_2.index t (0 : Fin 2) * 5000 + 1 * a.val = r.val; omega
  | ⟨1, _⟩ => show win2_2.index t (1 : Fin 2) * 1 + 1 * b.val = b.val; omega

/-- The payload of the three input tiles at point `t`, at row `a` of the tile, is the reference's stage at row `t * 5000 + a`. -/
theorem tile2_apply (c : Dev nD) (t : Fin cfg2.N) (a : Fin 5000) (b : Fin 64) (r : Fin 100000) (hr : r.val = t.val * 5000 + a.val) :
    k2_pay1 (iblk2 V c 0 t) (iblk2 V c 1 t) (iblk2 V c 2 t) (ix2 a b)
      = reluU (F := Ideal) (V c (Pipeline.arrRef spec2 0)) (V c (Pipeline.arrRef spec2 1)) (V c (Pipeline.arrRef spec2 2)) (ix2 r b) := by
  rw [pay2_apply, ref2_apply, iblk2_0_apply V c t a b r hr, iblk2_1_apply V c t a b r hr, iblk2_2_apply V c t a 0 r hr]

/-- WHAT POINT `t` WRITES BACK is tile `t` of the reference's stage over the arrays as the region finds them. -/
theorem flushed2_eq (c : Dev nD) (t : Fin cfg2.N) :
    (dat2 (F := Ideal) V c).flushed 3 t = ((cfg2.win 3).blk t).view.read (Elt Ideal)
      (reluU (F := Ideal) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S5000x1) hz2]
  have e := idx_facts2 t
  have hN : cfg2.N * 5000 = 100000 := rfl
  have ht := t.isLt
  show (k2_pay1 (iblk2 V c 0 t) (iblk2 V c 1 t) (iblk2 V c 2 t) : S5000x64.Idx → Elt Ideal .f32)
    = fun j : S5000x64.Idx => (reluU (F := Ideal) (V c (Pipeline.arrRef spec2 0)) (V c (Pipeline.arrRef spec2 1)) (V c (Pipeline.arrRef spec2 2)) : S100000x64.Idx → Elt Ideal .f32)
        (((cfg2.win 3).blk t).view.emb j)
  funext j
  obtain ⟨a, b, rfl⟩ : ∃ (a : Fin 5000) (b : Fin 64), j = ix2 a b := ⟨j 0, j 1, eq_ix2 j⟩
  refine (tile2_apply V c t a b ⟨t.val * 5000 + a.val, by omega⟩ rfl).trans (congrArg _ (funext fun d => Fin.ext ?_))
  match d with
  | ⟨0, _⟩ => show t.val * 5000 + a.val = win2_3.index t (0 : Fin 2) * 5000 + 1 * a.val; omega
  | ⟨1, _⟩ => show b.val = win2_3.index t (1 : Fin 2) * 64 + 1 * b.val; omega

/-- An index of the array is in point `t`'s tile iff each coordinate is in the tile's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole (Pipeline.arrRef spec2 3)).slice (win2_3.rect t)).set ↔ _
  rw [View.set_slice_whole, Rect.mem_set_unit]
  exact Iff.rfl

/-- The row tiles fill the array: row `r` is in the tile of point `r / 5000`. -/
theorem cover2 (i : S100000x64.Idx) : ∃ t : Fin cfg2.N, (cfg2.win 3).flush t = true ∧ i ∈ ((cfg2.win 3).blk t).view.set := by
  have hN : cfg2.N * 5000 = 100000 := rfl
  have hi0 : (i 0).val < 100000 := (i 0).isLt
  have hi1 : (i 1).val < 64 := (i 1).isLt
  have hlt : (i 0).val / 5000 < cfg2.N := by omega
  obtain ⟨-, -, -, -, -, -, e30, e31⟩ := idx_facts2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hlt⟩ (1 : Fin 2) * 64 ≤ (i 1).val ∧ (i 1).val < win2_3.index ⟨(i 0).val / 5000, hlt⟩ (1 : Fin 2) * 64 + 64
    rw [e31]; omega

/-- THE ARRAY after the region: the reference's stage of the three input arrays as the region finds them. -/
theorem relu2_arr (c : Dev nD) :
    (dat2 (F := Ideal) V c).arrAt 3 cfg2.N = reluU (F := Ideal) (V c (Pipeline.arrRef spec2 0)) (V c (Pipeline.arrRef spec2 1)) (V c (Pipeline.arrRef spec2 2)) :=
  (dat2 (F := Ideal) V c).arrAt_eq_of_cover 3 _ (fun t _ => flushed2_eq V c t) cover2

end Cert.KernelIdeal.Gen

end
-- ==== Proof.KI.ReluVal3.lean ====
import proofs.«430333_j20727512170685_2_alg».proof.Proof.KI.Relu3
import proofs.«430333_j20727512170685_2_alg».proof.Proof.RefSpec
import Idealize.ShloMosaic.Lib.Pipeline.Value
import Idealize.ShloMosaic.Lib.ValueIdx

/-!
# Region 3: the output array after the region is the reference's stage `reluI`

The region cuts its three inputs (the scattered sums `s`, the embedding `x`, the degree column `d`) and its output
into row tiles of 5000 rows; at point `t` every window's tile is the `t`-th one, so row `a` of a tile is row
`t * 5000 + a` of its array. Read at an index, both the body's payload and the reference's stage are
`max (s + x * d) 0` with the column `d` read at lane 0; hence what point `t` writes back is tile `t` of
`reluI s x d`, and since row `r` lies in the tile of point `r / 5000` the tiles fill the array: after the last point
the output array is `reluI s x d` of the inputs as the region finds them.
-/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

open Cert.RefSpec (reluI)

variable (V : (c : Dev nD) → (b : Ref sig .tc) → Buf (Elt Ideal) ((c : Thread nD τ).loc b))

/-- The zero offsets of a whole-tile rectangle. -/
theorem hz3 : (![0, 0] : Fin 2 → Nat) = fun _ => 0 := funext fun a => by fin_cases a <;> rfl

/-- The printed index maps, decided over the grid: at point `t` every window's tile is the `t`-th row tile. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The body's payload at row `a`, lane `b` of a tile: `max (s + x * d) 0`, the column `d` read at lane 0. -/
theorem pay3_apply (x0 x1 : Vec Ideal S5000x64 .f32) (x2 : Vec Ideal S5000x1 .f32) (a : Fin 5000) (b : Fin 64) :
    k3_pay1 x0 x1 x2 (ix2 a b) = max (x0 (ix2 a b) + x1 (ix2 a b) * x2 (ix2 a 0)) (Scalar.ofBits (F := Ideal) .f32 0x00000000#32) := by
  unfold k3_pay1
  simp only [maximumf_apply, addf_apply, mulf_apply, broadcast_apply, shapeCast_self]
  rw [broadcastTo_apply x2 broadcasts_S5000x1_S5000x64 (ix2 a b) (ix2 a 0) (fun d => by
    match d with
    | ⟨0, _⟩ => rfl
    | ⟨1, _⟩ => rfl)]

/-- The reference's stage at row `r`, lane `b` of the table: the same expression of the whole arrays. -/
theorem ref3_apply (s x : FVec Ideal S50000x64 .f32) (d : FVec Ideal S50000x1 .f32) (r : Fin 50000) (b : Fin 64) :
    reluI (F := Ideal) s x d (ix2 r b) = max (s (ix2 r b) + x (ix2 r b) * d (ix2 r 0)) (Scalar.ofBits (F := Ideal) .f32 0x00000000#32) := by
  unfold Cert.RefSpec.reluI
  simp only [maximumf_apply, addf_apply, mulf_apply]
  rw [broadcastInDim_apply _ _ d (ix2 r b) (ix2 r 0) (fun a => by
    match a with
    | ⟨0, _⟩ => rfl
    | ⟨1, _⟩ => rfl),
    broadcastInDim_apply _ _ (constant (F := Ideal) Cert.ReferenceIdeal.S_ .f32 0x00000000#32) (ix2 r b) ix0 (fun a => a.elim0)]
  rfl

/-- Tile `t` of an input window at row `a` of the tile is row `t * 5000 + a` of the window's array: a tile's coordinate
    in the array is the tile's index times the tile's size plus the coordinate inside the tile. -/
theorem iblk3_0_apply (c : Dev nD) (t : Fin cfg3.N) (a : Fin 5000) (b : Fin 64) (r : Fin 50000) (hr : r.val = t.val * 5000 + a.val) :
    (iblk3 V c 0 t : Vec Ideal S5000x64 .f32) (ix2 a b) = (V c (Pipeline.arrRef spec3 0) : S50000x64.Idx → Elt Ideal .f32) (ix2 r b) := by
  have e := idx_facts3 t
  unfold iblk3
  rw [View.read_apply]
  show (V c (Pipeline.arrRef spec3 0) : S50000x64.Idx → Elt Ideal .f32) (((cfg3.win 0).blk t).view.emb (ix2 a b)) = _
  refine congrArg _ (funext fun d => Fin.ext ?_)
  match d with
  | ⟨0, _⟩ => show win3_0.index t (0 : Fin 2) * 5000 + 1 * a.val = r.val; omega
  | ⟨1, _⟩ => show win3_0.index t (1 : Fin 2) * 64 + 1 * b.val = b.val; omega

theorem iblk3_1_apply (c : Dev nD) (t : Fin cfg3.N) (a : Fin 5000) (b : Fin 64) (r : Fin 50000) (hr : r.val = t.val * 5000 + a.val) :
    (iblk3 V c 1 t : Vec Ideal S5000x64 .f32) (ix2 a b) = (V c (Pipeline.arrRef spec3 1) : S50000x64.Idx → Elt Ideal .f32) (ix2 r b) := by
  have e := idx_facts3 t
  unfold iblk3
  rw [View.read_apply]
  show (V c (Pipeline.arrRef spec3 1) : S50000x64.Idx → Elt Ideal .f32) (((cfg3.win 1).blk t).view.emb (ix2 a b)) = _
  refine congrArg _ (funext fun d => Fin.ext ?_)
  match d with
  | ⟨0, _⟩ => show win3_1.index t (0 : Fin 2) * 5000 + 1 * a.val = r.val; omega
  | ⟨1, _⟩ => show win3_1.index t (1 : Fin 2) * 64 + 1 * b.val = b.val; omega

theorem iblk3_2_apply (c : Dev nD) (t : Fin cfg3.N) (a : Fin 5000) (b : Fin 1) (r : Fin 50000) (hr : r.val = t.val * 5000 + a.val) :
    (iblk3 V c 2 t : Vec Ideal S5000x1 .f32) (ix2 a b) = (V c (Pipeline.arrRef spec3 2) : S50000x1.Idx → Elt Ideal .f32) (ix2 r b) := by
  have e := idx_facts3 t
  unfold iblk3
  rw [View.read_apply]
  show (V c (Pipeline.arrRef spec3 2) : S50000x1.Idx → Elt Ideal .f32) (((cfg3.win 2).blk t).view.emb (ix2 a b)) = _
  refine congrArg _ (funext fun d => Fin.ext ?_)
  match d with
  | ⟨0, _⟩ => show win3_2.index t (0 : Fin 2) * 5000 + 1 * a.val = r.val; omega
  | ⟨1, _⟩ => show win3_2.index t (1 : Fin 2) * 1 + 1 * b.val = b.val; omega

/-- The payload of the three input tiles at point `t`, at row `a` of the tile, is the reference's stage at row `t * 5000 + a`. -/
theorem tile3_apply (c : Dev nD) (t : Fin cfg3.N) (a : Fin 5000) (b : Fin 64) (r : Fin 50000) (hr : r.val = t.val * 5000 + a.val) :
    k3_pay1 (iblk3 V c 0 t) (iblk3 V c 1 t) (iblk3 V c 2 t) (ix2 a b)
      = reluI (F := Ideal) (V c (Pipeline.arrRef spec3 0)) (V c (Pipeline.arrRef spec3 1)) (V c (Pipeline.arrRef spec3 2)) (ix2 r b) := by
  rw [pay3_apply, ref3_apply, iblk3_0_apply V c t a b r hr, iblk3_1_apply V c t a b r hr, iblk3_2_apply V c t a 0 r hr]

/-- WHAT POINT `t` WRITES BACK is tile `t` of the reference's stage over the arrays as the region finds them. -/
theorem flushed3_eq (c : Dev nD) (t : Fin cfg3.N) :
    (dat3 (F := Ideal) V c).flushed 3 t = ((cfg3.win 3).blk t).view.read (Elt Ideal)
      (reluI (F := Ideal) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S5000x1) hz3]
  have e := idx_facts3 t
  have hN : cfg3.N * 5000 = 50000 := rfl
  have ht := t.isLt
  show (k3_pay1 (iblk3 V c 0 t) (iblk3 V c 1 t) (iblk3 V c 2 t) : S5000x64.Idx → Elt Ideal .f32)
    = fun j : S5000x64.Idx => (reluI (F := Ideal) (V c (Pipeline.arrRef spec3 0)) (V c (Pipeline.arrRef spec3 1)) (V c (Pipeline.arrRef spec3 2)) : S50000x64.Idx → Elt Ideal .f32)
        (((cfg3.win 3).blk t).view.emb j)
  funext j
  obtain ⟨a, b, rfl⟩ : ∃ (a : Fin 5000) (b : Fin 64), j = ix2 a b := ⟨j 0, j 1, eq_ix2 j⟩
  refine (tile3_apply V c t a b ⟨t.val * 5000 + a.val, by omega⟩ rfl).trans (congrArg _ (funext fun d => Fin.ext ?_))
  match d with
  | ⟨0, _⟩ => show t.val * 5000 + a.val = win3_3.index t (0 : Fin 2) * 5000 + 1 * a.val; omega
  | ⟨1, _⟩ => show b.val = win3_3.index t (1 : Fin 2) * 64 + 1 * b.val; omega

/-- An index of the array is in point `t`'s tile iff each coordinate is in the tile's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole (Pipeline.arrRef spec3 3)).slice (win3_3.rect t)).set ↔ _
  rw [View.set_slice_whole, Rect.mem_set_unit]
  exact Iff.rfl

/-- The row tiles fill the array: row `r` is in the tile of point `r / 5000`. -/
theorem cover3 (i : S50000x64.Idx) : ∃ t : Fin cfg3.N, (cfg3.win 3).flush t = true ∧ i ∈ ((cfg3.win 3).blk t).view.set := by
  have hN : cfg3.N * 5000 = 50000 := rfl
  have hi0 : (i 0).val < 50000 := (i 0).isLt
  have hi1 : (i 1).val < 64 := (i 1).isLt
  have hlt : (i 0).val / 5000 < cfg3.N := by omega
  obtain ⟨-, -, -, -, -, -, e30, e31⟩ := idx_facts3 ⟨(i 0).val / 5000, hlt⟩
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, hlt⟩ (1 : Fin 2) * 64 ≤ (i 1).val ∧ (i 1).val < win3_3.index ⟨(i 0).val / 5000, hlt⟩ (1 : Fin 2) * 64 + 64
    rw [e31]; omega

/-- THE ARRAY after the region: the reference's stage of the three input arrays as the region finds them. -/
theorem relu3_arr (c : Dev nD) :
    (dat3 (F := Ideal) V c).arrAt 3 cfg3.N = reluI (F := Ideal) (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.Gen

end
-- ==== Proof.KI.GatherVal4.lean ====
import proofs.«430333_j20727512170685_2_alg».proof.Proof.KI.Gather4
import Idealize.ShloMosaic.Lib.Pipeline.Value
import Idealize.ShloMosaic.Lib.ValueIdx
import Idealize.ShloMosaic.Lib.Tactic

/-!
# Region 4: the value of the row lookup

The grid has one axis of 16384 points, and point `t` is sample `t`. The input window's block at `t` is the
one-row block of the table whose row is the `t`-th word of the prefetched index table; the output window's block at
`t` is row `t` of the output; the body copies the one into the other. So the output array after the region, read
at `(r, 0, j)`, is the table at `(word r, 0, j)`. Every fact is stated at ANY admissible contents `a` of the index
table and never looks inside it: all that is used of a word is that it names a row of the table.
-/

set_option maxRecDepth 16384

noncomputable section

namespace Cert.KernelIdeal.Gen

open Idealize.ShloMosaic Idealize.ShloMosaic.TcCoe Idealize.ShloMosaic.Tactic
open Idealize.ShloMosaic.Pipeline (Dat Cfg Window)
open Idealize.ShloMosaic.ValueIdx

variable {F : FTy → Type} [FloatOps F]
variable (a : (pcfg4 (F := F)).Adm)
variable (V : (c : Dev nD) → (b : Ref sig .tc) → Buf (Elt F) ((c : Thread nD τ).loc b))

/-- The zero offsets of the body's one load and one store, as a constant function. -/
theorem hz4 : (![0, 0, 0] : Fin 3 → Nat) = fun _ => 0 := funext fun a => by fin_cases a <;> rfl

/-- The grid is one axis of 16384 points: a point's coordinate is the point. -/
theorem coords4_val (t : Fin grid4.N) : ((grid4.coords t) 0).val = t.val := by
  show t.val / grid4.stride 0 % 16384 = t.val
  have hs : grid4.stride 0 = 1 := by decide
  have ht : t.val < 16384 := t.isLt
  rw [hs, Nat.div_one, Nat.mod_eq_of_lt ht]

/-- The input window's block index at coordinates `i`: the index table's word at `i`, then zeros. -/
theorem transform4_0_eq (pf : pre4.Contents (Elt F)) (i : grid4.Coords) :
    cc4_transform_0 k4_off1_inb numel1_S1 pf i = ![((pf 0 : IVec S16384 32) (ix1 (i 0))).toNat, 0, 0] := by
  have hi : (BitVec.ofNat 32 (i 0).val).toNat = (i 0).val := by
    rw [BitVec.toNat_ofNat]; exact Nat.mod_eq_of_lt (lt_trans (i 0).isLt (by decide))
  have he : (Rect.unit (s := S16384) ![(Scalar.indexCast (BitVec.ofNat 32 (i 0).val)).toNat] S1.size (k4_off1_inb i)).emb (Shape.Idx.first (numel1_S1.symm ▸ Nat.one_pos)) = ix1 (i 0) := by
    funext d; apply Fin.ext
    match d with
    | ⟨0, _⟩ => show (BitVec.ofNat 32 (i 0).val).toNat + 1 * 0 = (i 0).val; omega
  show ![((pf 0 : IVec S16384 32) ((Rect.unit (s := S16384) ![(Scalar.indexCast (BitVec.ofNat 32 (i 0).val)).toNat] S1.size (k4_off1_inb i)).emb (Shape.Idx.first (numel1_S1.symm ▸ Nat.one_pos)))).toNat, (0#32).toNat, (0#32).toNat] = _
  rw [he]
  rfl

/-- The output window's block index at coordinates `i`: `i` itself, then zeros (a coordinate below 16384 is its own 32-bit word). -/
theorem transform4_1_eq (i : grid4.Coords) : cc4_transform_1 i = ![(i 0).val, 0, 0] := by
  have hi : (BitVec.ofNat 32 (i 0).val).toNat = (i 0).val := by
    rw [BitVec.toNat_ofNat]; exact Nat.mod_eq_of_lt (lt_trans (i 0).isLt (by decide))
  show ![(BitVec.ofNat 32 (i 0).val).toNat, (0#32).toNat, (0#32).toNat] = _
  rw [hi]
  rfl

/-- The input window's block index at point `t`, the index table a variable: its word at `t`, then zeros. -/
theorem index4_0 (t : Fin (cfg4 a).N) :
    ((cfg4 a).win 0).index t = ![((a.1 0 : IVec S16384 32) (ix1 (grid4.coords t 0))).toNat, 0, 0] :=
  transform4_0_eq a.1 (grid4.coords t)

/-- The output window's block index at point `t` is `(t, 0, 0)`. -/
theorem index4_1 (t : Fin (cfg4 a).N) : ((cfg4 a).win 1).index t = ![t.val, 0, 0] := by
  show cc4_transform_1 (grid4.coords t) = _
  rw [transform4_1_eq, coords4_val]

set_option maxHeartbeats 200000 in
/-- The input block at point `t` is the table's row named by the index word at `t`. -/
theorem iblk4_apply (c : Dev nD) (t : Fin (cfg4 a).N) (x : S1x1x64.Idx) (k : S100000x1x64.Idx)
    (hk0 : (k 0).val = ((a.1 0 : IVec S16384 32) (ix1 (grid4.coords t 0))).toNat)
    (hk1 : (k 1).val = (x 1).val) (hk2 : (k 2).val = (x 2).val) :
    (iblk4 a V c 0 t : Vec F S1x1x64 .f32) x = (V c (Pipeline.arrRef spec4 0) : FVec F S100000x1x64 .f32) k := by
  have hidx := index4_0 a t
  have h0 : ((cfg4 a).win 0).index t (0 : Fin 3) = ((a.1 0 : IVec S16384 32) (ix1 (grid4.coords t 0))).toNat := congrFun hidx (0 : Fin 3)
  have h1 : ((cfg4 a).win 0).index t (1 : Fin 3) = 0 := congrFun hidx (1 : Fin 3)
  have h2 : ((cfg4 a).win 0).index t (2 : Fin 3) = 0 := congrFun hidx (2 : Fin 3)
  have hx0 : (x 0).val = 0 := Nat.lt_one_iff.mp (x 0).isLt
  show (V c (Pipeline.arrRef spec4 0) : FVec F S100000x1x64 .f32) ((((cfg4 a).win 0).blk t).view.emb x) = _
  refine congrArg (V c (Pipeline.arrRef spec4 0) : FVec F S100000x1x64 .f32) ?_
  funext d; apply Fin.ext
  match d with
  | ⟨0, _⟩ =>
    show ((cfg4 a).win 0).index t (0 : Fin 3) * 1 + 1 * (x 0).val = (k 0).val
    rw [h0, hk0, hx0]; omega
  | ⟨1, _⟩ =>
    show ((cfg4 a).win 0).index t (1 : Fin 3) * 1 + 1 * (x 1).val = (k 1).val
    rw [h1, hk1]; omega
  | ⟨2, _⟩ =>
    show ((cfg4 a).win 0).index t (2 : Fin 3) * 64 + 1 * (x 2).val = (k 2).val
    rw [h2, hk2]; omega

/-- The whole output array after the region: row `r` is the table's row named by the index word at `r`. -/
def G4 (c : Dev nD) (hlt : ∀ i : S16384.Idx, ((a.1 0 : IVec S16384 32) i).toNat < 100000) : FVec F S16384x1x64 .f32 :=
  fun y => (V c (Pipeline.arrRef spec4 0) : FVec F S100000x1x64 .f32)
    (ix3 ⟨((a.1 0 : IVec S16384 32) (ix1 (y 0))).toNat, hlt _⟩ (y 1) (y 2))

set_option maxHeartbeats 200000 in
/-- Where the output block at point `t` sits in the output array: row `t`, all of it. -/
theorem emb4_1 (t : Fin (cfg4 a).N) (x : S1x1x64.Idx) :
    ((((cfg4 a).win 1).blk t).view.emb x : S16384x1x64.Idx) = ix3 (grid4.coords t 0) (x 1) (x 2) := by
  have hidx := index4_1 a t
  have h0 : ((cfg4 a).win 1).index t (0 : Fin 3) = t.val := congrFun hidx (0 : Fin 3)
  have h1 : ((cfg4 a).win 1).index t (1 : Fin 3) = 0 := congrFun hidx (1 : Fin 3)
  have h2 : ((cfg4 a).win 1).index t (2 : Fin 3) = 0 := congrFun hidx (2 : Fin 3)
  have hx0 : (x 0).val = 0 := Nat.lt_one_iff.mp (x 0).isLt
  have hc := coords4_val t
  funext d; apply Fin.ext
  match d with
  | ⟨0, _⟩ =>
    show ((cfg4 a).win 1).index t (0 : Fin 3) * 1 + 1 * (x 0).val = (grid4.coords t 0).val
    rw [h0, hx0, hc]; omega
  | ⟨1, _⟩ =>
    show ((cfg4 a).win 1).index t (1 : Fin 3) * 1 + 1 * (x 1).val = (x 1).val
    rw [h1]; omega
  | ⟨2, _⟩ =>
    show ((cfg4 a).win 1).index t (2 : Fin 3) * 64 + 1 * (x 2).val = (x 2).val
    rw [h2]; omega

set_option maxHeartbeats 200000 in
/-- The body copies: what it leaves in the output block is the input block. -/
theorem out4_1_eq (x0 : Vec F S1x1x64 .f32) : out4_1 x0 = x0 := by
  unfold out4_1
  rw [View.canon_unit_zero hz4]
  unfold k4_pay1
  show shapeCast S1x1x64 (View.ld x0 (Rect.unit (s := S1x1x64) ![0, 0, 0] S1x1x64.size inb_S1x1x64_S1x1x64_0_0_0)) shapeCasts_S1x1x64_S1x1x64 = x0
  exact (shapeCast_self _ _).trans (View.ld_unit_zero (S := S1x1x64) hz4 _ x0)

set_option maxHeartbeats 200000 in
/-- The whole-array function read where the output block at point `t` sits is the input block at `t`. -/
theorem G4_blk_apply (c : Dev nD) (hlt : ∀ i : S16384.Idx, ((a.1 0 : IVec S16384 32) i).toNat < 100000) (t : Fin (cfg4 a).N) (x : S1x1x64.Idx) :
    G4 a V c hlt ((((cfg4 a).win 1).blk t).view.emb x) = (iblk4 a V c 0 t : Vec F S1x1x64 .f32) x := by
  rw [emb4_1]
  exact (iblk4_apply a V c t x _ rfl rfl rfl).symm

set_option maxHeartbeats 200000 in
/-- WHAT POINT `t` WRITES BACK is block `t` of the whole-array function. -/
theorem flushed4_eq (c : Dev nD) (hlt : ∀ i : S16384.Idx, ((a.1 0 : IVec S16384 32) i).toNat < 100000) (t : Fin (cfg4 a).N) :
    (dat4 a V c).flushed 1 t = (((cfg4 a).win 1).blk t).view.read (Elt F) (G4 a V c hlt) := by
  show ((cfg4 a).win 1).cut ((cfg4 a).grid.coords t) ((dat4 a V c).after 1 t) = _
  rw [after4_1]
  funext j
  exact (congrFun (out4_1_eq (iblk4 a V c 0 t : Vec F S1x1x64 .f32)) j).trans (G4_blk_apply a V c hlt t j).symm

set_option maxHeartbeats 200000 in
/-- Consecutive points name different output rows, so every point writes its block back. -/
theorem flush4_1 (t : Fin (cfg4 a).N) : ((cfg4 a).win 1).flush t = true := by
  have hN : (cfg4 a).grid.N = 16384 := rfl
  have ht : t.val < 16384 := t.isLt
  unfold Pipeline.Window.flush
  show (true && _) = true
  rw [Bool.true_and, Bool.or_eq_true, decide_eq_true_eq, decide_eq_true_eq]
  by_cases h : t.val + 1 = (cfg4 a).grid.N
  · exact Or.inl h
  · refine Or.inr ⟨by omega, fun e => ?_⟩
    have e0 := congrFun e (0 : Fin 3)
    rw [index4_1, index4_1] at e0
    have e1 : t.val + 1 = t.val := e0
    omega

/-- An index of the output array is in point `t`'s block iff each coordinate is in the block's range on its axis. -/
theorem mem_blk4_1 (t : Fin (cfg4 a).N) (i : S16384x1x64.Idx) :
    i ∈ (((cfg4 a).win 1).blk t).view.set ↔ ∀ d : Fin 3, ((cfg4 a).win 1).index t d * S1x1x64.size d ≤ (i d).val ∧ (i d).val < ((cfg4 a).win 1).index t d * S1x1x64.size d + S1x1x64.size d := by
  refine Iff.trans (Eq.to_iff (congrArg (fun s => i ∈ s) (View.set_slice_whole (Pipeline.arrRef spec4 1) (((cfg4 a).win 1).rect t)))) ?_
  exact Rect.mem_set_unit

set_option maxHeartbeats 200000 in
/-- The point that covers output row `r` is `r` itself. -/
theorem cover4_arr (i : S16384x1x64.Idx) :
    ∃ t : Fin (cfg4 a).N, ((cfg4 a).win 1).flush t = true ∧ i ∈ (((cfg4 a).win 1).blk t).view.set := by
  refine ⟨⟨(i 0).val, (i 0).isLt⟩, flush4_1 a _, ?_⟩
  rw [mem_blk4_1]
  have hidx := index4_1 a ⟨(i 0).val, (i 0).isLt⟩
  have h0 : ((cfg4 a).win 1).index ⟨(i 0).val, (i 0).isLt⟩ (0 : Fin 3) = (i 0).val := congrFun hidx (0 : Fin 3)
  have h1 : ((cfg4 a).win 1).index ⟨(i 0).val, (i 0).isLt⟩ (1 : Fin 3) = 0 := congrFun hidx (1 : Fin 3)
  have h2 : ((cfg4 a).win 1).index ⟨(i 0).val, (i 0).isLt⟩ (2 : Fin 3) = 0 := congrFun hidx (2 : Fin 3)
  have hi1 : (i 1).val < 1 := (i 1).isLt
  have hi2 : (i 2).val < 64 := (i 2).isLt
  intro d
  match d with
  | ⟨0, _⟩ =>
    show ((cfg4 a).win 1).index _ (0 : Fin 3) * 1 ≤ (i 0).val ∧ (i 0).val < ((cfg4 a).win 1).index _ (0 : Fin 3) * 1 + 1
    rw [h0]; omega
  | ⟨1, _⟩ =>
    show ((cfg4 a).win 1).index _ (1 : Fin 3) * 1 ≤ (i 1).val ∧ (i 1).val < ((cfg4 a).win 1).index _ (1 : Fin 3) * 1 + 1
    rw [h1]; omega
  | ⟨2, _⟩ =>
    show ((cfg4 a).win 1).index _ (2 : Fin 3) * 64 ≤ (i 2).val ∧ (i 2).val < ((cfg4 a).win 1).index _ (2 : Fin 3) * 64 + 64
    rw [h2]; omega

/-- THE OUTPUT ARRAY after the region, read at an index: the table's row named by the index word at that row. -/
theorem gather4_arr (c : Dev nD)
    (hlt : ∀ i : S16384.Idx, ((a.1 0 : IVec S16384 32) i).toNat < 100000) (y : S16384x1x64.Idx) :
    ((dat4 a V c).arrAt 1 (cfg4 a).N : FVec F S16384x1x64 .f32) y
      = (V c (Pipeline.arrRef spec4 0) : FVec F S100000x1x64 .f32) (ix3 ⟨((a.1 0 : IVec S16384 32) (ix1 (y 0))).toNat, hlt _⟩ (y 1) (y 2)) :=
  congrFun ((dat4 a V c).arrAt_eq_of_cover 1 (G4 a V c hlt) (fun t _ => flushed4_eq a V c hlt t) (cover4_arr a)) y

/-- What makes a table admissible: every word names a row of the table. -/
theorem admissible4_of_lt (pf : pre4.Contents (Elt F)) (hlt : ∀ i : S16384.Idx, ((pf 0 : IVec S16384 32) i).toNat < 100000) : ok4 pf := by
  unfold ok4
  intro i
  have hw := hlt (ix1 (i 0))
  have hidx := transform4_0_eq pf i
  have h0 : cc4_transform_0 k4_off1_inb numel1_S1 pf i (0 : Fin 3) = ((pf 0 : IVec S16384 32) (ix1 (i 0))).toNat := congrFun hidx (0 : Fin 3)
  have h1 : cc4_transform_0 k4_off1_inb numel1_S1 pf i (1 : Fin 3) = 0 := congrFun hidx (1 : Fin 3)
  have h2 : cc4_transform_0 k4_off1_inb numel1_S1 pf i (2 : Fin 3) = 0 := congrFun hidx (2 : Fin 3)
  refine ⟨fun d => ?_, Or.inl rfl⟩
  match d with
  | ⟨0, _⟩ =>
    show (cc4_transform_0 k4_off1_inb numel1_S1 pf i (0 : Fin 3) + 1) * 1 ≤ 100000
    rw [h0]; omega
  | ⟨1, _⟩ =>
    show (cc4_transform_0 k4_off1_inb numel1_S1 pf i (1 : Fin 3) + 1) * 1 ≤ 1
    rw [h1]
  | ⟨2, _⟩ =>
    show (cc4_transform_0 k4_off1_inb numel1_S1 pf i (2 : Fin 3) + 1) * 64 ≤ 64
    rw [h2]

/-- And conversely: an admissible table's every word names a row. -/
theorem lt_of_ok4 (pf : pre4.Contents (Elt F)) (h : ok4 pf) (i : S16384.Idx) : ((pf 0 : IVec S16384 32) i).toNat < 100000 := by
  unfold ok4 at h
  obtain ⟨hb, -⟩ := h i
  have hb0 : (cc4_transform_0 k4_off1_inb numel1_S1 pf i (0 : Fin 3) + 1) * 1 ≤ 100000 := hb (0 : Fin 3)
  have h0 : cc4_transform_0 k4_off1_inb numel1_S1 pf i (0 : Fin 3) = ((pf 0 : IVec S16384 32) (ix1 (i 0))).toNat := congrFun (transform4_0_eq pf i) (0 : Fin 3)
  have key : ((pf 0 : IVec S16384 32) (ix1 (i 0))).toNat < 100000 := by rw [h0] at hb0; omega
  exact Eq.mpr (congrArg (fun j => ((pf 0 : IVec S16384 32) j).toNat < 100000) (eq_ix1 i)) key

end Cert.KernelIdeal.Gen

end
-- ==== Proof.KI.GatherVal5.lean ====
import proofs.«430333_j20727512170685_2_alg».proof.Proof.KI.Gather5
import Idealize.ShloMosaic.Lib.Pipeline.Value
import Idealize.ShloMosaic.Lib.ValueIdx
import Idealize.ShloMosaic.Lib.Tactic

/-!
# Region 5: the value of the row lookup

The grid has one axis of 16384 points, and point `t` is sample `t`. The input window's block at `t` is the
one-row block of the table whose row is the `t`-th word of the prefetched index table; the output window's block at
`t` is row `t` of the output; the body copies the one into the other. So the output array after the region, read
at `(r, 0, j)`, is the table at `(word r, 0, j)`. Every fact is stated at ANY admissible contents `a` of the index
table and never looks inside it: all that is used of a word is that it names a row of the table.
-/

set_option maxRecDepth 16384

noncomputable section

namespace Cert.KernelIdeal.Gen

open Idealize.ShloMosaic Idealize.ShloMosaic.TcCoe Idealize.ShloMosaic.Tactic
open Idealize.ShloMosaic.Pipeline (Dat Cfg Window)
open Idealize.ShloMosaic.ValueIdx

variable {F : FTy → Type} [FloatOps F]
variable (a : (pcfg5 (F := F)).Adm)
variable (V : (c : Dev nD) → (b : Ref sig .tc) → Buf (Elt F) ((c : Thread nD τ).loc b))

/-- The zero offsets of the body's one load and one store, as a constant function. -/
theorem hz5 : (![0, 0, 0] : Fin 3 → Nat) = fun _ => 0 := funext fun a => by fin_cases a <;> rfl

/-- The grid is one axis of 16384 points: a point's coordinate is the point. -/
theorem coords5_val (t : Fin grid5.N) : ((grid5.coords t) 0).val = t.val := by
  show t.val / grid5.stride 0 % 16384 = t.val
  have hs : grid5.stride 0 = 1 := by decide
  have ht : t.val < 16384 := t.isLt
  rw [hs, Nat.div_one, Nat.mod_eq_of_lt ht]

/-- The input window's block index at coordinates `i`: the index table's word at `i`, then zeros. -/
theorem transform5_0_eq (pf : pre5.Contents (Elt F)) (i : grid5.Coords) :
    cc5_transform_0 k5_off1_inb numel1_S1 pf i = ![((pf 0 : IVec S16384 32) (ix1 (i 0))).toNat, 0, 0] := by
  have hi : (BitVec.ofNat 32 (i 0).val).toNat = (i 0).val := by
    rw [BitVec.toNat_ofNat]; exact Nat.mod_eq_of_lt (lt_trans (i 0).isLt (by decide))
  have he : (Rect.unit (s := S16384) ![(Scalar.indexCast (BitVec.ofNat 32 (i 0).val)).toNat] S1.size (k5_off1_inb i)).emb (Shape.Idx.first (numel1_S1.symm ▸ Nat.one_pos)) = ix1 (i 0) := by
    funext d; apply Fin.ext
    match d with
    | ⟨0, _⟩ => show (BitVec.ofNat 32 (i 0).val).toNat + 1 * 0 = (i 0).val; omega
  show ![((pf 0 : IVec S16384 32) ((Rect.unit (s := S16384) ![(Scalar.indexCast (BitVec.ofNat 32 (i 0).val)).toNat] S1.size (k5_off1_inb i)).emb (Shape.Idx.first (numel1_S1.symm ▸ Nat.one_pos)))).toNat, (0#32).toNat, (0#32).toNat] = _
  rw [he]
  rfl

/-- The output window's block index at coordinates `i`: `i` itself, then zeros (a coordinate below 16384 is its own 32-bit word). -/
theorem transform5_1_eq (i : grid5.Coords) : cc5_transform_1 i = ![(i 0).val, 0, 0] := by
  have hi : (BitVec.ofNat 32 (i 0).val).toNat = (i 0).val := by
    rw [BitVec.toNat_ofNat]; exact Nat.mod_eq_of_lt (lt_trans (i 0).isLt (by decide))
  show ![(BitVec.ofNat 32 (i 0).val).toNat, (0#32).toNat, (0#32).toNat] = _
  rw [hi]
  rfl

/-- The input window's block index at point `t`, the index table a variable: its word at `t`, then zeros. -/
theorem index5_0 (t : Fin (cfg5 a).N) :
    ((cfg5 a).win 0).index t = ![((a.1 0 : IVec S16384 32) (ix1 (grid5.coords t 0))).toNat, 0, 0] :=
  transform5_0_eq a.1 (grid5.coords t)

/-- The output window's block index at point `t` is `(t, 0, 0)`. -/
theorem index5_1 (t : Fin (cfg5 a).N) : ((cfg5 a).win 1).index t = ![t.val, 0, 0] := by
  show cc5_transform_1 (grid5.coords t) = _
  rw [transform5_1_eq, coords5_val]

set_option maxHeartbeats 200000 in
/-- The input block at point `t` is the table's row named by the index word at `t`. -/
theorem iblk5_apply (c : Dev nD) (t : Fin (cfg5 a).N) (x : S1x1x64.Idx) (k : S50000x1x64.Idx)
    (hk0 : (k 0).val = ((a.1 0 : IVec S16384 32) (ix1 (grid5.coords t 0))).toNat)
    (hk1 : (k 1).val = (x 1).val) (hk2 : (k 2).val = (x 2).val) :
    (iblk5 a V c 0 t : Vec F S1x1x64 .f32) x = (V c (Pipeline.arrRef spec5 0) : FVec F S50000x1x64 .f32) k := by
  have hidx := index5_0 a t
  have h0 : ((cfg5 a).win 0).index t (0 : Fin 3) = ((a.1 0 : IVec S16384 32) (ix1 (grid5.coords t 0))).toNat := congrFun hidx (0 : Fin 3)
  have h1 : ((cfg5 a).win 0).index t (1 : Fin 3) = 0 := congrFun hidx (1 : Fin 3)
  have h2 : ((cfg5 a).win 0).index t (2 : Fin 3) = 0 := congrFun hidx (2 : Fin 3)
  have hx0 : (x 0).val = 0 := Nat.lt_one_iff.mp (x 0).isLt
  show (V c (Pipeline.arrRef spec5 0) : FVec F S50000x1x64 .f32) ((((cfg5 a).win 0).blk t).view.emb x) = _
  refine congrArg (V c (Pipeline.arrRef spec5 0) : FVec F S50000x1x64 .f32) ?_
  funext d; apply Fin.ext
  match d with
  | ⟨0, _⟩ =>
    show ((cfg5 a).win 0).index t (0 : Fin 3) * 1 + 1 * (x 0).val = (k 0).val
    rw [h0, hk0, hx0]; omega
  | ⟨1, _⟩ =>
    show ((cfg5 a).win 0).index t (1 : Fin 3) * 1 + 1 * (x 1).val = (k 1).val
    rw [h1, hk1]; omega
  | ⟨2, _⟩ =>
    show ((cfg5 a).win 0).index t (2 : Fin 3) * 64 + 1 * (x 2).val = (k 2).val
    rw [h2, hk2]; omega

/-- The whole output array after the region: row `r` is the table's row named by the index word at `r`. -/
def G5 (c : Dev nD) (hlt : ∀ i : S16384.Idx, ((a.1 0 : IVec S16384 32) i).toNat < 50000) : FVec F S16384x1x64 .f32 :=
  fun y => (V c (Pipeline.arrRef spec5 0) : FVec F S50000x1x64 .f32)
    (ix3 ⟨((a.1 0 : IVec S16384 32) (ix1 (y 0))).toNat, hlt _⟩ (y 1) (y 2))

set_option maxHeartbeats 200000 in
/-- Where the output block at point `t` sits in the output array: row `t`, all of it. -/
theorem emb5_1 (t : Fin (cfg5 a).N) (x : S1x1x64.Idx) :
    ((((cfg5 a).win 1).blk t).view.emb x : S16384x1x64.Idx) = ix3 (grid5.coords t 0) (x 1) (x 2) := by
  have hidx := index5_1 a t
  have h0 : ((cfg5 a).win 1).index t (0 : Fin 3) = t.val := congrFun hidx (0 : Fin 3)
  have h1 : ((cfg5 a).win 1).index t (1 : Fin 3) = 0 := congrFun hidx (1 : Fin 3)
  have h2 : ((cfg5 a).win 1).index t (2 : Fin 3) = 0 := congrFun hidx (2 : Fin 3)
  have hx0 : (x 0).val = 0 := Nat.lt_one_iff.mp (x 0).isLt
  have hc := coords5_val t
  funext d; apply Fin.ext
  match d with
  | ⟨0, _⟩ =>
    show ((cfg5 a).win 1).index t (0 : Fin 3) * 1 + 1 * (x 0).val = (grid5.coords t 0).val
    rw [h0, hx0, hc]; omega
  | ⟨1, _⟩ =>
    show ((cfg5 a).win 1).index t (1 : Fin 3) * 1 + 1 * (x 1).val = (x 1).val
    rw [h1]; omega
  | ⟨2, _⟩ =>
    show ((cfg5 a).win 1).index t (2 : Fin 3) * 64 + 1 * (x 2).val = (x 2).val
    rw [h2]; omega

set_option maxHeartbeats 200000 in
/-- The body copies: what it leaves in the output block is the input block. -/
theorem out5_1_eq (x0 : Vec F S1x1x64 .f32) : out5_1 x0 = x0 := by
  unfold out5_1
  rw [View.canon_unit_zero hz5]
  unfold k5_pay1
  show shapeCast S1x1x64 (View.ld x0 (Rect.unit (s := S1x1x64) ![0, 0, 0] S1x1x64.size inb_S1x1x64_S1x1x64_0_0_0)) shapeCasts_S1x1x64_S1x1x64 = x0
  exact (shapeCast_self _ _).trans (View.ld_unit_zero (S := S1x1x64) hz5 _ x0)

set_option maxHeartbeats 200000 in
/-- The whole-array function read where the output block at point `t` sits is the input block at `t`. -/
theorem G5_blk_apply (c : Dev nD) (hlt : ∀ i : S16384.Idx, ((a.1 0 : IVec S16384 32) i).toNat < 50000) (t : Fin (cfg5 a).N) (x : S1x1x64.Idx) :
    G5 a V c hlt ((((cfg5 a).win 1).blk t).view.emb x) = (iblk5 a V c 0 t : Vec F S1x1x64 .f32) x := by
  rw [emb5_1]
  exact (iblk5_apply a V c t x _ rfl rfl rfl).symm

set_option maxHeartbeats 200000 in
/-- WHAT POINT `t` WRITES BACK is block `t` of the whole-array function. -/
theorem flushed5_eq (c : Dev nD) (hlt : ∀ i : S16384.Idx, ((a.1 0 : IVec S16384 32) i).toNat < 50000) (t : Fin (cfg5 a).N) :
    (dat5 a V c).flushed 1 t = (((cfg5 a).win 1).blk t).view.read (Elt F) (G5 a V c hlt) := by
  show ((cfg5 a).win 1).cut ((cfg5 a).grid.coords t) ((dat5 a V c).after 1 t) = _
  rw [after5_1]
  funext j
  exact (congrFun (out5_1_eq (iblk5 a V c 0 t : Vec F S1x1x64 .f32)) j).trans (G5_blk_apply a V c hlt t j).symm

set_option maxHeartbeats 200000 in
/-- Consecutive points name different output rows, so every point writes its block back. -/
theorem flush5_1 (t : Fin (cfg5 a).N) : ((cfg5 a).win 1).flush t = true := by
  have hN : (cfg5 a).grid.N = 16384 := rfl
  have ht : t.val < 16384 := t.isLt
  unfold Pipeline.Window.flush
  show (true && _) = true
  rw [Bool.true_and, Bool.or_eq_true, decide_eq_true_eq, decide_eq_true_eq]
  by_cases h : t.val + 1 = (cfg5 a).grid.N
  · exact Or.inl h
  · refine Or.inr ⟨by omega, fun e => ?_⟩
    have e0 := congrFun e (0 : Fin 3)
    rw [index5_1, index5_1] at e0
    have e1 : t.val + 1 = t.val := e0
    omega

/-- An index of the output array is in point `t`'s block iff each coordinate is in the block's range on its axis. -/
theorem mem_blk5_1 (t : Fin (cfg5 a).N) (i : S16384x1x64.Idx) :
    i ∈ (((cfg5 a).win 1).blk t).view.set ↔ ∀ d : Fin 3, ((cfg5 a).win 1).index t d * S1x1x64.size d ≤ (i d).val ∧ (i d).val < ((cfg5 a).win 1).index t d * S1x1x64.size d + S1x1x64.size d := by
  refine Iff.trans (Eq.to_iff (congrArg (fun s => i ∈ s) (View.set_slice_whole (Pipeline.arrRef spec5 1) (((cfg5 a).win 1).rect t)))) ?_
  exact Rect.mem_set_unit

set_option maxHeartbeats 200000 in
/-- The point that covers output row `r` is `r` itself. -/
theorem cover5_arr (i : S16384x1x64.Idx) :
    ∃ t : Fin (cfg5 a).N, ((cfg5 a).win 1).flush t = true ∧ i ∈ (((cfg5 a).win 1).blk t).view.set := by
  refine ⟨⟨(i 0).val, (i 0).isLt⟩, flush5_1 a _, ?_⟩
  rw [mem_blk5_1]
  have hidx := index5_1 a ⟨(i 0).val, (i 0).isLt⟩
  have h0 : ((cfg5 a).win 1).index ⟨(i 0).val, (i 0).isLt⟩ (0 : Fin 3) = (i 0).val := congrFun hidx (0 : Fin 3)
  have h1 : ((cfg5 a).win 1).index ⟨(i 0).val, (i 0).isLt⟩ (1 : Fin 3) = 0 := congrFun hidx (1 : Fin 3)
  have h2 : ((cfg5 a).win 1).index ⟨(i 0).val, (i 0).isLt⟩ (2 : Fin 3) = 0 := congrFun hidx (2 : Fin 3)
  have hi1 : (i 1).val < 1 := (i 1).isLt
  have hi2 : (i 2).val < 64 := (i 2).isLt
  intro d
  match d with
  | ⟨0, _⟩ =>
    show ((cfg5 a).win 1).index _ (0 : Fin 3) * 1 ≤ (i 0).val ∧ (i 0).val < ((cfg5 a).win 1).index _ (0 : Fin 3) * 1 + 1
    rw [h0]; omega
  | ⟨1, _⟩ =>
    show ((cfg5 a).win 1).index _ (1 : Fin 3) * 1 ≤ (i 1).val ∧ (i 1).val < ((cfg5 a).win 1).index _ (1 : Fin 3) * 1 + 1
    rw [h1]; omega
  | ⟨2, _⟩ =>
    show ((cfg5 a).win 1).index _ (2 : Fin 3) * 64 ≤ (i 2).val ∧ (i 2).val < ((cfg5 a).win 1).index _ (2 : Fin 3) * 64 + 64
    rw [h2]; omega

/-- THE OUTPUT ARRAY after the region, read at an index: the table's row named by the index word at that row. -/
theorem gather5_arr (c : Dev nD)
    (hlt : ∀ i : S16384.Idx, ((a.1 0 : IVec S16384 32) i).toNat < 50000) (y : S16384x1x64.Idx) :
    ((dat5 a V c).arrAt 1 (cfg5 a).N : FVec F S16384x1x64 .f32) y
      = (V c (Pipeline.arrRef spec5 0) : FVec F S50000x1x64 .f32) (ix3 ⟨((a.1 0 : IVec S16384 32) (ix1 (y 0))).toNat, hlt _⟩ (y 1) (y 2)) :=
  congrFun ((dat5 a V c).arrAt_eq_of_cover 1 (G5 a V c hlt) (fun t _ => flushed5_eq a V c hlt t) (cover5_arr a)) y

/-- What makes a table admissible: every word names a row of the table. -/
theorem admissible5_of_lt (pf : pre5.Contents (Elt F)) (hlt : ∀ i : S16384.Idx, ((pf 0 : IVec S16384 32) i).toNat < 50000) : ok5 pf := by
  unfold ok5
  intro i
  have hw := hlt (ix1 (i 0))
  have hidx := transform5_0_eq pf i
  have h0 : cc5_transform_0 k5_off1_inb numel1_S1 pf i (0 : Fin 3) = ((pf 0 : IVec S16384 32) (ix1 (i 0))).toNat := congrFun hidx (0 : Fin 3)
  have h1 : cc5_transform_0 k5_off1_inb numel1_S1 pf i (1 : Fin 3) = 0 := congrFun hidx (1 : Fin 3)
  have h2 : cc5_transform_0 k5_off1_inb numel1_S1 pf i (2 : Fin 3) = 0 := congrFun hidx (2 : Fin 3)
  refine ⟨fun d => ?_, Or.inl rfl⟩
  match d with
  | ⟨0, _⟩ =>
    show (cc5_transform_0 k5_off1_inb numel1_S1 pf i (0 : Fin 3) + 1) * 1 ≤ 50000
    rw [h0]; omega
  | ⟨1, _⟩ =>
    show (cc5_transform_0 k5_off1_inb numel1_S1 pf i (1 : Fin 3) + 1) * 1 ≤ 1
    rw [h1]
  | ⟨2, _⟩ =>
    show (cc5_transform_0 k5_off1_inb numel1_S1 pf i (2 : Fin 3) + 1) * 64 ≤ 64
    rw [h2]

/-- And conversely: an admissible table's every word names a row. -/
theorem lt_of_ok5 (pf : pre5.Contents (Elt F)) (h : ok5 pf) (i : S16384.Idx) : ((pf 0 : IVec S16384 32) i).toNat < 50000 := by
  unfold ok5 at h
  obtain ⟨hb, -⟩ := h i
  have hb0 : (cc5_transform_0 k5_off1_inb numel1_S1 pf i (0 : Fin 3) + 1) * 1 ≤ 50000 := hb (0 : Fin 3)
  have h0 : cc5_transform_0 k5_off1_inb numel1_S1 pf i (0 : Fin 3) = ((pf 0 : IVec S16384 32) (ix1 (i 0))).toNat := congrFun (transform5_0_eq pf i) (0 : Fin 3)
  have key : ((pf 0 : IVec S16384 32) (ix1 (i 0))).toNat < 50000 := by rw [h0] at hb0; omega
  exact Eq.mpr (congrArg (fun j => ((pf 0 : IVec S16384 32) j).toNat < 50000) (eq_ix1 i)) key

end Cert.KernelIdeal.Gen

end
-- ==== Proof.TakeRows.lean ====
import proofs.«430333_j20727512170685_2_alg».proof.Proof.RefSpec
import Idealize.ShloMosaic.Lib.ValueIdx

/-!
# The row lookups read at an index

`takeU g idx` and `takeI g idx` are host row gathers: sample `p` reads row `idx p` of the table. The gather's start
index is the wrapped index (the index itself when it is not negative) read signed and clamped into the table's rows;
for an index that is not negative and below the row count both steps are the identity, so the result at `(p, q)` is
the table at `(idx p, q)`.

First the general read of a row gather at an index (operand `[N, C]`, start indices a column `[R, 1]`, result
`[R, C]`), then a vector kept as a column read at a row, then the two lookups.
-/

noncomputable section

namespace Cert.RefSpec

open Cert.ReferenceIdeal Cert.ReferenceIdeal.Facts₀ Cert.ReferenceIdeal.Facts Idealize.ShloMosaic
open Idealize.ShloMosaic.ValueIdx

section Rows
variable {α : Type}

/-- The dimension numbers of a row gather: operand `[N, C]`, start indices the column `[R, 1]`, result `[R, C]`;
    the operand's axis 0 is collapsed and start-indexed, its axis 1 is the result's offset axis 1, slices are `[1, C]`. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Row `p` of an `[R, 1]` column. -/
abbrev colIdx {R : Nat} (p : Fin R) : (⟨2, ![R, 1]⟩ : Shape).Idx :=
  fun a => match a with | ⟨0, _⟩ => p | ⟨1, _⟩ => ⟨0, Nat.one_pos⟩

/-- The row gather read at `(p, q)`: the operand at row `idx[p, 0]`, read signed and clamped into `[0, N − 1]`,
    and column `q`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 ⟨min (idx (colIdx (y 0))).toInt.toNat (N - 1), by omega⟩ (y 1)) := by
  unfold Host.gather
  congr 1
  funext a
  refine Fin.ext ?_
  match a with
  | ⟨0, _⟩ =>
    show (rowDims N R C wf).start y idx 0 + (rowDims N R C wf).batchCoord y 0 + (rowDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx y ⟨List.idxOf (0 : Fin 2) (rowDims N R C wf).startIndexMap,
        List.idxOf_lt_length_iff.2 (List.mem_singleton.mpr rfl)⟩ = colIdx (y 0) := by
      funext b; refine Fin.ext ?_
      match b with
      | ⟨0, _⟩ => rfl
      | ⟨1, _⟩ => rfl
    rw [hsi]
    rfl
  | ⟨1, _⟩ =>
    show (rowDims N R C wf).start y idx 1 + (rowDims N R C wf).batchCoord y 1 + (rowDims N R C wf).offCoord y 1 = (y 1).val
    rw [GatherDims.batchCoord_eq_zero _ _ _ List.not_mem_nil]
    have hs : (rowDims N R C wf).start y idx 1 = 0 := by
      unfold GatherDims.start
      rw [dif_neg (show (1 : Fin 2) ∉ ([0] : List (Fin 2)) from by decide)]
    have hk : (1 : Fin 2) ∈ (rowDims N R C wf).sKept :=
      (GatherDims.mem_sKept _ _).mpr ⟨(by decide : (1 : Fin 2) ∉ ([0] : List (Fin 2))), List.not_mem_nil⟩
    have ho : (rowDims N R C wf).offCoord y 1 = (y 1).val := by
      unfold GatherDims.offCoord
      rw [dif_pos hk]
      rfl
    rw [hs, ho]; omega

/-- A vector kept as an `[n, 1]` column reads, at row `p`, the vector at `p`. -/
theorem column_apply {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (colIdx p) = v (ix1 p) := by
  unfold broadcastInDim
  congr 1
  funext a
  match a with
  | ⟨0, _⟩ =>
    refine Fin.ext ?_
    split
    · -- the extent is 1, so the only row is row 0
      rename_i h1
      have hn : n = 1 := h1
      have := p.isLt
      show 0 = p.val
      omega
    · rfl

end Rows

section Lookups
variable {F : FTy → Type} [FloatOps F]

/-- The wrapped index column at row `p` is the index itself when the index is not negative: the comparison with 0 is
    false there, so the select takes its second branch. -/
theorem wrapB_apply (n : BitVec 32) (idx : IVec S16384 32) (p : Fin 16384)
    (hp : ¬ (idx (ix1 p)).slt 0#32 = true) : wrapB n idx (colIdx p) = idx (ix1 p) := by
  unfold wrapB
  rw [column_apply, select_apply]
  have hc : cmpi .slt idx (broadcastInDim S16384 ![] bcast_S_S16384 (constantI S_ 32 0#32)) (ix1 p) = 0#1 := by
    show BitVec.ofBool ((idx (ix1 p)).slt 0#32) = 0#1
    cases hb : (idx (ix1 p)).slt 0#32
    · rfl
    · exact absurd hb hp
  rw [hc, select_zero]

/-- A 32-bit word below `2 ^ 31` read signed, then as a natural number, is its value; below `N` it survives the
    clamp to `N - 1`. -/
theorem clamp_toInt_toNat {a : BitVec 32} {N : Nat} (hN : N ≤ 2 ^ 31) (ha : a.toNat < N) :
    min a.toInt.toNat (N - 1) = a.toNat := by
  have ht : a.toInt = (a.toNat : Int) := by
    rw [BitVec.toInt_eq_toNat_cond, if_pos (by omega)]
  rw [ht, Int.toNat_natCast]
  omega

/-- Row `idx p` of the user table: `takeU g idx` at `(p, q)` is `g` at `(idx p, q)` for indices in `[0, 100000)`. -/
theorem takeU_apply (g : FVec F S100000x64 .f32) (idx : IVec S16384 32)
    (h : ∀ i : S16384.Idx, (idx i).toNat < 100000 ∧ ¬ (idx i).slt 0#32 = true) (y : S16384x64.Idx) :
    takeU g idx y = g (ix2 ⟨(idx (ix1 (y 0))).toNat, (h _).1⟩ (y 1)) := by
  unfold takeU
  refine (gather_rows_apply (N := 100000) (R := 16384) (C := 64) (by decide)
    gather_S100000x64_S16384x1_S16384x64_1_0_n_n_0_1_164_wf g (wrapB 100000#32 idx) y).trans (congrArg g ?_)
  funext a
  match a with
  | ⟨0, _⟩ =>
    refine Fin.ext ?_
    show min (wrapB 100000#32 idx (colIdx (y 0))).toInt.toNat (100000 - 1) = (idx (ix1 (y 0))).toNat
    have hw : wrapB 100000#32 idx (colIdx (y 0)) = idx (ix1 (y 0)) := wrapB_apply _ _ (y 0) (h _).2
    exact (congrArg (fun b : BitVec 32 => min b.toInt.toNat (100000 - 1)) hw).trans (clamp_toInt_toNat (by decide) (h _).1)
  | ⟨1, _⟩ => rfl

/-- Row `idx p` of the item table: `takeI g idx` at `(p, q)` is `g` at `(idx p, q)` for indices in `[0, 50000)`. -/
theorem takeI_apply (g : FVec F S50000x64 .f32) (idx : IVec S16384 32)
    (h : ∀ i : S16384.Idx, (idx i).toNat < 50000 ∧ ¬ (idx i).slt 0#32 = true) (y : S16384x64.Idx) :
    takeI g idx y = g (ix2 ⟨(idx (ix1 (y 0))).toNat, (h _).1⟩ (y 1)) := by
  unfold takeI
  refine (gather_rows_apply (N := 50000) (R := 16384) (C := 64) (by decide)
    gather_S50000x64_S16384x1_S16384x64_1_0_n_n_0_1_164_wf g (wrapB 50000#32 idx) y).trans (congrArg g ?_)
  funext a
  match a with
  | ⟨0, _⟩ =>
    refine Fin.ext ?_
    show min (wrapB 50000#32 idx (colIdx (y 0))).toInt.toNat (50000 - 1) = (idx (ix1 (y 0))).toNat
    have hw : wrapB 50000#32 idx (colIdx (y 0)) = idx (ix1 (y 0)) := wrapB_apply _ _ (y 0) (h _).2
    exact (congrArg (fun b : BitVec 32 => min b.toInt.toNat (50000 - 1)) hw).trans (clamp_toInt_toNat (by decide) (h _).1)
  | ⟨1, _⟩ => rfl

end Lookups

end Cert.RefSpec

end
-- ==== Proof.KI.KernelValue.lean ====
import proofs.«430333_j20727512170685_2_alg».proof.Proof.KI.HostVals
import proofs.«430333_j20727512170685_2_alg».proof.Proof.KI.ReluVal0
import proofs.«430333_j20727512170685_2_alg».proof.Proof.KI.ReluVal1
import proofs.«430333_j20727512170685_2_alg».proof.Proof.KI.ReluVal2
import proofs.«430333_j20727512170685_2_alg».proof.Proof.KI.ReluVal3
import proofs.«430333_j20727512170685_2_alg».proof.Proof.KI.GatherVal4
import proofs.«430333_j20727512170685_2_alg».proof.Proof.KI.GatherVal5
import proofs.«430333_j20727512170685_2_alg».proof.Proof.TakeRows
import Idealize.ShloMosaic.Lib.ValueIdx

/-!
# The kernel's result is the reference's composed function

The contents of the result buffer after the last host stretch, read back through the chain of contents: each host
stretch is a stage of the reference applied to what the previous item left, each residual region leaves
`max (s + x * d) 0` of its three inputs in its output, each lookup region leaves the rows its index table names. An
argument is never written, so it reads back to the launch memory at every item; a region's output is written once and
reads back to that region's exit from every later item. Composed, the stages are the reference's `final`.
-/

set_option maxRecDepth 16384

noncomputable section

namespace Cert.KernelIdeal.Gen

open Idealize.ShloMosaic Idealize.ShloMosaic.TcCoe
open Idealize.ShloMosaic.ValueIdx

variable (m : (ℓ : Loc nD τ sig) → Buf (Elt Ideal) ℓ) (ρ : Dev nD → PrngReg)
variable (a4 : (pcfg4 (F := Ideal)).Adm) (a5 : (pcfg5 (F := Ideal)).Adm)

/-! ## Buffers nothing writes -/

/-- No host stretch and no region writes `b`. -/
def Unwritten (b : Ref sig .tc) : Prop :=
  b ∉ hostOps0_W ∧ b ≠ main_v13 ∧ b ∉ hostOps1_W ∧ b ≠ main_v27 ∧ b ∉ hostOps2_W ∧ b ≠ main_v41 ∧ b ∉ hostOps3_W ∧
  b ≠ main_v55 ∧ b ∉ hostOps4_W ∧ b ≠ main_v61 ∧ b ∉ hostOps5_W ∧ b ≠ main_v64 ∧ b ∉ hostOps6_W

instance (b : Ref sig .tc) : Decidable (Unwritten b) := by unfold Unwritten; infer_instance

section Un
variable {b : Ref sig .tc} (h : Unwritten b) (c : Dev nD)
include h

theorem W1_un : W1 m ρ c (Proc.devRef .tc b) = m ((c : Thread nD τ).loc b) := (W1_of m ρ c b h.1).trans rfl
theorem W2_un : W2 m ρ c (Proc.devRef .tc b) = m ((c : Thread nD τ).loc b) := (W2_keep m ρ c b h.2.1).trans (W1_un m ρ h c)
theorem W3_un : W3 m ρ c (Proc.devRef .tc b) = m ((c : Thread nD τ).loc b) := (W3_of m ρ c b h.2.2.1).trans (W2_un m ρ h c)
theorem W4_un : W4 m ρ c (Proc.devRef .tc b) = m ((c : Thread nD τ).loc b) := (W4_keep m ρ c b h.2.2.2.1).trans (W3_un m ρ h c)
theorem W5_un : W5 m ρ c (Proc.devRef .tc b) = m ((c : Thread nD τ).loc b) := (W5_of m ρ c b h.2.2.2.2.1).trans (W4_un m ρ h c)
theorem W6_un : W6 m ρ c (Proc.devRef .tc b) = m ((c : Thread nD τ).loc b) := (W6_keep m ρ c b h.2.2.2.2.2.1).trans (W5_un m ρ h c)
theorem W7_un : W7 m ρ c (Proc.devRef .tc b) = m ((c : Thread nD τ).loc b) := (W7_of m ρ c b h.2.2.2.2.2.2.1).trans (W6_un m ρ h c)
theorem W8_un : W8 m ρ c (Proc.devRef .tc b) = m ((c : Thread nD τ).loc b) := (W8_keep m ρ c b h.2.2.2.2.2.2.2.1).trans (W7_un m ρ h c)
theorem W9_un : W9 m ρ c (Proc.devRef .tc b) = m ((c : Thread nD τ).loc b) := (W9_of m ρ c b h.2.2.2.2.2.2.2.2.1).trans (W8_un m ρ h c)
theorem W10_un : W10 m ρ a4 c (Proc.devRef .tc b) = m ((c : Thread nD τ).loc b) :=
  (W10_keep m ρ a4 c b h.2.2.2.2.2.2.2.2.2.1).trans (W9_un m ρ h c)
theorem W11_un : W11 m ρ a4 c (Proc.devRef .tc b) = m ((c : Thread nD τ).loc b) :=
  (W11_of m ρ a4 c b h.2.2.2.2.2.2.2.2.2.2.1).trans (W10_un m ρ a4 h c)
theorem W12_un : W12 m ρ a4 a5 c (Proc.devRef .tc b) = m ((c : Thread nD τ).loc b) :=
  (W12_keep m ρ a4 a5 c b h.2.2.2.2.2.2.2.2.2.2.2.1).trans (W11_un m ρ a4 h c)

end Un

theorem un_arg0 : Unwritten main_arg0 := by decide
theorem un_arg1 : Unwritten main_arg1 := by decide
theorem un_arg2 : Unwritten main_arg2 := by decide
theorem un_arg3 : Unwritten main_arg3 := by decide
theorem un_arg4 : Unwritten main_arg4 := by decide
theorem un_arg5 : Unwritten main_arg5 := by decide
theorem un_arg6 : Unwritten main_arg6 := by decide
theorem un_arg7 : Unwritten main_arg7 := by decide

/-! ## The tables between the items -/

/-- The arguments, at the types the reference's stages take them. -/
abbrev argU (c : Dev nD) : FVec Ideal S100000x64 .f32 := m ((c : Thread nD τ).loc main_arg0)
abbrev argI (c : Dev nD) : FVec Ideal S50000x64 .f32 := m ((c : Thread nD τ).loc main_arg1)
abbrev argVals (c : Dev nD) : FVec Ideal S3200000 .f32 := m ((c : Thread nD τ).loc main_arg2)
abbrev argDi (c : Dev nD) : FVec Ideal S100000x1 .f32 := m ((c : Thread nD τ).loc main_arg3)
abbrev argDj (c : Dev nD) : FVec Ideal S50000x1 .f32 := m ((c : Thread nD τ).loc main_arg4)
abbrev argR (c : Dev nD) : FVec Ideal S16384 .f32 := m ((c : Thread nD τ).loc main_arg5)
abbrev argRows (c : Dev nD) : IVec S3200000 32 := m ((c : Thread nD τ).loc main_arg6)
abbrev argCols (c : Dev nD) : IVec S3200000 32 := m ((c : Thread nD τ).loc main_arg7)

/-- The first-hop user table. -/
def tA (c : Dev nD) : FVec Ideal S100000x64 .f32 :=
  Cert.RefSpec.g1u (argU m c) (argI m c) (argVals m c) (argDi m c) (argRows m c) (argCols m c)
/-- The first-hop item table. -/
def tB (c : Dev nD) : FVec Ideal S50000x64 .f32 :=
  Cert.RefSpec.g1i (argU m c) (argI m c) (argVals m c) (argDj m c) (argRows m c) (argCols m c)
/-- The second-hop user table. -/
def tA2 (c : Dev nD) : FVec Ideal S100000x64 .f32 :=
  Cert.RefSpec.reluU (Cert.RefSpec.spmmU (argVals m c) (argRows m c) (argCols m c) (tB m c)) (tA m c) (argDi m c)
/-- The second-hop item table. -/
def tB2 (c : Dev nD) : FVec Ideal S50000x64 .f32 :=
  Cert.RefSpec.reluI (Cert.RefSpec.spmmI (argVals m c) (argRows m c) (argCols m c) (tA m c)) (tB m c) (argDj m c)
/-- The summed user table. -/
def tGU (c : Dev nD) : FVec Ideal S100000x64 .f32 := addf (addf (argU m c) (tA m c)) (tA2 m c)
/-- The summed item table. -/
def tGI (c : Dev nD) : FVec Ideal S50000x64 .f32 := addf (addf (argI m c) (tB m c)) (tB2 m c)

/-! ## Region 0 and what it leaves, read from every later item -/

theorem W2_v13 (c : Dev nD) : W2 m ρ c (Proc.devRef .tc main_v13) = tA m c := by
  have e0 : VW1 m ρ c (Pipeline.arrRef spec0 0)
      = Cert.RefSpec.spmmU (argVals m c) (argRows m c) (argCols m c) (argI m c) := S0_v12 m ρ c
  have e1 : VW1 m ρ c (Pipeline.arrRef spec0 1) = argU m c := W1_un m ρ un_arg0 c
  have e2 : VW1 m ρ c (Pipeline.arrRef spec0 2) = argDi m c := W1_un m ρ un_arg3 c
  have h := (W2_arr m ρ c 3).trans (relu0_arr (VW1 m ρ) c)
  rw [e0, e1, e2] at h
  exact h
theorem W3_v13 (c : Dev nD) : W3 m ρ c (Proc.devRef .tc main_v13) = tA m c :=
  (W3_of m ρ c main_v13 (by decide)).trans (W2_v13 m ρ c)
theorem W4_v13 (c : Dev nD) : W4 m ρ c (Proc.devRef .tc main_v13) = tA m c :=
  (W4_keep m ρ c main_v13 (by decide)).trans (W3_v13 m ρ c)
theorem W5_v13 (c : Dev nD) : W5 m ρ c (Proc.devRef .tc main_v13) = tA m c :=
  (W5_of m ρ c main_v13 (by decide)).trans (W4_v13 m ρ c)
theorem W6_v13 (c : Dev nD) : W6 m ρ c (Proc.devRef .tc main_v13) = tA m c :=
  (W6_keep m ρ c main_v13 (by decide)).trans (W5_v13 m ρ c)
theorem W7_v13 (c : Dev nD) : W7 m ρ c (Proc.devRef .tc main_v13) = tA m c :=
  (W7_of m ρ c main_v13 (by decide)).trans (W6_v13 m ρ c)
theorem W8_v13 (c : Dev nD) : W8 m ρ c (Proc.devRef .tc main_v13) = tA m c :=
  (W8_keep m ρ c main_v13 (by decide)).trans (W7_v13 m ρ c)

/-! ## Region 1 -/

theorem W4_v27 (c : Dev nD) : W4 m ρ c (Proc.devRef .tc main_v27) = tB m c := by
  have e0 : VW3 m ρ c (Pipeline.arrRef spec1 0)
      = Cert.RefSpec.spmmI (argVals m c) (argRows m c) (argCols m c) (argU m c) := by
    refine (S1_v26 m ρ c).trans ?_
    rw [W2_un m ρ un_arg2 c, W2_un m ρ un_arg6 c, W2_un m ρ un_arg7 c, W2_un m ρ un_arg0 c]
  have e1 : VW3 m ρ c (Pipeline.arrRef spec1 1) = argI m c := W3_un m ρ un_arg1 c
  have e2 : VW3 m ρ c (Pipeline.arrRef spec1 2) = argDj m c := W3_un m ρ un_arg4 c
  have h := (W4_arr m ρ c 3).trans (relu1_arr (VW3 m ρ) c)
  rw [e0, e1, e2] at h
  exact h
theorem W5_v27 (c : Dev nD) : W5 m ρ c (Proc.devRef .tc main_v27) = tB m c :=
  (W5_of m ρ c main_v27 (by decide)).trans (W4_v27 m ρ c)
theorem W6_v27 (c : Dev nD) : W6 m ρ c (Proc.devRef .tc main_v27) = tB m c :=
  (W6_keep m ρ c main_v27 (by decide)).trans (W5_v27 m ρ c)
theorem W7_v27 (c : Dev nD) : W7 m ρ c (Proc.devRef .tc main_v27) = tB m c :=
  (W7_of m ρ c main_v27 (by decide)).trans (W6_v27 m ρ c)
theorem W8_v27 (c : Dev nD) : W8 m ρ c (Proc.devRef .tc main_v27) = tB m c :=
  (W8_keep m ρ c main_v27 (by decide)).trans (W7_v27 m ρ c)

/-! ## Region 2 -/

theorem W6_v41 (c : Dev nD) : W6 m ρ c (Proc.devRef .tc main_v41) = tA2 m c := by
  have e0 : VW5 m ρ c (Pipeline.arrRef spec2 0)
      = Cert.RefSpec.spmmU (argVals m c) (argRows m c) (argCols m c) (tB m c) := by
    refine (S2_v40 m ρ c).trans ?_
    rw [W4_un m ρ un_arg2 c, W4_un m ρ un_arg6 c, W4_un m ρ un_arg7 c, W4_v27 m ρ c]
  have e1 : VW5 m ρ c (Pipeline.arrRef spec2 1) = tA m c := W5_v13 m ρ c
  have e2 : VW5 m ρ c (Pipeline.arrRef spec2 2) = argDi m c := W5_un m ρ un_arg3 c
  have h := (W6_arr m ρ c 3).trans (relu2_arr (VW5 m ρ) c)
  rw [e0, e1, e2] at h
  exact h
theorem W7_v41 (c : Dev nD) : W7 m ρ c (Proc.devRef .tc main_v41) = tA2 m c :=
  (W7_of m ρ c main_v41 (by decide)).trans (W6_v41 m ρ c)
theorem W8_v41 (c : Dev nD) : W8 m ρ c (Proc.devRef .tc main_v41) = tA2 m c :=
  (W8_keep m ρ c main_v41 (by decide)).trans (W7_v41 m ρ c)

/-! ## Region 3 -/

theorem W8_v55 (c : Dev nD) : W8 m ρ c (Proc.devRef .tc main_v55) = tB2 m c := by
  have e0 : VW7 m ρ c (Pipeline.arrRef spec3 0)
      = Cert.RefSpec.spmmI (argVals m c) (argRows m c) (argCols m c) (tA m c) := by
    refine (S3_v54 m ρ c).trans ?_
    rw [W6_un m ρ un_arg2 c, W6_un m ρ un_arg6 c, W6_un m ρ un_arg7 c, W6_v13 m ρ c]
  have e1 : VW7 m ρ c (Pipeline.arrRef spec3 1) = tB m c := W7_v27 m ρ c
  have e2 : VW7 m ρ c (Pipeline.arrRef spec3 2) = argDj m c := W7_un m ρ un_arg4 c
  have h := (W8_arr m ρ c 3).trans (relu3_arr (VW7 m ρ) c)
  rw [e0, e1, e2] at h
  exact h

/-! ## The sums of host stretch 4 -/

theorem W9_v60 (c : Dev nD) :
    W9 m ρ c (Proc.devRef .tc main_v60)
      = rows3 (n := 100000) (C := 64) shapeCasts_S100000x64_S100000x1x64 (tGU m c) := by
  refine (S4_v60 m ρ c).trans ?_
  rw [W8_un m ρ un_arg0 c, W8_v13 m ρ c, W8_v41 m ρ c]
  rfl
theorem W9_v59 (c : Dev nD) : W9 m ρ c (Proc.devRef .tc main_v59) = tGI m c := by
  refine (S4_v59 m ρ c).trans ?_
  rw [W8_un m ρ un_arg1 c, W8_v27 m ρ c, W8_v55 m ρ c]
  rfl

/-! ## The two lookups -/

theorem W10_v59 (c : Dev nD) : W10 m ρ a4 c (Proc.devRef .tc main_v59) = tGI m c :=
  (W10_keep m ρ a4 c main_v59 (by decide)).trans (W9_v59 m ρ c)

/-- The looked-up user rows: region 4 copies row `idx p` of the summed user table into row `p`, and the reshapes on
    both sides only add and drop the unit middle axis. -/
theorem W12_v62
    (hi4 : ∀ i : S16384.Idx, ((a4.1 0 : IVec S16384 32) i).toNat < 100000 ∧ ¬ ((a4.1 0 : IVec S16384 32) i).slt 0#32 = true)
    (c : Dev nD) :
    W12 m ρ a4 a5 c (Proc.devRef .tc main_v62) = Cert.RefSpec.takeU (F := Ideal) (tGU m c) (a4.1 0 : IVec S16384 32) := by
  refine (W12_keep m ρ a4 a5 c main_v62 (by decide)).trans ((S5_v62 m ρ a4 c).trans ?_)
  funext y
  rw [rows2_apply, Cert.RefSpec.takeU_apply (tGU m c) (a4.1 0 : IVec S16384 32) hi4 y]
  have h10 : W10 m ρ a4 c (Proc.devRef .tc main_v61) = (dat4 a4 (VW9 m ρ) c).arrAt 1 (cfg4 a4).N := W10_arr m ρ a4 c 1
  rw [h10]
  refine (gather4_arr a4 (VW9 m ρ) c (fun i => (hi4 i).1) _).trans ?_
  have h9 : VW9 m ρ c (Pipeline.arrRef spec4 0)
      = rows3 (n := 100000) (C := 64) shapeCasts_S100000x64_S100000x1x64 (tGU m c) := W9_v60 m ρ c
  rw [h9, rows3_apply]

/-- The looked-up item rows, viewed `[16384, 64]`. -/
theorem W12_v64_rows
    (hi5 : ∀ i : S16384.Idx, ((a5.1 0 : IVec S16384 32) i).toNat < 50000 ∧ ¬ ((a5.1 0 : IVec S16384 32) i).slt 0#32 = true)
    (c : Dev nD) :
    rows2 (n := 16384) (C := 64) shapeCasts_S16384x1x64_S16384x64 (W12 m ρ a4 a5 c (Proc.devRef .tc main_v64))
      = Cert.RefSpec.takeI (F := Ideal) (tGI m c) (a5.1 0 : IVec S16384 32) := by
  funext y
  rw [rows2_apply, Cert.RefSpec.takeI_apply (tGI m c) (a5.1 0 : IVec S16384 32) hi5 y]
  have h12 : W12 m ρ a4 a5 c (Proc.devRef .tc main_v64) = (dat5 a5 (VW11 m ρ a4) c).arrAt 1 (cfg5 a5).N :=
    W12_arr m ρ a4 a5 c 1
  rw [h12]
  refine (gather5_arr a5 (VW11 m ρ a4) c (fun i => (hi5 i).1) _).trans ?_
  have h11 : VW11 m ρ a4 c (Pipeline.arrRef spec5 0)
      = rows3 (n := 50000) (C := 64) shapeCasts_S50000x64_S50000x1x64 (tGI m c) :=
    (S5_v63 m ρ a4 c).trans (by rw [W10_v59 m ρ a4 c])
  rw [h11, rows3_apply]

/-! ## The result -/

/-- The result buffer after the last host stretch is the reference's `final` of the launch memory's arguments, for
    index tables that hold the two index arguments and whose entries are in range. -/
theorem kernel_value
    (hi4 : ∀ i : S16384.Idx, ((a4.1 0 : IVec S16384 32) i).toNat < 100000 ∧ ¬ ((a4.1 0 : IVec S16384 32) i).slt 0#32 = true)
    (hi5 : ∀ i : S16384.Idx, ((a5.1 0 : IVec S16384 32) i).toNat < 50000 ∧ ¬ ((a5.1 0 : IVec S16384 32) i).slt 0#32 = true)
    (e4 : ∀ c : Dev nD, (a4.1 0 : IVec S16384 32) = m ((c : Thread nD τ).loc main_arg8))
    (e5 : ∀ c : Dev nD, (a5.1 0 : IVec S16384 32) = m ((c : Thread nD τ).loc main_arg9)) (c : Dev nD) :
    W13 m ρ a4 a5 c (Proc.devRef .tc main_v84)
      = Cert.RefSpec.final (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (S6_v84 m ρ a4 a5 c).trans ?_
  rw [W12_v62 m ρ a4 a5 hi4 c, W12_v64_rows m ρ a4 a5 hi5 c, W12_un m ρ a4 a5 un_arg5 c, e4 c, e5 c]
  rfl

end Cert.KernelIdeal.Gen

end
-- ==== Proof.RefRunH.lean ====
import proofs.«430333_j20727512170685_2_alg».proof.Proof.Gen.ReferenceIdeal
import proofs.«430333_j20727512170685_2_alg».proof.Proof.RefSpec
import Idealize.ShloMosaic.Lib.StableHlo.Run

/-!
# The reference's run, stage by stage

The reference is a straight line of 138 host operations. The line is cut into eight chunks at the boundaries of the
stages the computation is written with (`Cert.RefSpec`): the four propagation hops (each the sixteen operations of an
`spmm`, the degree scaling, the sum and the rectifier), the sums of the three user and the three item tables, the two
row lookups, the three means, and their concatenation. For every chunk, over any buffer contents `V`: what it leaves
in the buffer a later chunk reads is the stage's function of `V` at the buffers the chunk reads, by unfolding the
fold operation by operation; and a buffer it does not write keeps its contents. The contents after the whole line
are the chunks' folds one after the other, so the result buffer ends at `final` of the ten arguments and the
arguments are unchanged; the run theorem for a straight line then gives the statement about every execution.
-/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The first hop into the user table: the sixteen operations of `spmmU` of the item embedding, the degree scaling of the user embedding, their sum, and the three operations of the rectifier. -/
def ops1 : List (HloOp τ sig (Elt F)) :=
  [ unary main_arg2 main_v0 (broadcastInDim S3200000x1 ![0] bcast_S3200000_S3200000x1_0 : (⟨S3200000, .f32⟩ : BufTy).Contents (Elt F) → (⟨S3200000x1, .f32⟩ : BufTy).Contents (Elt F)),
    nullary main_c (constantI S_ 32 0#32),
    unary main_c main_v1 (broadcastInDim S3200000 ![] bcast_S_S3200000 : (⟨S_, .i32⟩ : BufTy).Contents (Elt F) → (⟨S3200000, .i32⟩ : BufTy).Contents (Elt F)),
    binary main_arg7 main_v1 main_v2 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 50000#32),
    unary main_c_0 main_v3 (broadcastInDim S3200000 ![] bcast_S_S3200000 : (⟨S_, .i32⟩ : BufTy).Contents (Elt F) → (⟨S3200000, .i32⟩ : BufTy).Contents (Elt F)),
    binary main_arg7 main_v3 main_v4 (addi : (⟨S3200000, .i32⟩ : BufTy).Contents (Elt F) → (⟨S3200000, .i32⟩ : BufTy).Contents (Elt F) → (⟨S3200000, .i32⟩ : BufTy).Contents (Elt F)),
    ternary main_v2 main_v4 main_arg7 main_v5 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v5 main_v6 (broadcastInDim S3200000x1 ![0] bcast_S3200000_S3200000x1_0 : (⟨S3200000, .i32⟩ : BufTy).Contents (Elt F) → (⟨S3200000x1, .i32⟩ : BufTy).Contents (Elt F)),
    binary main_arg1 main_v6 main_v7 ((fun x i => Host.gather gather_S50000x64_S3200000x1_S3200000x64_1_0_n_n_0_1_164 x i) : (⟨S50000x64, .f32⟩ : BufTy).Contents (Elt F) → (⟨S3200000x1, .i32⟩ : BufTy).Contents (Elt F) → (⟨S3200000x64, .f32⟩ : BufTy).Contents (Elt F)),
    unary main_v0 main_v8 (broadcastInDim S3200000x64 ![0, 1] bcast_S3200000x1_S3200000x64_0_1 : (⟨S3200000x1, .f32⟩ : BufTy).Contents (Elt F) → (⟨S3200000x64, .f32⟩ : BufTy).Contents (Elt F)),
    binary main_v8 main_v7 main_v9 (mulf : (⟨S3200000x64, .f32⟩ : BufTy).Contents (Elt F) → (⟨S3200000x64, .f32⟩ : BufTy).Contents (Elt F) → (⟨S3200000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg6 main_v11 (broadcastInDim S3200000x1 ![0] bcast_S3200000_S3200000x1_0 : (⟨S3200000, .i32⟩ : BufTy).Contents (Elt F) → (⟨S3200000x1, .i32⟩ : BufTy).Contents (Elt F)),
    ternary main_v10 main_v11 main_v9 main_v12 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_arg3 main_v13 (broadcastInDim S100000x64 ![0, 1] bcast_S100000x1_S100000x64_0_1 : (⟨S100000x1, .f32⟩ : BufTy).Contents (Elt F) → (⟨S100000x64, .f32⟩ : BufTy).Contents (Elt F)),
    binary main_arg0 main_v13 main_v14 (mulf : (⟨S100000x64, .f32⟩ : BufTy).Contents (Elt F) → (⟨S100000x64, .f32⟩ : BufTy).Contents (Elt F) → (⟨S100000x64, .f32⟩ : BufTy).Contents (Elt F)),
    binary main_v12 main_v14 main_v15 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v15) (TRef.of (T := ⟨S100000x64, .f32⟩) main_call0_v0) (TRef.of (T := ⟨S100000x64, .f32⟩) main_v16) maximumf ]

/-- The first hop into the item table: `spmmI` of the user embedding, the scaled item embedding, their sum, the rectifier. -/
def ops2 : List (HloOp τ sig (Elt F)) :=
  [ unary main_arg2 main_v17 (broadcastInDim S3200000x1 ![0] bcast_S3200000_S3200000x1_0 : (⟨S3200000, .f32⟩ : BufTy).Contents (Elt F) → (⟨S3200000x1, .f32⟩ : BufTy).Contents (Elt F)),
    nullary main_c_1 (constantI S_ 32 0#32),
    unary main_c_1 main_v18 (broadcastInDim S3200000 ![] bcast_S_S3200000 : (⟨S_, .i32⟩ : BufTy).Contents (Elt F) → (⟨S3200000, .i32⟩ : BufTy).Contents (Elt F)),
    binary main_arg6 main_v18 main_v19 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v20 (broadcastInDim S3200000 ![] bcast_S_S3200000 : (⟨S_, .i32⟩ : BufTy).Contents (Elt F) → (⟨S3200000, .i32⟩ : BufTy).Contents (Elt F)),
    binary main_arg6 main_v20 main_v21 (addi : (⟨S3200000, .i32⟩ : BufTy).Contents (Elt F) → (⟨S3200000, .i32⟩ : BufTy).Contents (Elt F) → (⟨S3200000, .i32⟩ : BufTy).Contents (Elt F)),
    ternary main_v19 main_v21 main_arg6 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v22 main_v23 (broadcastInDim S3200000x1 ![0] bcast_S3200000_S3200000x1_0 : (⟨S3200000, .i32⟩ : BufTy).Contents (Elt F) → (⟨S3200000x1, .i32⟩ : BufTy).Contents (Elt F)),
    binary main_arg0 main_v23 main_v24 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v17 main_v25 (broadcastInDim S3200000x64 ![0, 1] bcast_S3200000x1_S3200000x64_0_1 : (⟨S3200000x1, .f32⟩ : BufTy).Contents (Elt F) → (⟨S3200000x64, .f32⟩ : BufTy).Contents (Elt F)),
    binary main_v25 main_v24 main_v26 (mulf : (⟨S3200000x64, .f32⟩ : BufTy).Contents (Elt F) → (⟨S3200000x64, .f32⟩ : BufTy).Contents (Elt F) → (⟨S3200000x64, .f32⟩ : BufTy).Contents (Elt F)),
    nullary main_cst_3 (constant S_ .f32 0x00000000#32),
    unary main_cst_3 main_v27 (broadcastInDim S50000x64 ![] bcast_S_S50000x64 : (⟨S_, .f32⟩ : BufTy).Contents (Elt F) → (⟨S50000x64, .f32⟩ : BufTy).Contents (Elt F)),
    unary main_arg7 main_v28 (broadcastInDim S3200000x1 ![0] bcast_S3200000_S3200000x1_0 : (⟨S3200000, .i32⟩ : BufTy).Contents (Elt F) → (⟨S3200000x1, .i32⟩ : BufTy).Contents (Elt F)),
    ternary main_v27 main_v28 main_v26 main_v29 ((fun x i u => Host.scatterAdd scatter_S50000x64_S3200000x1_S3200000x64_1_0_0_1 x i u) : (⟨S50000x64, .f32⟩ : BufTy).Contents (Elt F) → (⟨S3200000x1, .i32⟩ : BufTy).Contents (Elt F) → (⟨S3200000x64, .f32⟩ : BufTy).Contents (Elt F) → (⟨S50000x64, .f32⟩ : BufTy).Contents (Elt F)),
    unary main_arg4 main_v30 (broadcastInDim S50000x64 ![0, 1] bcast_S50000x1_S50000x64_0_1 : (⟨S50000x1, .f32⟩ : BufTy).Contents (Elt F) → (⟨S50000x64, .f32⟩ : BufTy).Contents (Elt F)),
    binary main_arg1 main_v30 main_v31 (mulf : (⟨S50000x64, .f32⟩ : BufTy).Contents (Elt F) → (⟨S50000x64, .f32⟩ : BufTy).Contents (Elt F) → (⟨S50000x64, .f32⟩ : BufTy).Contents (Elt F)),
    binary main_v29 main_v31 main_v32 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v32) (TRef.of (T := ⟨S50000x64, .f32⟩) main_call1_v0) (TRef.of (T := ⟨S50000x64, .f32⟩) main_v33) maximumf ]

/-- The second hop into the user table: `spmmU` of the first-hop item table, the scaled first-hop user table, their sum, the rectifier. -/
def ops3 : List (HloOp τ sig (Elt F)) :=
  [ unary main_arg2 main_v34 (broadcastInDim S3200000x1 ![0] bcast_S3200000_S3200000x1_0 : (⟨S3200000, .f32⟩ : BufTy).Contents (Elt F) → (⟨S3200000x1, .f32⟩ : BufTy).Contents (Elt F)),
    nullary main_c_4 (constantI S_ 32 0#32),
    unary main_c_4 main_v35 (broadcastInDim S3200000 ![] bcast_S_S3200000 : (⟨S_, .i32⟩ : BufTy).Contents (Elt F) → (⟨S3200000, .i32⟩ : BufTy).Contents (Elt F)),
    binary main_arg7 main_v35 main_v36 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 50000#32),
    unary main_c_5 main_v37 (broadcastInDim S3200000 ![] bcast_S_S3200000 : (⟨S_, .i32⟩ : BufTy).Contents (Elt F) → (⟨S3200000, .i32⟩ : BufTy).Contents (Elt F)),
    binary main_arg7 main_v37 main_v38 (addi : (⟨S3200000, .i32⟩ : BufTy).Contents (Elt F) → (⟨S3200000, .i32⟩ : BufTy).Contents (Elt F) → (⟨S3200000, .i32⟩ : BufTy).Contents (Elt F)),
    ternary main_v36 main_v38 main_arg7 main_v39 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v39 main_v40 (broadcastInDim S3200000x1 ![0] bcast_S3200000_S3200000x1_0 : (⟨S3200000, .i32⟩ : BufTy).Contents (Elt F) → (⟨S3200000x1, .i32⟩ : BufTy).Contents (Elt F)),
    binary main_v33 main_v40 main_v41 ((fun x i => Host.gather gather_S50000x64_S3200000x1_S3200000x64_1_0_n_n_0_1_164 x i) : (⟨S50000x64, .f32⟩ : BufTy).Contents (Elt F) → (⟨S3200000x1, .i32⟩ : BufTy).Contents (Elt F) → (⟨S3200000x64, .f32⟩ : BufTy).Contents (Elt F)),
    unary main_v34 main_v42 (broadcastInDim S3200000x64 ![0, 1] bcast_S3200000x1_S3200000x64_0_1 : (⟨S3200000x1, .f32⟩ : BufTy).Contents (Elt F) → (⟨S3200000x64, .f32⟩ : BufTy).Contents (Elt F)),
    binary main_v42 main_v41 main_v43 (mulf : (⟨S3200000x64, .f32⟩ : BufTy).Contents (Elt F) → (⟨S3200000x64, .f32⟩ : BufTy).Contents (Elt F) → (⟨S3200000x64, .f32⟩ : BufTy).Contents (Elt F)),
    nullary main_cst_6 (constant S_ .f32 0x00000000#32),
    unary main_cst_6 main_v44 (broadcastInDim S100000x64 ![] bcast_S_S100000x64 : (⟨S_, .f32⟩ : BufTy).Contents (Elt F) → (⟨S100000x64, .f32⟩ : BufTy).Contents (Elt F)),
    unary main_arg6 main_v45 (broadcastInDim S3200000x1 ![0] bcast_S3200000_S3200000x1_0 : (⟨S3200000, .i32⟩ : BufTy).Contents (Elt F) → (⟨S3200000x1, .i32⟩ : BufTy).Contents (Elt F)),
    ternary main_v44 main_v45 main_v43 main_v46 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_arg3 main_v47 (broadcastInDim S100000x64 ![0, 1] bcast_S100000x1_S100000x64_0_1 : (⟨S100000x1, .f32⟩ : BufTy).Contents (Elt F) → (⟨S100000x64, .f32⟩ : BufTy).Contents (Elt F)),
    binary main_v16 main_v47 main_v48 (mulf : (⟨S100000x64, .f32⟩ : BufTy).Contents (Elt F) → (⟨S100000x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v49) (TRef.of (T := ⟨S100000x64, .f32⟩) main_call2_v0) (TRef.of (T := ⟨S100000x64, .f32⟩) main_v50) maximumf ]

/-- The second hop into the item table: `spmmI` of the first-hop user table, the scaled first-hop item table, their sum, the rectifier. -/
def ops4 : List (HloOp τ sig (Elt F)) :=
  [ unary main_arg2 main_v51 (broadcastInDim S3200000x1 ![0] bcast_S3200000_S3200000x1_0 : (⟨S3200000, .f32⟩ : BufTy).Contents (Elt F) → (⟨S3200000x1, .f32⟩ : BufTy).Contents (Elt F)),
    nullary main_c_7 (constantI S_ 32 0#32),
    unary main_c_7 main_v52 (broadcastInDim S3200000 ![] bcast_S_S3200000 : (⟨S_, .i32⟩ : BufTy).Contents (Elt F) → (⟨S3200000, .i32⟩ : BufTy).Contents (Elt F)),
    binary main_arg6 main_v52 main_v53 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 100000#32),
    unary main_c_8 main_v54 (broadcastInDim S3200000 ![] bcast_S_S3200000 : (⟨S_, .i32⟩ : BufTy).Contents (Elt F) → (⟨S3200000, .i32⟩ : BufTy).Contents (Elt F)),
    binary main_arg6 main_v54 main_v55 (addi : (⟨S3200000, .i32⟩ : BufTy).Contents (Elt F) → (⟨S3200000, .i32⟩ : BufTy).Contents (Elt F) → (⟨S3200000, .i32⟩ : BufTy).Contents (Elt F)),
    ternary main_v53 main_v55 main_arg6 main_v56 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v56 main_v57 (broadcastInDim S3200000x1 ![0] bcast_S3200000_S3200000x1_0 : (⟨S3200000, .i32⟩ : BufTy).Contents (Elt F) → (⟨S3200000x1, .i32⟩ : BufTy).Contents (Elt F)),
    binary main_v16 main_v57 main_v58 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v51 main_v59 (broadcastInDim S3200000x64 ![0, 1] bcast_S3200000x1_S3200000x64_0_1 : (⟨S3200000x1, .f32⟩ : BufTy).Contents (Elt F) → (⟨S3200000x64, .f32⟩ : BufTy).Contents (Elt F)),
    binary main_v59 main_v58 main_v60 (mulf : (⟨S3200000x64, .f32⟩ : BufTy).Contents (Elt F) → (⟨S3200000x64, .f32⟩ : BufTy).Contents (Elt F) → (⟨S3200000x64, .f32⟩ : BufTy).Contents (Elt F)),
    nullary main_cst_9 (constant S_ .f32 0x00000000#32),
    unary main_cst_9 main_v61 (broadcastInDim S50000x64 ![] bcast_S_S50000x64 : (⟨S_, .f32⟩ : BufTy).Contents (Elt F) → (⟨S50000x64, .f32⟩ : BufTy).Contents (Elt F)),
    unary main_arg7 main_v62 (broadcastInDim S3200000x1 ![0] bcast_S3200000_S3200000x1_0 : (⟨S3200000, .i32⟩ : BufTy).Contents (Elt F) → (⟨S3200000x1, .i32⟩ : BufTy).Contents (Elt F)),
    ternary main_v61 main_v62 main_v60 main_v63 ((fun x i u => Host.scatterAdd scatter_S50000x64_S3200000x1_S3200000x64_1_0_0_1 x i u) : (⟨S50000x64, .f32⟩ : BufTy).Contents (Elt F) → (⟨S3200000x1, .i32⟩ : BufTy).Contents (Elt F) → (⟨S3200000x64, .f32⟩ : BufTy).Contents (Elt F) → (⟨S50000x64, .f32⟩ : BufTy).Contents (Elt F)),
    unary main_arg4 main_v64 (broadcastInDim S50000x64 ![0, 1] bcast_S50000x1_S50000x64_0_1 : (⟨S50000x1, .f32⟩ : BufTy).Contents (Elt F) → (⟨S50000x64, .f32⟩ : BufTy).Contents (Elt F)),
    binary main_v33 main_v64 main_v65 (mulf : (⟨S50000x64, .f32⟩ : BufTy).Contents (Elt F) → (⟨S50000x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v66) (TRef.of (T := ⟨S50000x64, .f32⟩) main_call3_v0) (TRef.of (T := ⟨S50000x64, .f32⟩) main_v67) maximumf ]

/-- The sums of the three user tables and of the three item tables. -/
def ops5 : List (HloOp τ sig (Elt F)) :=
  [ binary main_arg0 main_v16 main_v68 (addf : (⟨S100000x64, .f32⟩ : BufTy).Contents (Elt F) → (⟨S100000x64, .f32⟩ : BufTy).Contents (Elt F) → (⟨S100000x64, .f32⟩ : BufTy).Contents (Elt F)),
    binary main_v68 main_v50 main_v69 (addf : (⟨S100000x64, .f32⟩ : BufTy).Contents (Elt F) → (⟨S100000x64, .f32⟩ : BufTy).Contents (Elt F) → (⟨S100000x64, .f32⟩ : BufTy).Contents (Elt F)),
    binary main_arg1 main_v33 main_v70 (addf : (⟨S50000x64, .f32⟩ : BufTy).Contents (Elt F) → (⟨S50000x64, .f32⟩ : BufTy).Contents (Elt F) → (⟨S50000x64, .f32⟩ : BufTy).Contents (Elt F)),
    binary main_v70 main_v67 main_v71 (addf : (⟨S50000x64, .f32⟩ : BufTy).Contents (Elt F) → (⟨S50000x64, .f32⟩ : BufTy).Contents (Elt F) → (⟨S50000x64, .f32⟩ : BufTy).Contents (Elt F)) ]

/-- The two row lookups: the sampled users' rows of the summed user table and the sampled items' rows of the summed item table, negative indices wrapped. -/
def ops6 : List (HloOp τ sig (Elt F)) :=
  [ nullary main_c_10 (constantI S_ 32 0#32),
    unary main_c_10 main_v72 (broadcastInDim S16384 ![] bcast_S_S16384 : (⟨S_, .i32⟩ : BufTy).Contents (Elt F) → (⟨S16384, .i32⟩ : BufTy).Contents (Elt F)),
    binary main_arg8 main_v72 main_v73 (cmpi .slt : (⟨S16384, .i32⟩ : BufTy).Contents (Elt F) → (⟨S16384, .i32⟩ : BufTy).Contents (Elt F) → (⟨S16384, .i1⟩ : BufTy).Contents (Elt F)),
    nullary main_c_11 (constantI S_ 32 100000#32),
    unary main_c_11 main_v74 (broadcastInDim S16384 ![] bcast_S_S16384 : (⟨S_, .i32⟩ : BufTy).Contents (Elt F) → (⟨S16384, .i32⟩ : BufTy).Contents (Elt F)),
    binary main_arg8 main_v74 main_v75 (addi : (⟨S16384, .i32⟩ : BufTy).Contents (Elt F) → (⟨S16384, .i32⟩ : BufTy).Contents (Elt F) → (⟨S16384, .i32⟩ : BufTy).Contents (Elt F)),
    ternary main_v73 main_v75 main_arg8 main_v76 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v76 main_v77 (broadcastInDim S16384x1 ![0] bcast_S16384_S16384x1_0 : (⟨S16384, .i32⟩ : BufTy).Contents (Elt F) → (⟨S16384x1, .i32⟩ : BufTy).Contents (Elt F)),
    binary main_v69 main_v77 main_v78 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    nullary main_c_12 (constantI S_ 32 0#32),
    unary main_c_12 main_v79 (broadcastInDim S16384 ![] bcast_S_S16384 : (⟨S_, .i32⟩ : BufTy).Contents (Elt F) → (⟨S16384, .i32⟩ : BufTy).Contents (Elt F)),
    binary main_arg9 main_v79 main_v80 (cmpi .slt : (⟨S16384, .i32⟩ : BufTy).Contents (Elt F) → (⟨S16384, .i32⟩ : BufTy).Contents (Elt F) → (⟨S16384, .i1⟩ : BufTy).Contents (Elt F)),
    nullary main_c_13 (constantI S_ 32 50000#32),
    unary main_c_13 main_v81 (broadcastInDim S16384 ![] bcast_S_S16384 : (⟨S_, .i32⟩ : BufTy).Contents (Elt F) → (⟨S16384, .i32⟩ : BufTy).Contents (Elt F)),
    binary main_arg9 main_v81 main_v82 (addi : (⟨S16384, .i32⟩ : BufTy).Contents (Elt F) → (⟨S16384, .i32⟩ : BufTy).Contents (Elt F) → (⟨S16384, .i32⟩ : BufTy).Contents (Elt F)),
    ternary main_v80 main_v82 main_arg9 main_v83 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v83 main_v84 (broadcastInDim S16384x1 ![0] bcast_S16384_S16384x1_0 : (⟨S16384, .i32⟩ : BufTy).Contents (Elt F) → (⟨S16384x1, .i32⟩ : BufTy).Contents (Elt F)),
    binary main_v71 main_v84 main_v85 ((fun x i => Host.gather gather_S50000x64_S16384x1_S16384x64_1_0_n_n_0_1_164 x i) : (⟨S50000x64, .f32⟩ : BufTy).Contents (Elt F) → (⟨S16384x1, .i32⟩ : BufTy).Contents (Elt F) → (⟨S16384x64, .f32⟩ : BufTy).Contents (Elt F)) ]

/-- The three means, each as a one-element vector: the mean squared error twice and the scaled mean squares. -/
def ops7 : List (HloOp τ sig (Elt F)) :=
  [ binary main_v78 main_v85 main_v86 (mulf : (⟨S16384x64, .f32⟩ : BufTy).Contents (Elt F) → (⟨S16384x64, .f32⟩ : BufTy).Contents (Elt F) → (⟨S16384x64, .f32⟩ : BufTy).Contents (Elt F)),
    nullary main_cst_14 (constant S_ .f32 0x00000000#32),
    binary main_v86 main_cst_14 main_v87 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v78 main_v78 main_v88 (mulf : (⟨S16384x64, .f32⟩ : BufTy).Contents (Elt F) → (⟨S16384x64, .f32⟩ : BufTy).Contents (Elt F) → (⟨S16384x64, .f32⟩ : BufTy).Contents (Elt F)),
    nullary main_cst_15 (constant S_ .f32 0x00000000#32),
    binary main_v88 main_cst_15 main_v89 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_16 (constant S_ .f32 0x49800000#32),
    binary main_v89 main_cst_16 main_v90 (Host.divf : (⟨S_, .f32⟩ : BufTy).Contents (Elt F) → (⟨S_, .f32⟩ : BufTy).Contents (Elt F) → (⟨S_, .f32⟩ : BufTy).Contents (Elt F)),
    nullary main_cst_17 (constant S_ .f32 0x3A83126F#32),
    binary main_cst_17 main_v90 main_v91 (mulf : (⟨S_, .f32⟩ : BufTy).Contents (Elt F) → (⟨S_, .f32⟩ : BufTy).Contents (Elt F) → (⟨S_, .f32⟩ : BufTy).Contents (Elt F)),
    binary main_v85 main_v85 main_v92 (mulf : (⟨S16384x64, .f32⟩ : BufTy).Contents (Elt F) → (⟨S16384x64, .f32⟩ : BufTy).Contents (Elt F) → (⟨S16384x64, .f32⟩ : BufTy).Contents (Elt F)),
    nullary main_cst_18 (constant S_ .f32 0x00000000#32),
    binary main_v92 main_cst_18 main_v93 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_19 (constant S_ .f32 0x49800000#32),
    binary main_v93 main_cst_19 main_v94 (Host.divf : (⟨S_, .f32⟩ : BufTy).Contents (Elt F) → (⟨S_, .f32⟩ : BufTy).Contents (Elt F) → (⟨S_, .f32⟩ : BufTy).Contents (Elt F)),
    nullary main_cst_20 (constant S_ .f32 0x3A83126F#32),
    binary main_cst_20 main_v94 main_v95 (mulf : (⟨S_, .f32⟩ : BufTy).Contents (Elt F) → (⟨S_, .f32⟩ : BufTy).Contents (Elt F) → (⟨S_, .f32⟩ : BufTy).Contents (Elt F)),
    binary main_v91 main_v95 main_v96 (addf : (⟨S_, .f32⟩ : BufTy).Contents (Elt F) → (⟨S_, .f32⟩ : BufTy).Contents (Elt F) → (⟨S_, .f32⟩ : BufTy).Contents (Elt F)),
    binary main_v87 main_arg5 main_v97 (subf : (⟨S16384, .f32⟩ : BufTy).Contents (Elt F) → (⟨S16384, .f32⟩ : BufTy).Contents (Elt F) → (⟨S16384, .f32⟩ : BufTy).Contents (Elt F)),
    binary main_v97 main_v97 main_v98 (mulf : (⟨S16384, .f32⟩ : BufTy).Contents (Elt F) → (⟨S16384, .f32⟩ : BufTy).Contents (Elt F) → (⟨S16384, .f32⟩ : BufTy).Contents (Elt F)),
    nullary main_cst_21 (constant S_ .f32 0x00000000#32),
    binary main_v98 main_cst_21 main_v99 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_22 (constant S_ .f32 0x46800000#32),
    binary main_v99 main_cst_22 main_v100 (Host.divf : (⟨S_, .f32⟩ : BufTy).Contents (Elt F) → (⟨S_, .f32⟩ : BufTy).Contents (Elt F) → (⟨S_, .f32⟩ : BufTy).Contents (Elt F)),
    unary main_v100 main_v101 (broadcastInDim S1 ![] bcast_S_S1 : (⟨S_, .f32⟩ : BufTy).Contents (Elt F) → (⟨S1, .f32⟩ : BufTy).Contents (Elt F)),
    unary main_v100 main_v102 (broadcastInDim S1 ![] bcast_S_S1 : (⟨S_, .f32⟩ : BufTy).Contents (Elt F) → (⟨S1, .f32⟩ : BufTy).Contents (Elt F)),
    unary main_v96 main_v103 (broadcastInDim S1 ![] bcast_S_S1 : (⟨S_, .f32⟩ : BufTy).Contents (Elt F) → (⟨S1, .f32⟩ : BufTy).Contents (Elt F)) ]

/-- Their concatenation. -/
def ops8 : List (HloOp τ sig (Elt F)) :=
  [ nary ![main_v101, main_v102, main_v103] main_v104 (fun u => concatenate S3 0 [⟨S1, u 0⟩, ⟨S1, u 1⟩, ⟨S1, u 2⟩] concatenates_S1_S1_S1_S3_d0) ]

/-- The whole line: the chunks in program order. -/
def ops : List (HloOp τ sig (Elt F)) := ops1 ++ (ops2 ++ (ops3 ++ (ops4 ++ (ops5 ++ (ops6 ++ (ops7 ++ ops8))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The one reference an operation writes is in the list. -/
local macro "writes_one" : tactic =>
  `(tactic| (simp only [nullary_writes, unary_writes, binary_writes, ternary_writes, nary_writes, Finset.singleton_subset_iff, List.mem_toFinset]
             exact List.mem_map_of_mem (by decide)))

theorem ops1_sub : (ops1 : List (HloOp τ sig (Elt F))).Forall fun op => op.bufs ⊆ tcRefs τ sig := by
  unfold ops1; exact ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩
theorem ops1_fresh : (ops1 : List (HloOp τ sig (Elt F))).Forall fun op => op.fresh = ∅ := by
  simp only [ops1, List.Forall]; repeat' constructor
/-- The references chunk 1 writes. -/
abbrev W1 : List (Ref sig .tc) := [main_v0, main_c, main_v1, main_v2, main_c_0, main_v3, main_v4, main_v5, main_v6, main_v7, main_v8, main_v9, main_cst, main_v10, main_v11, main_v12, main_v13, main_v14, main_v15, main_call0_cst, main_call0_v0, main_v16]
theorem ops1_writes : (ops1 : List (HloOp τ sig (Elt F))).Forall fun op => op.writes ⊆ (W1.map (Proc.devRef (τ := τ) .tc)).toFinset := by
  simp only [ops1, List.Forall]; (repeat' apply And.intro) <;> writes_one
/-- A reference chunk 1 does not write keeps its contents. -/
theorem keep1 (V : Valuation τ sig (Elt F)) {r : Ref sig .tc} (h : r ∉ W1) :
    after ops1 V (no_index (Proc.devRef .tc r)) = V (Proc.devRef .tc r) := after_of_writes_sub ops1 V ops1_writes h

theorem ops2_sub : (ops2 : List (HloOp τ sig (Elt F))).Forall fun op => op.bufs ⊆ tcRefs τ sig := by
  unfold ops2; exact ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩
theorem ops2_fresh : (ops2 : List (HloOp τ sig (Elt F))).Forall fun op => op.fresh = ∅ := by
  simp only [ops2, List.Forall]; repeat' constructor
/-- The references chunk 2 writes. -/
abbrev W2 : List (Ref sig .tc) := [main_v17, main_c_1, main_v18, main_v19, main_c_2, main_v20, main_v21, main_v22, main_v23, main_v24, main_v25, main_v26, main_cst_3, main_v27, main_v28, main_v29, main_v30, main_v31, main_v32, main_call1_cst, main_call1_v0, main_v33]
theorem ops2_writes : (ops2 : List (HloOp τ sig (Elt F))).Forall fun op => op.writes ⊆ (W2.map (Proc.devRef (τ := τ) .tc)).toFinset := by
  simp only [ops2, List.Forall]; (repeat' apply And.intro) <;> writes_one
/-- A reference chunk 2 does not write keeps its contents. -/
theorem keep2 (V : Valuation τ sig (Elt F)) {r : Ref sig .tc} (h : r ∉ W2) :
    after ops2 V (no_index (Proc.devRef .tc r)) = V (Proc.devRef .tc r) := after_of_writes_sub ops2 V ops2_writes h

theorem ops3_sub : (ops3 : List (HloOp τ sig (Elt F))).Forall fun op => op.bufs ⊆ tcRefs τ sig := by
  unfold ops3; exact ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩
theorem ops3_fresh : (ops3 : List (HloOp τ sig (Elt F))).Forall fun op => op.fresh = ∅ := by
  simp only [ops3, List.Forall]; repeat' constructor
/-- The references chunk 3 writes. -/
abbrev W3 : List (Ref sig .tc) := [main_v34, main_c_4, main_v35, main_v36, main_c_5, main_v37, main_v38, main_v39, main_v40, main_v41, main_v42, main_v43, main_cst_6, main_v44, main_v45, main_v46, main_v47, main_v48, main_v49, main_call2_cst, main_call2_v0, main_v50]
theorem ops3_writes : (ops3 : List (HloOp τ sig (Elt F))).Forall fun op => op.writes ⊆ (W3.map (Proc.devRef (τ := τ) .tc)).toFinset := by
  simp only [ops3, List.Forall]; (repeat' apply And.intro) <;> writes_one
/-- A reference chunk 3 does not write keeps its contents. -/
theorem keep3 (V : Valuation τ sig (Elt F)) {r : Ref sig .tc} (h : r ∉ W3) :
    after ops3 V (no_index (Proc.devRef .tc r)) = V (Proc.devRef .tc r) := after_of_writes_sub ops3 V ops3_writes h

theorem ops4_sub : (ops4 : List (HloOp τ sig (Elt F))).Forall fun op => op.bufs ⊆ tcRefs τ sig := by
  unfold ops4; exact ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩
theorem ops4_fresh : (ops4 : List (HloOp τ sig (Elt F))).Forall fun op => op.fresh = ∅ := by
  simp only [ops4, List.Forall]; repeat' constructor
/-- The references chunk 4 writes. -/
abbrev W4 : List (Ref sig .tc) := [main_v51, main_c_7, main_v52, main_v53, main_c_8, main_v54, main_v55, main_v56, main_v57, main_v58, main_v59, main_v60, main_cst_9, main_v61, main_v62, main_v63, main_v64, main_v65, main_v66, main_call3_cst, main_call3_v0, main_v67]
theorem ops4_writes : (ops4 : List (HloOp τ sig (Elt F))).Forall fun op => op.writes ⊆ (W4.map (Proc.devRef (τ := τ) .tc)).toFinset := by
  simp only [ops4, List.Forall]; (repeat' apply And.intro) <;> writes_one
/-- A reference chunk 4 does not write keeps its contents. -/
theorem keep4 (V : Valuation τ sig (Elt F)) {r : Ref sig .tc} (h : r ∉ W4) :
    after ops4 V (no_index (Proc.devRef .tc r)) = V (Proc.devRef .tc r) := after_of_writes_sub ops4 V ops4_writes h

theorem ops5_sub : (ops5 : List (HloOp τ sig (Elt F))).Forall fun op => op.bufs ⊆ tcRefs τ sig := by
  unfold ops5; exact ⟨binary_bufs_sub .., binary_bufs_sub .., binary_bufs_sub .., binary_bufs_sub ..⟩
theorem ops5_fresh : (ops5 : List (HloOp τ sig (Elt F))).Forall fun op => op.fresh = ∅ := by
  simp only [ops5, List.Forall]; repeat' constructor
/-- The references chunk 5 writes. -/
abbrev W5 : List (Ref sig .tc) := [main_v68, main_v69, main_v70, main_v71]
theorem ops5_writes : (ops5 : List (HloOp τ sig (Elt F))).Forall fun op => op.writes ⊆ (W5.map (Proc.devRef (τ := τ) .tc)).toFinset := by
  simp only [ops5, List.Forall]; (repeat' apply And.intro) <;> writes_one
/-- A reference chunk 5 does not write keeps its contents. -/
theorem keep5 (V : Valuation τ sig (Elt F)) {r : Ref sig .tc} (h : r ∉ W5) :
    after ops5 V (no_index (Proc.devRef .tc r)) = V (Proc.devRef .tc r) := after_of_writes_sub ops5 V ops5_writes h

theorem ops6_sub : (ops6 : List (HloOp τ sig (Elt F))).Forall fun op => op.bufs ⊆ tcRefs τ sig := by
  unfold ops6; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops6_fresh : (ops6 : List (HloOp τ sig (Elt F))).Forall fun op => op.fresh = ∅ := by
  simp only [ops6, List.Forall]; repeat' constructor
/-- The references chunk 6 writes. -/
abbrev W6 : List (Ref sig .tc) := [main_c_10, main_v72, main_v73, main_c_11, main_v74, main_v75, main_v76, main_v77, main_v78, main_c_12, main_v79, main_v80, main_c_13, main_v81, main_v82, main_v83, main_v84, main_v85]
theorem ops6_writes : (ops6 : List (HloOp τ sig (Elt F))).Forall fun op => op.writes ⊆ (W6.map (Proc.devRef (τ := τ) .tc)).toFinset := by
  simp only [ops6, List.Forall]; (repeat' apply And.intro) <;> writes_one
/-- A reference chunk 6 does not write keeps its contents. -/
theorem keep6 (V : Valuation τ sig (Elt F)) {r : Ref sig .tc} (h : r ∉ W6) :
    after ops6 V (no_index (Proc.devRef .tc r)) = V (Proc.devRef .tc r) := after_of_writes_sub ops6 V ops6_writes h

theorem ops7_sub : (ops7 : List (HloOp τ sig (Elt F))).Forall fun op => op.bufs ⊆ tcRefs τ sig := by
  unfold ops7; exact ⟨binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., binary_bufs_sub .., unary_bufs_sub .., unary_bufs_sub .., unary_bufs_sub ..⟩
theorem ops7_fresh : (ops7 : List (HloOp τ sig (Elt F))).Forall fun op => op.fresh = ∅ := by
  simp only [ops7, List.Forall]; repeat' constructor
/-- The references chunk 7 writes. -/
abbrev W7 : List (Ref sig .tc) := [main_v86, main_cst_14, main_v87, main_v88, main_cst_15, main_v89, main_cst_16, main_v90, main_cst_17, main_v91, main_v92, main_cst_18, main_v93, main_cst_19, main_v94, main_cst_20, main_v95, main_v96, main_v97, main_v98, main_cst_21, main_v99, main_cst_22, main_v100, main_v101, main_v102, main_v103]
theorem ops7_writes : (ops7 : List (HloOp τ sig (Elt F))).Forall fun op => op.writes ⊆ (W7.map (Proc.devRef (τ := τ) .tc)).toFinset := by
  simp only [ops7, List.Forall]; (repeat' apply And.intro) <;> writes_one
/-- A reference chunk 7 does not write keeps its contents. -/
theorem keep7 (V : Valuation τ sig (Elt F)) {r : Ref sig .tc} (h : r ∉ W7) :
    after ops7 V (no_index (Proc.devRef .tc r)) = V (Proc.devRef .tc r) := after_of_writes_sub ops7 V ops7_writes h

theorem ops8_sub : (ops8 : List (HloOp τ sig (Elt F))).Forall fun op => op.bufs ⊆ tcRefs τ sig := by
  unfold ops8; exact nary_bufs_sub ..
theorem ops8_fresh : (ops8 : List (HloOp τ sig (Elt F))).Forall fun op => op.fresh = ∅ := by
  simp only [ops8, List.Forall]; repeat' constructor
/-- The references chunk 8 writes. -/
abbrev W8 : List (Ref sig .tc) := [main_v104]
theorem ops8_writes : (ops8 : List (HloOp τ sig (Elt F))).Forall fun op => op.writes ⊆ (W8.map (Proc.devRef (τ := τ) .tc)).toFinset := by
  simp only [ops8, List.Forall]; (repeat' apply And.intro) <;> writes_one
/-- A reference chunk 8 does not write keeps its contents. -/
theorem keep8 (V : Valuation τ sig (Elt F)) {r : Ref sig .tc} (h : r ∉ W8) :
    after ops8 V (no_index (Proc.devRef .tc r)) = V (Proc.devRef .tc r) := after_of_writes_sub ops8 V ops8_writes h

set_option maxHeartbeats 2000000 in
/-- Chunk 1 leaves in `main_v16` the first-hop user table: `reluU` of the propagation of the item embedding, the user embedding and the user degrees. -/
theorem stage1 (V : Valuation τ sig (Elt F)) :
    after ops1 V (no_index (Proc.devRef .tc main_v16))
      = Cert.RefSpec.reluU (Cert.RefSpec.spmmU (V (Proc.devRef .tc main_arg2)) (V (Proc.devRef .tc main_arg6)) (V (Proc.devRef .tc main_arg7)) (V (Proc.devRef .tc main_arg1))) (V (Proc.devRef .tc main_arg0)) (V (Proc.devRef .tc main_arg3)) := by
  unfold ops1
  after_results
  rfl

set_option maxHeartbeats 2000000 in
/-- Chunk 2 leaves in `main_v33` the first-hop item table. -/
theorem stage2 (V : Valuation τ sig (Elt F)) :
    after ops2 V (no_index (Proc.devRef .tc main_v33))
      = Cert.RefSpec.reluI (Cert.RefSpec.spmmI (V (Proc.devRef .tc main_arg2)) (V (Proc.devRef .tc main_arg6)) (V (Proc.devRef .tc main_arg7)) (V (Proc.devRef .tc main_arg0))) (V (Proc.devRef .tc main_arg1)) (V (Proc.devRef .tc main_arg4)) := by
  unfold ops2
  after_results
  rfl

set_option maxHeartbeats 2000000 in
/-- Chunk 3 leaves in `main_v50` the second-hop user table, of the first-hop tables it reads. -/
theorem stage3 (V : Valuation τ sig (Elt F)) :
    after ops3 V (no_index (Proc.devRef .tc main_v50))
      = Cert.RefSpec.reluU (Cert.RefSpec.spmmU (V (Proc.devRef .tc main_arg2)) (V (Proc.devRef .tc main_arg6)) (V (Proc.devRef .tc main_arg7)) (V (Proc.devRef .tc main_v33))) (V (Proc.devRef .tc main_v16)) (V (Proc.devRef .tc main_arg3)) := by
  unfold ops3
  after_results
  rfl

set_option maxHeartbeats 2000000 in
/-- Chunk 4 leaves in `main_v67` the second-hop item table, of the first-hop tables it reads. -/
theorem stage4 (V : Valuation τ sig (Elt F)) :
    after ops4 V (no_index (Proc.devRef .tc main_v67))
      = Cert.RefSpec.reluI (Cert.RefSpec.spmmI (V (Proc.devRef .tc main_arg2)) (V (Proc.devRef .tc main_arg6)) (V (Proc.devRef .tc main_arg7)) (V (Proc.devRef .tc main_v16))) (V (Proc.devRef .tc main_v33)) (V (Proc.devRef .tc main_arg4)) := by
  unfold ops4
  after_results
  rfl

set_option maxHeartbeats 2000000 in
/-- Chunk 5 leaves in `main_v69` the sum of the three user tables -/
theorem stage5_v69 (V : Valuation τ sig (Elt F)) :
    after ops5 V (no_index (Proc.devRef .tc main_v69))
      = addf (addf (V (Proc.devRef .tc main_arg0)) (V (Proc.devRef .tc main_v16))) (V (Proc.devRef .tc main_v50)) := by
  unfold ops5
  after_results

set_option maxHeartbeats 2000000 in
/-- and in `main_v71` the sum of the three item tables. -/
theorem stage5_v71 (V : Valuation τ sig (Elt F)) :
    after ops5 V (no_index (Proc.devRef .tc main_v71))
      = addf (addf (V (Proc.devRef .tc main_arg1)) (V (Proc.devRef .tc main_v33))) (V (Proc.devRef .tc main_v67)) := by
  unfold ops5
  after_results

set_option maxHeartbeats 2000000 in
/-- Chunk 6 leaves in `main_v78` the sampled users' rows of the summed user table -/
theorem stage6_v78 (V : Valuation τ sig (Elt F)) :
    after ops6 V (no_index (Proc.devRef .tc main_v78))
      = Cert.RefSpec.takeU (V (Proc.devRef .tc main_v69)) (V (Proc.devRef .tc main_arg8)) := by
  unfold ops6
  after_results
  rfl

set_option maxHeartbeats 2000000 in
/-- and in `main_v85` the sampled items' rows of the summed item table. -/
theorem stage6_v85 (V : Valuation τ sig (Elt F)) :
    after ops6 V (no_index (Proc.devRef .tc main_v85))
      = Cert.RefSpec.takeI (V (Proc.devRef .tc main_v71)) (V (Proc.devRef .tc main_arg9)) := by
  unfold ops6
  after_results
  rfl

set_option maxHeartbeats 2000000 in
/-- Chunk 7 leaves in `main_v101` the mean squared error as a one-element vector, -/
theorem stage7_v101 (V : Valuation τ sig (Elt F)) :
    after ops7 V (no_index (Proc.devRef .tc main_v101))
      = broadcastInDim S1 ![] bcast_S_S1 (Cert.RefSpec.mse (V (Proc.devRef .tc main_v78)) (V (Proc.devRef .tc main_v85)) (V (Proc.devRef .tc main_arg5))) := by
  unfold ops7
  after_results
  rfl

set_option maxHeartbeats 2000000 in
/-- the same in `main_v102`, -/
theorem stage7_v102 (V : Valuation τ sig (Elt F)) :
    after ops7 V (no_index (Proc.devRef .tc main_v102))
      = broadcastInDim S1 ![] bcast_S_S1 (Cert.RefSpec.mse (V (Proc.devRef .tc main_v78)) (V (Proc.devRef .tc main_v85)) (V (Proc.devRef .tc main_arg5))) := by
  unfold ops7
  after_results
  rfl

set_option maxHeartbeats 2000000 in
/-- and in `main_v103` the sum of the two scaled mean squares. -/
theorem stage7_v103 (V : Valuation τ sig (Elt F)) :
    after ops7 V (no_index (Proc.devRef .tc main_v103))
      = broadcastInDim S1 ![] bcast_S_S1 (addf (Cert.RefSpec.l2term (V (Proc.devRef .tc main_v78))) (Cert.RefSpec.l2term (V (Proc.devRef .tc main_v85)))) := by
  unfold ops7
  after_results
  rfl

set_option maxHeartbeats 2000000 in
/-- Chunk 8 leaves in `main_v104` the concatenation of the three one-element vectors it reads. -/
theorem stage8 (V : Valuation τ sig (Elt F)) :
    after ops8 V (no_index (Proc.devRef .tc main_v104))
      = concatenate S3 0 [⟨S1, (V (Proc.devRef .tc main_v101))⟩, ⟨S1, (V (Proc.devRef .tc main_v102))⟩, ⟨S1, (V (Proc.devRef .tc main_v103))⟩] concatenates_S1_S1_S1_S3_d0 := by
  unfold ops8
  simp only [after_cons, after_nil]
  rw [nary_result]
  rfl

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A concatenation of three pieces of one shape is determined by the pieces. -/
theorem concat3_congr {α : Type} {t s : Shape} (a : Fin t.rank) (h : Shape.Concatenates [s, s, s] t a)
    {x x' y y' z z' : s.Idx → α} (hx : x = x') (hy : y = y') (hz : z = z') :
    concatenate t a [⟨s, x⟩, ⟨s, y⟩, ⟨s, z⟩] h = concatenate t a [⟨s, x'⟩, ⟨s, y'⟩, ⟨s, z'⟩] h := by
  subst hx hy hz; rfl

set_option maxHeartbeats 4000000 in
/-- The whole line leaves in `main_v104` the computation `final` of the ten arguments' contents: each chunk's result is
    its stage of what the chunks before it left, and what a chunk does not write it leaves alone. -/
theorem after_ops_result (V : Valuation τ sig (Elt F)) :
    after ops V (Proc.devRef .tc main_v104)
      = Cert.RefSpec.final (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  unfold ops
  simp only [after_app]
  rw [stage8]
  simp only [Cert.RefSpec.final, Cert.RefSpec.g1u, Cert.RefSpec.g1i, Cert.RefSpec.tail]
  refine concat3_congr _ _ ?_ ?_ ?_
  · simp (disch := decide) only [stage7_v101, stage7_v102, stage7_v103, stage6_v78, stage6_v85, stage5_v69, stage5_v71,
      stage4, stage3, stage2, stage1, keep1, keep2, keep3, keep4, keep5, keep6, keep7]
  · simp (disch := decide) only [stage7_v101, stage7_v102, stage7_v103, stage6_v78, stage6_v85, stage5_v69, stage5_v71,
      stage4, stage3, stage2, stage1, keep1, keep2, keep3, keep4, keep5, keep6, keep7]
  · simp (disch := decide) only [stage7_v101, stage7_v102, stage7_v103, stage6_v78, stage6_v85, stage5_v69, stage5_v71,
      stage4, stage3, stage2, stage1, keep1, keep2, keep3, keep4, keep5, keep6, keep7]

theorem ops_sub : (ops : List (HloOp τ sig (Elt F))).Forall fun op => op.bufs ⊆ tcRefs τ sig := by
  unfold ops; simp only [List.forall_append]
  exact ⟨ops1_sub, ops2_sub, ops3_sub, ops4_sub, ops5_sub, ops6_sub, ops7_sub, ops8_sub⟩

theorem ops_fresh : (ops : List (HloOp τ sig (Elt F))).Forall fun op => op.fresh = ∅ := by
  unfold ops; simp only [List.forall_append]
  exact ⟨ops1_fresh, ops2_fresh, ops3_fresh, ops4_fresh, ops5_fresh, ops6_fresh, ops7_fresh, ops8_fresh⟩

/-- A reference no chunk writes keeps its contents through the whole line. -/
theorem after_ops_keep (V : Valuation τ sig (Elt F)) {r : Ref sig .tc} (h1 : r ∉ W1) (h2 : r ∉ W2) (h3 : r ∉ W3) (h4 : r ∉ W4)
    (h5 : r ∉ W5) (h6 : r ∉ W6) (h7 : r ∉ W7) (h8 : r ∉ W8) :
    after ops V (Proc.devRef .tc r) = V (Proc.devRef .tc r) := by
  unfold ops
  simp only [after_app]
  exact (keep8 _ h8).trans ((keep7 _ h7).trans ((keep6 _ h6).trans ((keep5 _ h5).trans ((keep4 _ h4).trans ((keep3 _ h3).trans
    ((keep2 _ h2).trans (keep1 _ h1)))))))

end Cert.RefRun

namespace Cert.RefSpec

open Cert.ReferenceIdeal Cert.ReferenceIdeal.Gen Idealize.ShloMosaic Idealize.ShloMosaic.TcCoe Idealize.SL.Sem Idealize.ShloMosaic.StableHlo
open Cert.RefRun

/-- On every device, for any float values, from any memory with zero counters: every weakly fair execution of the
    reference terminates with its result at `final` of the ten arguments' launch contents, the arguments unchanged. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = Cert.RefSpec.final (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run defs _ _).mono (fun _ h c => ⟨(h c main_v104).trans (after_ops_result (launchContents m c)),
      (h c main_arg0).trans (after_ops_keep (launchContents m c) (by decide : main_arg0 ∉ W1) (by decide : main_arg0 ∉ W2) (by decide : main_arg0 ∉ W3) (by decide : main_arg0 ∉ W4) (by decide : main_arg0 ∉ W5) (by decide : main_arg0 ∉ W6) (by decide : main_arg0 ∉ W7) (by decide : main_arg0 ∉ W8)),
      (h c main_arg1).trans (after_ops_keep (launchContents m c) (by decide : main_arg1 ∉ W1) (by decide : main_arg1 ∉ W2) (by decide : main_arg1 ∉ W3) (by decide : main_arg1 ∉ W4) (by decide : main_arg1 ∉ W5) (by decide : main_arg1 ∉ W6) (by decide : main_arg1 ∉ W7) (by decide : main_arg1 ∉ W8)),
      (h c main_arg2).trans (after_ops_keep (launchContents m c) (by decide : main_arg2 ∉ W1) (by decide : main_arg2 ∉ W2) (by decide : main_arg2 ∉ W3) (by decide : main_arg2 ∉ W4) (by decide : main_arg2 ∉ W5) (by decide : main_arg2 ∉ W6) (by decide : main_arg2 ∉ W7) (by decide : main_arg2 ∉ W8)),
      (h c main_arg3).trans (after_ops_keep (launchContents m c) (by decide : main_arg3 ∉ W1) (by decide : main_arg3 ∉ W2) (by decide : main_arg3 ∉ W3) (by decide : main_arg3 ∉ W4) (by decide : main_arg3 ∉ W5) (by decide : main_arg3 ∉ W6) (by decide : main_arg3 ∉ W7) (by decide : main_arg3 ∉ W8)),
      (h c main_arg4).trans (after_ops_keep (launchContents m c) (by decide : main_arg4 ∉ W1) (by decide : main_arg4 ∉ W2) (by decide : main_arg4 ∉ W3) (by decide : main_arg4 ∉ W4) (by decide : main_arg4 ∉ W5) (by decide : main_arg4 ∉ W6) (by decide : main_arg4 ∉ W7) (by decide : main_arg4 ∉ W8)),
      (h c main_arg5).trans (after_ops_keep (launchContents m c) (by decide : main_arg5 ∉ W1) (by decide : main_arg5 ∉ W2) (by decide : main_arg5 ∉ W3) (by decide : main_arg5 ∉ W4) (by decide : main_arg5 ∉ W5) (by decide : main_arg5 ∉ W6) (by decide : main_arg5 ∉ W7) (by decide : main_arg5 ∉ W8)),
      (h c main_arg6).trans (after_ops_keep (launchContents m c) (by decide : main_arg6 ∉ W1) (by decide : main_arg6 ∉ W2) (by decide : main_arg6 ∉ W3) (by decide : main_arg6 ∉ W4) (by decide : main_arg6 ∉ W5) (by decide : main_arg6 ∉ W6) (by decide : main_arg6 ∉ W7) (by decide : main_arg6 ∉ W8)),
      (h c main_arg7).trans (after_ops_keep (launchContents m c) (by decide : main_arg7 ∉ W1) (by decide : main_arg7 ∉ W2) (by decide : main_arg7 ∉ W3) (by decide : main_arg7 ∉ W4) (by decide : main_arg7 ∉ W5) (by decide : main_arg7 ∉ W6) (by decide : main_arg7 ∉ W7) (by decide : main_arg7 ∉ W8)),
      (h c main_arg8).trans (after_ops_keep (launchContents m c) (by decide : main_arg8 ∉ W1) (by decide : main_arg8 ∉ W2) (by decide : main_arg8 ∉ W3) (by decide : main_arg8 ∉ W4) (by decide : main_arg8 ∉ W5) (by decide : main_arg8 ∉ W6) (by decide : main_arg8 ∉ W7) (by decide : main_arg8 ∉ W8)),
      (h c main_arg9).trans (after_ops_keep (launchContents m c) (by decide : main_arg9 ∉ W1) (by decide : main_arg9 ∉ W2) (by decide : main_arg9 ∉ W3) (by decide : main_arg9 ∉ W4) (by decide : main_arg9 ∉ W5) (by decide : main_arg9 ∉ W6) (by decide : main_arg9 ∉ W7) (by decide : main_arg9 ∉ W8))⟩)
    (run_seq scopedRefs_eq scopedSems_eq defs main (fun _ => ops) main_eq (fun _ => ops_sub) m ρ
      (fun _ => List.forall_iff_forall_mem.mp ops_fresh))

end Cert.RefSpec

end
-- ==== Proof.lean ====
/-
  Two hops of degree-scaled propagation on a bipartite user–item edge list, a lookup of 16384 user rows and item rows,
  and three means. The kernel program computes the four residual stages `max (s + x * d) 0` in row-tiled kernel regions
  and the two row lookups in kernel regions driven by prefetched index tables; everything else (the edge gathers, the
  scatter-adds, the sums of tables, the means) is the same host operations in both programs.

  The precondition is the finiteness of the float inputs together with the range of the two lookup tables:
  `0 ≤ user0 < 100000` and `0 ≤ item_i0 < 50000`. The range is what the kernel's frame needs (a lookup region fetches the
  block its index word names) and what makes the reference's clamped, sign-wrapped lookup the plain row read.

  * Frames of the kernel, as printed and idealized: the program is thirteen items — seven host stretches and six regions —
    run through the several-regions launch; no item writes an argument (`Proof/K`, `Proof/KI`: the regions' proof data
    and body triples, the contents between items, the regions as items, the launch, the run under the precondition).
  * Frame of the reference: its run (`RefRunH`) with the result dropped.
  * The idealization rewrote nothing.
  * Equal results at the ideal instance: the kernel's last item leaves the result buffer at the reference's composed
    stages `RefSpec.final` of the arguments (`KI/KernelValue`: each residual region's output array is the stage
    `reluU` / `reluI` of its inputs, each lookup region's output is the reference's lookup under the range), and the
    reference's own run, read back stage by stage, ends at `RefSpec.final` of its arguments (`RefRunH`).
-/
import proofs.«430333_j20727512170685_2_alg».proof.Defs
import proofs.«430333_j20727512170685_2_alg».proof.Proof.Gen.Kernel
import proofs.«430333_j20727512170685_2_alg».proof.Proof.Gen.KernelIdeal
import proofs.«430333_j20727512170685_2_alg».proof.Proof.Gen.ReferenceIdeal
import proofs.«430333_j20727512170685_2_alg».proof.Proof.Gen.Pre_finite_inputs
import proofs.«430333_j20727512170685_2_alg».proof.Proof.K.Frame
import proofs.«430333_j20727512170685_2_alg».proof.Proof.KI.Frame
import proofs.«430333_j20727512170685_2_alg».proof.Proof.KI.KernelValue
import proofs.«430333_j20727512170685_2_alg».proof.Proof.RefRunH
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ hpre =>
  (θ_run (Cert.Kernel.defs (F := Bits)) _ _).mono (fun _ h c => (h c).2) (Cert.Kernel.Gen.run_post (F := Bits) m ρ hpre)

/-- The idealized kernel runs and leaves its arguments unchanged. -/
theorem frame_ki : Cert.frame_KernelIdeal := fun m ρ hpre =>
  (θ_run (Cert.KernelIdeal.defs (F := Ideal)) _ _).mono (fun _ h c => (h c).2) (Cert.KernelIdeal.Gen.run_post (F := Ideal) m ρ hpre)

/-- The reference runs and leaves its arguments unchanged: its run with the result dropped. -/
theorem frame_ri : Cert.frame_ReferenceIdeal := fun m ρ _ =>
  (θ_run Cert.ReferenceIdeal.defs _ _).mono (fun _ h c => (h c).2) (Cert.RefSpec.ref_run (F := Ideal) m ρ)

/-- Both idealized programs end with the result `RefSpec.final` of the arguments. -/
theorem algebraic : Cert.algebraic_KernelIdeal_ReferenceIdeal := by
  intro m ρ m' ρ' hpre hagree
  refine ⟨fun c => Cert.RefSpec.final (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run (Cert.KernelIdeal.defs (F := Ideal)) _ _).mono (fun _ h c => ⟨(h c).1.trans ?_, (h c).2⟩)
      (Cert.KernelIdeal.Gen.run_post (F := Ideal) m ρ hpre)
    exact Cert.KernelIdeal.Gen.kernel_value m ρ (Cert.KernelIdeal.Gen.a4Of m hpre) (Cert.KernelIdeal.Gen.a5Of m hpre)
      (Cert.KernelIdeal.Gen.idx_of_Pre m hpre).1 (Cert.KernelIdeal.Gen.idx_of_Pre m hpre).2
      (fun c => Cert.KernelIdeal.Gen.tbl4_zero m c) (fun c => Cert.KernelIdeal.Gen.tbl5_zero m c) c
  · refine (θ_run Cert.ReferenceIdeal.defs _ _).mono (fun _ h c => ⟨(h c).1.trans ?_, (h c).2⟩)
      (Cert.RefSpec.ref_run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
